-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x4 : Shape := ⟨2, ![8192, 4]⟩
abbrev S512x512 : Shape := ⟨2, ![512, 512]⟩
abbrev S512x1 : Shape := ⟨2, ![512, 1]⟩
abbrev S512x4 : Shape := ⟨2, ![512, 4]⟩
abbrev S512x8192 : Shape := ⟨2, ![512, 8192]⟩
abbrev S1x512 : Shape := ⟨2, ![1, 512]⟩
abbrev S512 : Shape := ⟨1, ![512]⟩
abbrev S1x1 : Shape := ⟨2, ![1, 1]⟩
abbrev S1 : Shape := ⟨1, ![1]⟩

abbrev nBuf : Space → Nat
  | .hbm => 86
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x4, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S8192, .f32⟩
  | .hbm, ⟨16, _⟩ => ⟨S8192x1, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .i1⟩
  | .hbm, ⟨39, _⟩ => ⟨S8192, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x512, .f32⟩
  | .hbm, ⟨46, _⟩ => ⟨S1x8192, .f32⟩
  | .hbm, ⟨47, _⟩ => ⟨S8192, .f32⟩
  | .hbm, ⟨48, _⟩ => ⟨S1x1, .f32⟩
  | .hbm, ⟨49, _⟩ => ⟨S_, .f32⟩
  | .hbm, ⟨50, _⟩ => ⟨S_, .i32⟩
  | .hbm, ⟨51, _⟩ => ⟨S1, .i32⟩
  | .hbm, ⟨52, _⟩ => ⟨S8192, .f32⟩
  | .hbm, ⟨53, _⟩ => ⟨S1, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .f32⟩
  | .hbm, ⟨58, _⟩ => ⟨S8192, .f32⟩
  | .hbm, ⟨59, _⟩ => ⟨S8192, .i1⟩
  | .hbm, ⟨60, _⟩ => ⟨S8192, .i1⟩
  | .hbm, ⟨61, _⟩ => ⟨S8192, .i1⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x1, .i32⟩
  | .local _ .vmem, ⟨4, _⟩ => ⟨S512x1, .i32⟩
  | .local _ .vmem, ⟨5, _⟩ => ⟨S1x8192, .i32⟩
  | .local _ .vmem, ⟨6, _⟩ => ⟨S512x1, .f32⟩
  | .local _ .vmem, ⟨7, _⟩ => ⟨S512x1, .f32⟩
  | .local _ .vmem, ⟨8, _⟩ => ⟨S512x4, .f32⟩
  | .local _ .vmem, ⟨9, _⟩ => ⟨S512x4, .f32⟩
  | .local _ .vmem, ⟨10, _⟩ => ⟨S512x8192, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32_41 : BitVec 32 := 0#32
  let c0_i32 : BitVec 32 := 0#32
  let c1_i32 : BitVec 32 := 1#32
  let arg14 : BitVec 32 := Scf.iv c0_i32 c1_i32 k0_t1
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  v42
def k0_off1 (k0_t1 : Fin k0_t1_loop.trips) : Fin 2 → Nat :=
  let c0_i32_41 : BitVec 32 := 0#32
  let c0_i32 : BitVec 32 := 0#32
  let c1_i32 : BitVec 32 := 1#32
  let arg14 : BitVec 32 := Scf.iv c0_i32 c1_i32 k0_t1
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  let v43 : BitVec 32 := v42
  let v44 : Index := Scalar.indexCast v43
  let c0_42 : Index := 0#32
  ![v44.toNat, 0]
def k0_off2 (k0_t1 : Fin k0_t1_loop.trips) : Fin 2 → Nat :=
  let c0_43 : Index := 0#32
  let c0_i32_41 : BitVec 32 := 0#32
  let c0_i32 : BitVec 32 := 0#32
  let c1_i32 : BitVec 32 := 1#32
  let arg14 : BitVec 32 := Scf.iv c0_i32 c1_i32 k0_t1
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  let v43 : BitVec 32 := v42
  let v47 : Index := Scalar.indexCast v43
  ![0, v47.toNat]
def k0_off3 (k0_t1 : Fin k0_t1_loop.trips) : Fin 2 → Nat :=
  let c0_60 : Index := 0#32
  let c0_i32_41 : BitVec 32 := 0#32
  let c0_i32 : BitVec 32 := 0#32
  let c1_i32 : BitVec 32 := 1#32
  let arg14 : BitVec 32 := Scf.iv c0_i32 c1_i32 k0_t1
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  let v43 : BitVec 32 := v42
  let v89 : Index := Scalar.indexCast v43
  ![0, v89.toNat]
@[reducible] def k0_t2_loop : Scf.Loop 32 :=
  let c0_i32_23 : BitVec 32 := 0#32
  let c16_i32_24 : BitVec 32 := 16#32
  let v31 : BitVec 32 := Scalar.addi c0_i32_23 c16_i32_24
  let c1_i32_25 : BitVec 32 := 1#32
  ⟨c0_i32_23, v31, c1_i32_25⟩
def k0_mult2 (k0_t2 : Fin k0_t2_loop.trips) : BitVec 32 :=
  let c0_i32_41 : BitVec 32 := 0#32
  let c0_i32_23 : BitVec 32 := 0#32
  let c1_i32_25 : BitVec 32 := 1#32
  let arg14 : BitVec 32 := Scf.iv c0_i32_23 c1_i32_25 k0_t2
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  v42
def k0_off4 (k0_t2 : Fin k0_t2_loop.trips) : Fin 2 → Nat :=
  let c0_42 : Index := 0#32
  let c0_i32_41 : BitVec 32 := 0#32
  let c0_i32_23 : BitVec 32 := 0#32
  let c1_i32_25 : BitVec 32 := 1#32
  let arg14 : BitVec 32 := Scf.iv c0_i32_23 c1_i32_25 k0_t2
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  let v43 : BitVec 32 := v42
  let v44 : Index := Scalar.indexCast v43
  ![0, v44.toNat]
def k0_off5 (k0_t2 : Fin k0_t2_loop.trips) : Fin 2 → Nat :=
  let c0_43 : Index := 0#32
  let c0_i32_41 : BitVec 32 := 0#32
  let c0_i32_23 : BitVec 32 := 0#32
  let c1_i32_25 : BitVec 32 := 1#32
  let arg14 : BitVec 32 := Scf.iv c0_i32_23 c1_i32_25 k0_t2
  let c1_i32_40 : BitVec 32 := 1#32
  let v40 : BitVec 32 := Scalar.muli arg14 c1_i32_40
  let v41 : BitVec 32 := Scalar.addi c0_i32_41 v40
  let c512_i32 : BitVec 32 := 512#32
  let v42 : BitVec 32 := Scalar.muli v41 c512_i32
  let v43 : BitVec 32 := v42
  let v47 : Index := Scalar.indexCast v43
  ![0, v47.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  reducesTo_S8192x512_S8192_d1 : S8192x512.ReducesTo [1] S8192
  h_S_ : 0 < S_.numel
  bcast_S8192_S8192x1_0 : S8192.BroadcastsInDim S8192x1 (![0] : Fin 1 → Fin S8192x1.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512 : 0 < S1x512.numel
  shapeCasts_S1x512_S1x512 : S1x512.ShapeCasts S1x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  inb_S512x4_S512x1_0_0 : ∀ a, (![0, 0] : Fin 2 → Nat) a + S512x1.size a ≤ S512x4.size a
  inb_S512x4_S512x1_0_1 : ∀ a, (![0, 1] : Fin 2 → Nat) a + S512x1.size a ≤ S512x4.size a
  inb_S512x4_S512x1_0_2 : ∀ a, (![0, 2] : Fin 2 → Nat) a + S512x1.size a ≤ S512x4.size a
  inb_S512x4_S512x1_0_3 : ∀ a, (![0, 3] : Fin 2 → Nat) a + S512x1.size a ≤ S512x4.size a
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S_S8192 : S_.BroadcastsInDim S8192 (![] : Fin 0 → Fin S8192.rank)
  reducesTo_S8192_S_d0 : S8192.ReducesTo [0] S_
  slices_S8192x512_S1x512_8191_0 : S8192x512.Slices ![8191, 0] S1x512
  shapeCasts_S1x8192_S8192 : S1x8192.ShapeCasts S8192
  slices_S8192x1_S1x1_8191_0 : S8192x1.Slices ![8191, 0] S1x1
  shapeCasts_S1x1_S_ : S1x1.ShapeCasts S_
  bcast_S_S1 : S_.BroadcastsInDim S1 (![] : Fin 0 → Fin S1.rank)
  slices_S8192_S1_8191 : S8192.Slices ![8191] S1
  shapeCasts_S1_S_ : S1.ShapeCasts S_
  dot_S512x512_S512x512_S512x512_1_1_0_0_n_n_wf : DotDims.WF S512x512 S512x512 S512x512 [1] [1] [0] [0] [] []
  dot_S1x512_S8192x512_S1x8192_1_1_0_0_n_n_wf : DotDims.WF S1x512 S8192x512 S1x8192 [1] [1] [0] [0] [] []
  scatter_S8192_S1_S__n_0_0_0_wf : ScatterDims.WF S8192 S1 S_ [] [0] [0] 0
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S8192x512.size a
  k0_off2_inb : ∀ k0_t1 : Fin k0_t1_loop.trips, ∀ a, (k0_off2 k0_t1) a + S1x512.size a ≤ S1x8192.size a
  k0_off3_inb : ∀ k0_t1 : Fin k0_t1_loop.trips, ∀ a, (k0_off3 k0_t1) a + S512x512.size a ≤ S512x8192.size a
  k0_t2_ok : k0_t2_loop.OK
  k0_mult2_dvd : ∀ k0_t2 : Fin k0_t2_loop.trips, 512 ∣ (k0_mult2 k0_t2).toNat
  k0_off4_inb : ∀ k0_t2 : Fin k0_t2_loop.trips, ∀ a, (k0_off4 k0_t2) a + S1x512.size a ≤ S1x8192.size a
  k0_off5_inb : ∀ k0_t2 : Fin k0_t2_loop.trips, ∀ a, (k0_off5 k0_t2) a + S512x512.size a ≤ S512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S8192x4.size a
  hwx0_5 : ∀ i : grid0.Coords, EltTy.bits .f32 = 32 ∨ (Rect.block (s := S8192x4) S512x4.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S1x512_S8192x512_S1x8192_1_1_0_0_n_n : DotDims S1x512 S8192x512 S1x8192 where
  lhsContracting := [1]
  rhsContracting := [1]
  lhsNonContracting := [0]
  rhsNonContracting := [0]
  lhsBatch := []
  rhsBatch := []
  wf := dot_S1x512_S8192x512_S1x8192_1_1_0_0_n_n_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 124
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .i1⟩
  | .hbm, ⟨32, _⟩ => ⟨S8192x8192, .i1⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S8192x8192, .i32⟩
  | .hbm, ⟨41, _⟩ => ⟨S_, .i32⟩
  | .hbm, ⟨42, _⟩ => ⟨S8192, .i32⟩
  | .hbm, ⟨43, _⟩ => ⟨S8192x8192, .i32⟩
  | .hbm, ⟨44, _⟩ => ⟨S_, .i32⟩
  | .hbm, ⟨45, _⟩ => ⟨S8192, .i32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .f32⟩
  | .hbm, ⟨70, _⟩ => ⟨S8192, .f32⟩
  | .hbm, ⟨71, _⟩ => ⟨S_, .i32⟩
  | .hbm, ⟨72, _⟩ => ⟨S8192, .i32⟩
  | .hbm, ⟨73, _⟩ => ⟨S8192, .i1⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8192, .i1⟩
  | .hbm, ⟨84, _⟩ => ⟨S8192, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1x8192, .i1⟩
  | .hbm, ⟨91, _⟩ => ⟨S8192, .i1⟩
  | .hbm, ⟨92, _⟩ => ⟨S1x8192, .i1⟩
  | .hbm, ⟨93, _⟩ => ⟨S8192, .i1⟩
  | .hbm, ⟨94, _⟩ => ⟨S1x8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S8192, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .f32⟩
  | .hbm, ⟨108, _⟩ => ⟨S_, .f32⟩
  | .hbm, ⟨109, _⟩ => ⟨S1x8192, .f32⟩
  | .hbm, ⟨110, _⟩ => ⟨S8192, .f32⟩
  | .hbm, ⟨111, _⟩ => ⟨S_, .f32⟩
  | .hbm, ⟨112, _⟩ => ⟨S_, .f32⟩
  | .hbm, ⟨113, _⟩ => ⟨S8192, .f32⟩
  | .hbm, ⟨114, _⟩ => ⟨S8192, .f32⟩
  | .hbm, ⟨115, _⟩ => ⟨S_, .f32⟩
  | .hbm, ⟨116, _⟩ => ⟨S_, .f32⟩
  | .hbm, ⟨117, _⟩ => ⟨S8192, .i32⟩
  | .hbm, ⟨118, _⟩ => ⟨S_, .i32⟩
  | .hbm, ⟨119, _⟩ => ⟨S_, .i32⟩
  | .hbm, ⟨120, _⟩ => ⟨S_, .i32⟩
  | .hbm, ⟨121, _⟩ => ⟨S_, .i32⟩
  | .hbm, ⟨122, _⟩ => ⟨S_, .f32⟩
  | .hbm, ⟨123, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_c_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_14 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_call4_v0 : Ref sig .tc := ⟨.hbm, 76, rfl⟩
abbrev main_call4_v1 : Ref sig .tc := ⟨.hbm, 77, rfl⟩
abbrev main_v48 : Ref sig .tc := ⟨.hbm, 78, rfl⟩
abbrev main_cst_16 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_18 : Ref sig .tc := ⟨.hbm, 85, rfl⟩
abbrev main_v53 : Ref sig .tc := ⟨.hbm, 86, rfl⟩
abbrev main_v54 : Ref sig .tc := ⟨.hbm, 87, rfl⟩
abbrev main_cst_19 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_20 : Ref sig .tc := ⟨.hbm, 96, rfl⟩
abbrev main_call5_v0 : Ref sig .tc := ⟨.hbm, 97, rfl⟩
abbrev main_call5_v1 : Ref sig .tc := ⟨.hbm, 98, rfl⟩
abbrev main_v62 : Ref sig .tc := ⟨.hbm, 99, rfl⟩
abbrev main_cst_21 : Ref sig .tc := ⟨.hbm, 100, rfl⟩
abbrev main_v63 : Ref sig .tc := ⟨.hbm, 101, rfl⟩
abbrev main_v64 : Ref sig .tc := ⟨.hbm, 102, rfl⟩
abbrev main_c_22 : Ref sig .tc := ⟨.hbm, 103, rfl⟩
abbrev main_v65 : Ref sig .tc := ⟨.hbm, 104, rfl⟩
abbrev main_c_23 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_24 : Ref sig .tc := ⟨.hbm, 111, rfl⟩
abbrev main_call6_v0 : Ref sig .tc := ⟨.hbm, 112, rfl⟩
abbrev main_call6_v1 : Ref sig .tc := ⟨.hbm, 113, rfl⟩
abbrev main_v71 : Ref sig .tc := ⟨.hbm, 114, rfl⟩
abbrev main_cst_25 : Ref sig .tc := ⟨.hbm, 115, rfl⟩
abbrev main_v72 : Ref sig .tc := ⟨.hbm, 116, rfl⟩
abbrev main_v73 : Ref sig .tc := ⟨.hbm, 117, rfl⟩
abbrev main_c_26 : Ref sig .tc := ⟨.hbm, 118, rfl⟩
abbrev main_v74 : Ref sig .tc := ⟨.hbm, 119, rfl⟩
abbrev main_c_27 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  natLt_1_32 : 1 < 32
  reducesTo_S8192_S_d0 : S8192.ReducesTo [0] S_
  slices_S8192x8192_S1x8192_8191_0 : S8192x8192.Slices ![8191, 0] S1x8192
  shapeCasts_S1x8192_S8192 : S1x8192.ShapeCasts S8192
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.OutBlk.lean ====
/-
  What the kernel body leaves in its output block at one grid point, as a function of the five input blocks.

  The point's row block of the matrix (512 rows, bf16), the whole matrix (8192 rows, bf16), the row block's labels,
  all labels, and the row block's squared norms are read once. A first pass over the 16 column chunks of 512
  columns forms, per chunk, the tile of similarities of the block's rows with the chunk's rows (the diagonal
  entries replaced by the squared norms), and folds the running row minimum over same-label entries below one and
  the running row maximum over different-label entries. A second pass over the same chunks, with those two row
  thresholds fixed, accumulates per row: the count of kept same-label entries, the count of kept different-label
  entries, the first count less the sum of the kept same-label similarities, and the sum of the kept
  different-label similarities. The block's four columns are those four accumulators.
  Stated for any float instance: every step is one of the body's own pure terms.
-/
import proofs.«422922_j45569603010928_3_alg».proof.Proof.Gen.Kernel.Skeleton
import Idealize.ShloMosaic.Lib.Pipeline.FrameBody

noncomputable section

namespace Cert.Kernel.Blk

open Cert.Kernel Cert.Kernel.Gen Idealize.ShloMosaic Idealize.SL.Sem

variable {F : FTy → Type} [FloatOps F]

/-- Both passes make sixteen trips. -/
theorem trips1 : k0_t1_loop.trips = 16 := by decide
theorem trips2 : k0_t2_loop.trips = 16 := by decide

/-- A trip of the second pass as the trip of the first pass over the same column chunk. -/
def tr (k : Fin k0_t2_loop.trips) : Fin k0_t1_loop.trips := ⟨k.val, by have h1 := trips1; have h2 := trips2; have := k.isLt; omega⟩

/-- The whole-buffer rectangles of the small shapes, and the output block's four columns. -/
abbrev rBlock : Rect S512x512 := Rect.unit (s := S512x512) ![0, 0] S512x512.size inb_S512x512_S512x512_0_0
abbrev rCol : Rect S512x1 := Rect.unit (s := S512x1) ![0, 0] S512x1.size inb_S512x1_S512x1_0_0
abbrev rOut0 : Rect S512x4 := Rect.unit (s := S512x4) ![0, 0] S512x1.size inb_S512x4_S512x1_0_0
abbrev rOut1 : Rect S512x4 := Rect.unit (s := S512x4) ![0, 1] S512x1.size inb_S512x4_S512x1_0_1
abbrev rOut2 : Rect S512x4 := Rect.unit (s := S512x4) ![0, 2] S512x1.size inb_S512x4_S512x1_0_2
abbrev rOut3 : Rect S512x4 := Rect.unit (s := S512x4) ![0, 3] S512x1.size inb_S512x4_S512x1_0_3

section
variable (i : grid0.Coords) (x1 : Vec F S512x512 .bf16) (x2 : Vec F S8192x512 .bf16) (x3 : Vec F S512x1 .i32)
  (x4 : Vec F S1x8192 .i32) (x5 : Vec F S512x1 .f32)

/-- The grid coordinate as the body's word. -/
def gridWord : BitVec 32 := BitVec.ofNat 32 (i 0).val
/-- The point's row block, its labels and its squared norms, as the body reads them once. -/
def rowsBf : FVec F S512x512 .bf16 := k0_pay17 (View.ld x1 rBlock)
def rowTg : IVec S512x1 32 := k0_pay18 (View.ld x3 rCol)
def rowNorm : FVec F S512x1 .f32 := k0_pay19 (View.ld x5 rCol)
/-- Column chunk `k`: its 512 rows of the matrix and their labels (read in each pass). -/
def colsBf (k : Fin k0_t1_loop.trips) : Vec F S512x512 .bf16 :=
  View.ld x2 (Rect.unit (s := S8192x512) (k0_off1 k) S512x512.size (k0_off1_inb k))
def colTg1 (k : Fin k0_t1_loop.trips) : Vec F S1x512 .i32 :=
  View.ld x4 (Rect.unit (s := S1x8192) (k0_off2 k) S1x512.size (k0_off2_inb k))
def colTg2 (k : Fin k0_t2_loop.trips) : Vec F S1x512 .i32 :=
  View.ld x4 (Rect.unit (s := S1x8192) (k0_off4 k) S1x512.size (k0_off4_inb k))

/-- The tile of similarities of the block's rows with chunk `k`'s rows, diagonal entries at the squared norms:
    what the first pass stores into the strip at chunk `k`, and what the second pass loads back from there. -/
def simTile (k : Fin k0_t1_loop.trips) : FVec F S512x512 .f32 :=
  k0_pay23 (k0_pay6 (gridWord i) (rowsBf x1) (rowNorm x5) 0#32 1#32 k (colsBf x2 k))

/-- The running row minimum over same-label entries below one, after the first `n` chunks. -/
def minpAt : ℕ → FVec F S512x1 .f32
  | 0 => k0_pay20
  | n + 1 => if h : n < k0_t1_loop.trips then
      k0_pay9 (gridWord i) (rowsBf x1) (rowTg x3) (rowNorm x5) 0#32 1#32 ⟨n, h⟩ (colsBf x2 ⟨n, h⟩) (colTg1 x4 ⟨n, h⟩) (minpAt n)
    else minpAt n

/-- The running row maximum over different-label entries, after the first `n` chunks. -/
def maxnAt : ℕ → FVec F S512x1 .f32
  | 0 => k0_pay21
  | n + 1 => if h : n < k0_t1_loop.trips then
      k0_pay22 (k0_pay8 (gridWord i) (rowsBf x1) (rowTg x3) (rowNorm x5) 0#32 1#32 ⟨n, h⟩ (colsBf x2 ⟨n, h⟩) (colTg1 x4 ⟨n, h⟩)) (maxnAt n)
    else maxnAt n

/-- The two row thresholds the second pass works with. -/
def minp : FVec F S512x1 .f32 := minpAt i x1 x2 x3 x4 x5 16
def maxn : FVec F S512x1 .f32 := maxnAt i x1 x2 x3 x4 x5 16

/-- The count of kept same-label entries, after the first `n` chunks of the second pass. -/
def cntpAt : ℕ → FVec F S512x1 .f32
  | 0 => k0_pay24
  | n + 1 => if h : n < k0_t2_loop.trips then
      k0_pay2 (k0_pay13 (rowTg x3) (colTg2 x4 ⟨n, h⟩) (simTile i x1 x2 x5 (tr ⟨n, h⟩)) (maxn i x1 x2 x3 x4 x5)) (cntpAt n)
    else cntpAt n

/-- The count of kept different-label entries. -/
def cntnAt : ℕ → FVec F S512x1 .f32
  | 0 => k0_pay25
  | n + 1 => if h : n < k0_t2_loop.trips then
      k0_pay3 (k0_pay14 (rowTg x3) (colTg2 x4 ⟨n, h⟩) (simTile i x1 x2 x5 (tr ⟨n, h⟩)) (minp i x1 x2 x3 x4 x5)) (cntnAt n)
    else cntnAt n

/-- The kept same-label count less the sum of the kept same-label similarities. -/
def losspAt : ℕ → FVec F S512x1 .f32
  | 0 => k0_pay26
  | n + 1 => if h : n < k0_t2_loop.trips then
      k0_pay4 (k0_pay13 (rowTg x3) (colTg2 x4 ⟨n, h⟩) (simTile i x1 x2 x5 (tr ⟨n, h⟩)) (maxn i x1 x2 x3 x4 x5))
        (k0_pay15 (rowTg x3) (colTg2 x4 ⟨n, h⟩) (simTile i x1 x2 x5 (tr ⟨n, h⟩)) (maxn i x1 x2 x3 x4 x5)) (losspAt n)
    else losspAt n

/-- The sum of the kept different-label similarities. -/
def lossnAt : ℕ → FVec F S512x1 .f32
  | 0 => k0_pay1 (Scalar.ofBits .f32 0x00000000#32)
  | n + 1 => if h : n < k0_t2_loop.trips then
      k0_pay5 (k0_pay16 (rowTg x3) (colTg2 x4 ⟨n, h⟩) (simTile i x1 x2 x5 (tr ⟨n, h⟩)) (minp i x1 x2 x3 x4 x5)) (lossnAt n)
    else lossnAt n

/-- The output block: its four columns are the four accumulators after all sixteen chunks. -/
def outBlk : Vec F S512x4 .f32 :=
  View.canon [⟨rOut3, lossnAt i x1 x2 x3 x4 x5 16⟩, ⟨rOut2, losspAt i x1 x2 x3 x4 x5 16⟩,
    ⟨rOut1, cntnAt i x1 x2 x3 x4 x5 16⟩, ⟨rOut0, cntpAt i x1 x2 x3 x4 x5 16⟩]

end

end Cert.Kernel.Blk

end
-- ==== Proof.K.Kern.lean ====
import proofs.«422922_j45569603010928_3_alg».proof.Proof.Gen.Kernel.Launch
import proofs.«422922_j45569603010928_3_alg».proof.Proof.Gen.Kernel.Skeleton
import proofs.«422922_j45569603010928_3_alg».proof.Proof.Gen.Kernel.Points
import proofs.«422922_j45569603010928_3_alg».proof.Proof.Gen.Kernel.Loops
import proofs.«422922_j45569603010928_3_alg».proof.Proof.K.OutBlk
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body's stores leave, read back

The run of the body names what each buffer holds by the list of the stores made through it. The lemmas below read those
lists back as values: one trip of each pass opened into its stores, then by induction over the trips the contents of
the strip, of the two threshold buffers and of the four accumulators, and at the end the output block as the overlay
of its four columns. Nothing here does arithmetic: every value is one of the body's own pure terms. -/

namespace Kern

section Pieces

variable (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512x1 .f32) (harg5 : arg5.IsWhole) (arg6 : Memref sig .tc .vmem S512x4 .f32) (harg6 : arg6.IsWhole) (arg7 : Memref sig .tc .vmem S512x8192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)

variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)

/-! ## Whole-buffer stores and loads

A store through the whole-buffer rectangle, made last, leaves its payload whatever was stored before; a load through
that rectangle reads the contents as they are. -/

/-- Both offsets zero, as the zero function. -/
theorem hz2 : (![0, 0] : Fin 2 → ℕ) = fun _ => 0 := by
  funext a; fin_cases a <;> rfl

theorem read_writes_cons_whole {sg : RefSig} {κ : Kind} {sp : Space} {S : Shape} {e : EltTy}
    (v : View sg κ sp S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

theorem readAt_whole {sg : RefSig} {κ : Kind} {sp : Space} {S : Shape} {e : EltTy}
    (v : View sg κ sp S e) (f : v.ty.Contents (Elt F)) {off : Fin S.rank → ℕ} (hz : off = fun _ => 0)
    (inb : ∀ a, off a + S.size a ≤ S.size a) :
    v.readAt (Elt F) (Rect.unit off S.size inb).toLoadRect f = v.read (Elt F) f := by
  rw [View.readAt_eq_ld, View.ld_unit_zero hz]

set_option quotPrecheck false
local notation "rW" => Rect.unit (s := S512x1) ![0, 0] S512x1.size inb_S512x1_S512x1_0_0
local notation "rWl" => Rect.toLoadRect (Rect.unit (s := S512x1) ![0, 0] S512x1.size inb_S512x1_S512x1_0_0)
local notation "rBl" => Rect.toLoadRect (Rect.unit (s := S512x512) ![0, 0] S512x512.size inb_S512x512_S512x512_0_0)

/-! ## One trip of each pass, opened

What one trip of the first pass stores: the similarity tile into the strip at the chunk's columns, and over the whole
of the two threshold buffers the fold of the chunk into what the trip found there. What one trip of the second pass
stores: over the whole of each of the four accumulators, the chunk's contribution folded into what it found there. -/

theorem trip1_eq (arg0 : BitVec 32) (v0 : Vec F S512x512 .bf16) (v2 : Vec F S512x1 .i32) (v4 : Vec F S512x1 .f32)
    (X2 : BufTy.Contents (Elt F) arg2.view.ty) (X4 : BufTy.Contents (Elt F) arg4.view.ty) (k : Fin k0_t1_loop.trips)
    (g7 : BufTy.Contents (Elt F) arg7.view.ty) (g8 : BufTy.Contents (Elt F) arg8.view.ty) (g9 : BufTy.Contents (Elt F) arg9.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg0 v0 v2 v4 X2 X4 k g7 g8 g9
      = (([⟨Rect.unit (s := S512x8192) (k0_off3 k) S512x512.size (k0_off3_inb k),
            k0_pay23 (k0_pay6 arg0 (k0_pay17 v0) (k0_pay19 v4) 0#32 1#32 k (View.readAt (Elt F) arg2.view (Rect.unit (s := S8192x512) (k0_off1 k) S512x512.size (k0_off1_inb k)).toLoadRect X2))⟩] : List (View.Piece (Elt F) S512x8192 .f32)),
         ([⟨rW, k0_pay9 arg0 (k0_pay17 v0) (k0_pay18 v2) (k0_pay19 v4) 0#32 1#32 k (View.readAt (Elt F) arg2.view (Rect.unit (s := S8192x512) (k0_off1 k) S512x512.size (k0_off1_inb k)).toLoadRect X2) (View.readAt (Elt F) arg4.view (Rect.unit (s := S1x8192) (k0_off2 k) S1x512.size (k0_off2_inb k)).toLoadRect X4)
              (View.readAt (Elt F) arg8.view rWl g8)⟩] : List (View.Piece (Elt F) S512x1 .f32)),
         ([⟨rW, k0_pay22 (k0_pay8 arg0 (k0_pay17 v0) (k0_pay18 v2) (k0_pay19 v4) 0#32 1#32 k (View.readAt (Elt F) arg2.view (Rect.unit (s := S8192x512) (k0_off1 k) S512x512.size (k0_off1_inb k)).toLoadRect X2) (View.readAt (Elt F) arg4.view (Rect.unit (s := S1x8192) (k0_off2 k) S1x512.size (k0_off2_inb k)).toLoadRect X4))
              (View.readAt (Elt F) arg9.view rWl g9)⟩] : List (View.Piece (Elt F) S512x1 .f32))) := by
  unfold tripL_k0_t1; unfold trip_k0_t1; rfl

theorem trip2_eq (v3 : IVec S512x1 32) (X4 : BufTy.Contents (Elt F) arg4.view.ty) (X7 : BufTy.Contents (Elt F) arg7.view.ty)
    (X8 : BufTy.Contents (Elt F) arg8.view.ty) (X9 : BufTy.Contents (Elt F) arg9.view.ty) (k : Fin k0_t2_loop.trips)
    (g10 : BufTy.Contents (Elt F) arg10.view.ty) (g11 : BufTy.Contents (Elt F) arg11.view.ty)
    (g12 : BufTy.Contents (Elt F) arg12.view.ty) (g13 : BufTy.Contents (Elt F) arg13.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v3 X4 X7 X8 X9 k g10 g11 g12 g13
      = (([⟨rW, k0_pay2 (k0_pay13 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (View.readAt (Elt F) arg10.view rWl g10)⟩] : List (View.Piece (Elt F) S512x1 .f32)),
         ([⟨rW, k0_pay3 (k0_pay14 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg8.view rWl X8))
              (View.readAt (Elt F) arg11.view rWl g11)⟩] : List (View.Piece (Elt F) S512x1 .f32)),
         ([⟨rW, k0_pay4 (k0_pay13 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (k0_pay15 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (View.readAt (Elt F) arg12.view rWl g12)⟩] : List (View.Piece (Elt F) S512x1 .f32)),
         ([⟨rW, k0_pay5 (k0_pay16 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg8.view rWl X8))
              (View.readAt (Elt F) arg13.view rWl g13)⟩] : List (View.Piece (Elt F) S512x1 .f32))) := by
  unfold tripL_k0_t2; unfold trip_k0_t2; rfl

local notation "Xr1" => View.read (Elt F) arg1.view f1
local notation "Xr2" => View.read (Elt F) arg2.view f2
local notation "Xr3" => View.read (Elt F) arg3.view f3
local notation "Xr4" => View.read (Elt F) arg4.view f4
local notation "Xr5" => View.read (Elt F) arg5.view f5
local notation "Vl0" => View.readAt (Elt F) arg1.view rBl f1
local notation "Vl2" => View.readAt (Elt F) arg3.view rWl f3
local notation "Vl4" => View.readAt (Elt F) arg5.view rWl f5
local notation "Gw0" => BitVec.ofNat 32 (i 0).val
local notation "Gm8" => View.writes arg8.view (Elt F) (View.junk arg8.view) [⟨rW, k0_pay20⟩]
local notation "Gm9" => View.writes arg9.view (Elt F) (View.junk arg9.view) [⟨rW, k0_pay21⟩]
local notation "Pb1" => pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9
local notation "Tn1" => Scf.trips k0_t1_loop.lb k0_t1_loop.ub k0_t1_loop.st
local notation "Tn2" => Scf.trips k0_t2_loop.lb k0_t2_loop.ub k0_t2_loop.st

/-! ## The first pass

After `n` trips the strip holds the similarity tiles of the first `n` chunks, each at its own columns, and the two
threshold buffers hold the running minimum and maximum over those chunks: by induction on `n`, one trip at a time. -/

theorem pb1_strip (n : ℕ) (hn : n ≤ k0_t1_loop.trips) :
    (Pb1 n).1 = View.tilePieces (s := S512x8192) (Val := Elt F) (e := .f32) S512x512.size (fun k => k0_off3 k)
      (fun k => k0_off3_inb k) (fun k => Blk.simTile i Xr1 Xr2 Xr5 k) n hn := by
  induction n with
  | zero => rfl
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    rw [show Pb1 (n + 1) = _ from e, trip1_eq]
    dsimp only
    rw [ih (Nat.le_of_succ_le hn)]
    rfl

theorem pb1_minp (n : ℕ) (hn : n ≤ k0_t1_loop.trips) :
    arg8.view.read (Elt F) (arg8.view.writes (Elt F) Gm8 (Pb1 n).2.1) = Blk.minpAt i Xr1 Xr2 Xr3 Xr4 Xr5 n := by
  induction n with
  | zero => exact read_writes_cons_whole arg8.view _ hz2 _ _ []
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    have key := (readAt_whole arg8.view (arg8.view.writes (Elt F) Gm8 (Pb1 n).2.1) hz2 inb_S512x1_S512x1_0_0).trans (ih (Nat.le_of_succ_le hn))
    rw [show Pb1 (n + 1) = _ from e, trip1_eq]
    dsimp only
    refine (read_writes_cons_whole arg8.view _ hz2 _ _ _).trans ?_
    rw [key, Blk.minpAt, dif_pos h]
    rfl

theorem pb1_maxn (n : ℕ) (hn : n ≤ k0_t1_loop.trips) :
    arg9.view.read (Elt F) (arg9.view.writes (Elt F) Gm9 (Pb1 n).2.2) = Blk.maxnAt i Xr1 Xr2 Xr3 Xr4 Xr5 n := by
  induction n with
  | zero => exact read_writes_cons_whole arg9.view _ hz2 _ _ []
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    have key := (readAt_whole arg9.view (arg9.view.writes (Elt F) Gm9 (Pb1 n).2.2) hz2 inb_S512x1_S512x1_0_0).trans (ih (Nat.le_of_succ_le hn))
    rw [show Pb1 (n + 1) = _ from e, trip1_eq]
    dsimp only
    refine (read_writes_cons_whole arg9.view _ hz2 _ _ _).trans ?_
    rw [key, Blk.maxnAt, dif_pos h]
    rfl

local notation "Vl3" => k0_pay18 Vl2
local notation "Xc7" => View.writes arg7.view (Elt F) f7 (Pb1 Tn1).1
local notation "Xc8" => View.writes arg8.view (Elt F) (View.junk arg8.view) ((Pb1 Tn1).2.1 ++ [⟨rW, k0_pay20⟩])
local notation "Xc9" => View.writes arg9.view (Elt F) (View.junk arg9.view) ((Pb1 Tn1).2.2 ++ [⟨rW, k0_pay21⟩])
local notation "Gm10" => View.writes arg10.view (Elt F) (View.junk arg10.view) [⟨rW, k0_pay24⟩]
local notation "Gm11" => View.writes arg11.view (Elt F) (View.junk arg11.view) [⟨rW, k0_pay25⟩]
local notation "Gm12" => View.writes arg12.view (Elt F) (View.junk arg12.view) [⟨rW, k0_pay26⟩]
local notation "Gm13" => View.writes arg13.view (Elt F) (View.junk arg13.view) [⟨rW, k0_pay1 (Scalar.ofBits .f32 0x00000000#32)⟩]
local notation "Pb2" => pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 Xc7 Xc8 Xc9 Gm10 Gm11 Gm12 Gm13

/-! ## Between the passes

The second pass finds the two threshold buffers at the minimum and maximum over all sixteen chunks, and chunk `k`'s
columns of the strip at the tile the first pass stored there: the sixteen column ranges are disjoint, so the tile at
those columns is read back whatever the other fifteen stores were. -/

theorem xc8_read : View.readAt (Elt F) arg8.view rWl Xc8 = Blk.minp i Xr1 Xr2 Xr3 Xr4 Xr5 := by
  refine (readAt_whole arg8.view _ hz2 inb_S512x1_S512x1_0_0).trans ?_
  rw [View.writes_append]
  exact (pb1_minp c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)).trans (congrArg (Blk.minpAt i Xr1 Xr2 Xr3 Xr4 Xr5) Blk.trips1)

theorem xc9_read : View.readAt (Elt F) arg9.view rWl Xc9 = Blk.maxn i Xr1 Xr2 Xr3 Xr4 Xr5 := by
  refine (readAt_whole arg9.view _ hz2 inb_S512x1_S512x1_0_0).trans ?_
  rw [View.writes_append]
  exact (pb1_maxn c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)).trans (congrArg (Blk.maxnAt i Xr1 Xr2 Xr3 Xr4 Xr5) Blk.trips1)

theorem xc7_slab (k : Fin k0_t2_loop.trips) :
    (View.readAt (Elt F) arg7.view (Rect.unit (s := S512x8192) (k0_off5 k) S512x512.size (k0_off5_inb k)).toLoadRect Xc7) = Blk.simTile i Xr1 Xr2 Xr5 (Blk.tr k) := by
  funext j
  rw [View.readAt_apply, pb1_strip c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)]
  refine View.read_tilePieces arg7.view f7 S512x512.size (fun k => k0_off3 k) (fun k => k0_off3_inb k)
    (fun k => Blk.simTile i Xr1 Xr2 Xr5 k) Tn1 (Nat.le_refl _) _ (Blk.tr k) (Blk.tr k).isLt j ?_ (1 : Fin 2) ?_
  · intro a
    have e5 : k0_off5 k a = (![0, 512 * k.val] : Fin 2 → ℕ) a := congrFun (k0_off5_eq k) a
    have e3 : k0_off3 (Blk.tr k) a = (![0, 512 * k.val] : Fin 2 → ℕ) a := congrFun (k0_off3_eq (Blk.tr k)) a
    show k0_off5 k a + 1 * (j a).val = k0_off3 (Blk.tr k) a + (j a).val
    omega
  · intro i' hi'
    have hne : i'.val ≠ k.val := fun e => hi' (Fin.ext e)
    have hj : (j (1 : Fin 2)).val < 512 := (j (1 : Fin 2)).isLt
    have e5 : k0_off5 k (1 : Fin 2) = 512 * k.val := congrFun (k0_off5_eq k) (1 : Fin 2)
    have e3 : k0_off3 i' (1 : Fin 2) = 512 * i'.val := congrFun (k0_off3_eq i') (1 : Fin 2)
    show k0_off5 k (1 : Fin 2) + 1 * (j (1 : Fin 2)).val < k0_off3 i' (1 : Fin 2) ∨ k0_off3 i' (1 : Fin 2) + 512 ≤ k0_off5 k (1 : Fin 2) + 1 * (j (1 : Fin 2)).val
    omega

/-! ## The second pass

After `n` trips each of the four accumulators holds its fold over the first `n` chunks — given that the pass finds
the strip at the first pass's tiles and the two threshold buffers at the row minimum and maximum, and that the
accumulator was reset before the pass. Stated over whatever contents the pass starts from, with those facts as
hypotheses. -/

theorem pb2_cntp (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h9 : View.readAt (Elt F) arg9.view rWl X9 = Blk.maxn i Xr1 Xr2 Xr3 Xr4 Xr5)
    (hG : arg10.view.read (Elt F) G10 = k0_pay24) (n : ℕ) (hn : n ≤ k0_t2_loop.trips) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).1) = Blk.cntpAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg10.view (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg10.view _ hz2 _ _ _).trans ?_
    rw [key, h7 ⟨n, h⟩, h9, Blk.cntpAt, dif_pos h]
    rfl

theorem pb2_cntn (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h8 : View.readAt (Elt F) arg8.view rWl X8 = Blk.minp i Xr1 Xr2 Xr3 Xr4 Xr5)
    (hG : arg11.view.read (Elt F) G11 = k0_pay25) (n : ℕ) (hn : n ≤ k0_t2_loop.trips) :
    arg11.view.read (Elt F) (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.1) = Blk.cntnAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg11.view (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg11.view _ hz2 _ _ _).trans ?_
    rw [key, h7 ⟨n, h⟩, h8, Blk.cntnAt, dif_pos h]
    rfl

theorem pb2_lossp (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h9 : View.readAt (Elt F) arg9.view rWl X9 = Blk.maxn i Xr1 Xr2 Xr3 Xr4 Xr5)
    (hG : arg12.view.read (Elt F) G12 = k0_pay26) (n : ℕ) (hn : n ≤ k0_t2_loop.trips) :
    arg12.view.read (Elt F) (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.1) = Blk.losspAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg12.view (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg12.view _ hz2 _ _ _).trans ?_
    rw [key, h7 ⟨n, h⟩, h9, Blk.losspAt, dif_pos h]
    rfl

theorem pb2_lossn (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h8 : View.readAt (Elt F) arg8.view rWl X8 = Blk.minp i Xr1 Xr2 Xr3 Xr4 Xr5)
    (hG : arg13.view.read (Elt F) G13 = k0_pay1 (Scalar.ofBits .f32 0x00000000#32)) (n : ℕ) (hn : n ≤ k0_t2_loop.trips) :
    arg13.view.read (Elt F) (arg13.view.writes (Elt F) G13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.2) = Blk.lossnAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg13.view (arg13.view.writes (Elt F) G13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.2) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg13.view _ hz2 _ _ _).trans ?_
    rw [key, h7 ⟨n, h⟩, h8, Blk.lossnAt, dif_pos h]
    rfl

/-! ## The output block

The four accumulators after all sixteen chunks are stored into the block's four columns, which tile it: the block
reads as the overlay of the four columns. -/

theorem acc10 :
    View.readAt (Elt F) arg10.view rWl (View.writes arg10.view (Elt F) (View.junk arg10.view) ((Pb2 Tn2).1 ++ [⟨rW, k0_pay24⟩]))
      = Blk.cntpAt i Xr1 Xr2 Xr3 Xr4 Xr5 16 := by
  refine (readAt_whole arg10.view _ hz2 inb_S512x1_S512x1_0_0).trans ?_
  rw [View.writes_append]
  exact (pb2_cntp c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc9_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg10.view _ hz2 _ _ []) Tn2 (Nat.le_refl _)).trans (congrArg (Blk.cntpAt i Xr1 Xr2 Xr3 Xr4 Xr5) Blk.trips2)

theorem acc11 :
    View.readAt (Elt F) arg11.view rWl (View.writes arg11.view (Elt F) (View.junk arg11.view) ((Pb2 Tn2).2.1 ++ [⟨rW, k0_pay25⟩]))
      = Blk.cntnAt i Xr1 Xr2 Xr3 Xr4 Xr5 16 := by
  refine (readAt_whole arg11.view _ hz2 inb_S512x1_S512x1_0_0).trans ?_
  rw [View.writes_append]
  exact (pb2_cntn c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc8_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg11.view _ hz2 _ _ []) Tn2 (Nat.le_refl _)).trans (congrArg (Blk.cntnAt i Xr1 Xr2 Xr3 Xr4 Xr5) Blk.trips2)

theorem acc12 :
    View.readAt (Elt F) arg12.view rWl (View.writes arg12.view (Elt F) (View.junk arg12.view) ((Pb2 Tn2).2.2.1 ++ [⟨rW, k0_pay26⟩]))
      = Blk.losspAt i Xr1 Xr2 Xr3 Xr4 Xr5 16 := by
  refine (readAt_whole arg12.view _ hz2 inb_S512x1_S512x1_0_0).trans ?_
  rw [View.writes_append]
  exact (pb2_lossp c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc9_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg12.view _ hz2 _ _ []) Tn2 (Nat.le_refl _)).trans (congrArg (Blk.losspAt i Xr1 Xr2 Xr3 Xr4 Xr5) Blk.trips2)

theorem acc13 :
    View.readAt (Elt F) arg13.view rWl (View.writes arg13.view (Elt F) (View.junk arg13.view) ((Pb2 Tn2).2.2.2 ++ [⟨rW, k0_pay1 (Scalar.ofBits .f32 0x00000000#32)⟩]))
      = Blk.lossnAt i Xr1 Xr2 Xr3 Xr4 Xr5 16 := by
  refine (readAt_whole arg13.view _ hz2 inb_S512x1_S512x1_0_0).trans ?_
  rw [View.writes_append]
  exact (pb2_lossn c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc8_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg13.view _ hz2 _ _ []) Tn2 (Nat.le_refl _)).trans (congrArg (Blk.lossnAt i Xr1 Xr2 Xr3 Xr4 Xr5) Blk.trips2)

theorem out_final :
    View.read (Elt F) arg6.view (View.writes arg6.view (Elt F) f6
      [⟨Rect.unit (s := S512x4) ![0, 3] S512x1.size inb_S512x4_S512x1_0_3,
          View.readAt (Elt F) arg13.view rWl (View.writes arg13.view (Elt F) (View.junk arg13.view) ((Pb2 Tn2).2.2.2 ++ [⟨rW, k0_pay1 (Scalar.ofBits .f32 0x00000000#32)⟩]))⟩,
       ⟨Rect.unit (s := S512x4) ![0, 2] S512x1.size inb_S512x4_S512x1_0_2,
          View.readAt (Elt F) arg12.view rWl (View.writes arg12.view (Elt F) (View.junk arg12.view) ((Pb2 Tn2).2.2.1 ++ [⟨rW, k0_pay26⟩]))⟩,
       ⟨Rect.unit (s := S512x4) ![0, 1] S512x1.size inb_S512x4_S512x1_0_1,
          View.readAt (Elt F) arg11.view rWl (View.writes arg11.view (Elt F) (View.junk arg11.view) ((Pb2 Tn2).2.1 ++ [⟨rW, k0_pay25⟩]))⟩,
       ⟨Rect.unit (s := S512x4) ![0, 0] S512x1.size inb_S512x4_S512x1_0_0,
          View.readAt (Elt F) arg10.view rWl (View.writes arg10.view (Elt F) (View.junk arg10.view) ((Pb2 Tn2).1 ++ [⟨rW, k0_pay24⟩]))⟩])
      = Blk.outBlk i Xr1 Xr2 Xr3 Xr4 Xr5 := by
  rw [acc13 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc12 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc11 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc10 c i arg1 harg1 arg2 harg2 arg3 harg3 arg4 harg4 arg5 harg5 arg6 harg6 arg7 harg7 arg8 harg8 arg9 harg9 arg10 harg10 arg11 harg11 arg12 harg12 arg13 harg13 f1 f2 f3 f4 f5 f7]
  unfold Blk.outBlk
  exact View.read_writes_eq_canon arg6.view f6 _ (View.cover_of_tiled _ S512x1.size (by rfl))

end Pieces

end Kern

/-! # The kernel body's triple

On whole staging memrefs, the five inputs' at read contents and the output's and the seven scratch buffers' at anything,
the body runs to the end, leaves the inputs as they were, the output buffer at `Blk.outBlk` of the inputs, and the
scratch buffers at something. The run goes through both counted loops by their invariants (the pieces of the trips
so far written over what the loop found); what is then left to show is that the four column pieces the body stores
last, read back through those pieces, are the four accumulators of `Blk.outBlk`. -/

set_option maxHeartbeats 8000000 in
theorem sound_kernel (c : Dev nD) (E : Set ℕ) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512x1 .f32) (harg5 : arg5.IsWhole) (arg6 : Memref sig .tc .vmem S512x4 .f32) (harg6 : arg6.IsWhole) (arg7 : Memref sig .tc .vmem S512x8192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (x1 : Vec F S512x512 .bf16) (x2 : Vec F S8192x512 .bf16) (x3 : Vec F S512x1 .i32) (x4 : Vec F S1x8192 .i32) (x5 : Vec F S512x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (Blk.outBlk i x1 x2 x3 x4 x5)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    exact Kern.out_final c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.Kernel.Hand

end
-- ==== Proof.K.Data.lean ====
import proofs.«422922_j45569603010928_3_alg».proof.Proof.Gen.Kernel.Launch
import proofs.«422922_j45569603010928_3_alg».proof.Proof.Gen.Kernel.Skeleton
import proofs.«422922_j45569603010928_3_alg».proof.Proof.Gen.Kernel.Points
import proofs.«422922_j45569603010928_3_alg».proof.Proof.Gen.Kernel.Loops
import proofs.«422922_j45569603010928_3_alg».proof.Proof.K.OutBlk
import proofs.«422922_j45569603010928_3_alg».proof.Proof.K.Kern
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's proof data and the body obligation

The region is entered with the TensorCore's buffers at contents `V`. At grid point `t` each input window's staging
buffer holds its block of its array (the row block of the bf16 matrix, the whole bf16 matrix, the row block's labels,
all the labels, the row block's squared norms), whether the pipeline fetched it at that point or left it from the
point before; the body leaves those as it found them and the output window's buffer at the block `Blk.outBlk` of
the five. The bf16 matrix is one array read through two windows: each holds half of its share. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => Blk.outBlk (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t
    = Blk.outBlk (grid0.coords t) (iblk V c 0 t) (iblk V c 1 t) (iblk V c 2 t) (iblk V c 3 t) (iblk V c 4 t) := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- A whole scratch buffer owned at some contents is its points-to at some contents. -/
theorem owns_scratch (c : Dev nD) (b : Ref sig .tc) :
    (iprop(∃ X, owns (Ix := Unit) (Name := ℕ) (U := UR sig nD τ) (Lvl := ℕ) (c : Thread nD τ) (Memref.whole b : Memref sig .tc _ _ _) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The scratch buffers the body uses, each owned whole at some contents: the scoped buffers no window stages. -/
theorem scratch_of_rest (c : Dev nD) :
    (Pipeline.scopedRest (Ix := Unit) (Name := ℕ) (U := UR sig nD τ) (Lvl := ℕ) (Val := Elt F) spec0 c : sProp 𝕄)
      = iprop((∃ X, owns (c : Thread nD τ) (Memref.whole cc0_scratch0 : Memref sig .tc _ _ _) fullShare X) ∗ (∃ X, owns (c : Thread nD τ) (Memref.whole cc0_scratch1 : Memref sig .tc _ _ _) fullShare X) ∗ (∃ X, owns (c : Thread nD τ) (Memref.whole cc0_scratch2 : Memref sig .tc _ _ _) fullShare X) ∗ (∃ X, owns (c : Thread nD τ) (Memref.whole cc0_scratch3 : Memref sig .tc _ _ _) fullShare X) ∗ (∃ X, owns (c : Thread nD τ) (Memref.whole cc0_scratch4 : Memref sig .tc _ _ _) fullShare X) ∗ (∃ X, owns (c : Thread nD τ) (Memref.whole cc0_scratch5 : Memref sig .tc _ _ _) fullShare X) ∗ (∃ X, owns (c : Thread nD τ) (Memref.whole cc0_scratch6 : Memref sig .tc _ _ _) fullShare X)) := by
  rw [scopedRest0_eq c, owns_scratch c cc0_scratch0, owns_scratch c cc0_scratch1, owns_scratch c cc0_scratch2, owns_scratch c cc0_scratch3, owns_scratch c cc0_scratch4, owns_scratch c cc0_scratch5, owns_scratch c cc0_scratch6]

set_option maxHeartbeats 4000000 in
/-- The body at any point: the inputs' memrefs hold their blocks, the scratch buffers come out of the invariant and go
    back into it, and the kernel's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.succ = (dat0 V c).Φ t.castSucc from rfl,
    show (dat0 V c).owesAt () t.succ = (dat0 V c).owesAt () t.castSucc from rfl,
    after_0, after_1, after_2, after_3, after_4, after_5]
  rw [show (dat0 V c).Φ t.castSucc = Pipeline.ΦA spec0 c from rfl]
  unfold Pipeline.ΦA
  rw [scratch_of_rest]
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hp]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Run.lean ====
import proofs.«422922_j45569603010928_3_alg».proof.Proof.Gen.Kernel.Launch
import proofs.«422922_j45569603010928_3_alg».proof.Proof.Gen.Kernel.Skeleton
import proofs.«422922_j45569603010928_3_alg».proof.Proof.Gen.Kernel.Points
import proofs.«422922_j45569603010928_3_alg».proof.Proof.Gen.Kernel.Loops
import proofs.«422922_j45569603010928_3_alg».proof.Proof.K.Data
import Idealize.ShloMosaic.Lib.Pipeline.RegionsLoop
import Idealize.ShloMosaic.Lib.Pipeline.FrameSuffix
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main

@main is nine items: seven host operations (the bf16 copy of the matrix, the labels as a column and as a row, the
rows' squared norms), the kernel region, and seven more stretches of host operations (the four columns sliced out
of the packed result, the two quotients per row, the mean over the rows with a kept different-label entry, the share
of the others, the last row's similarities by a host product with its own entry reset to its squared norm, and
the last row's two means). Between two items the core holds every unscoped buffer whole, at the contents the items
so far leave: the launch memory, then each stretch's operations applied, the region changing only the packed result,
which ends at what the sixteen write-backs of the output window leave. -/

variable (m : (ℓ : Loc nD τ sig) → Buf (Elt F) ℓ)

/-- Core `c`'s buffers at launch, -/
abbrev W0 (c : Dev nD) : Valuation τ sig (Elt F) := fun b => m (c, b)
/-- after the host operations before the region (the region's entry), -/
abbrev W1 (c : Dev nD) : Valuation τ sig (Elt F) := StableHlo.after hostOps0 (W0 m c)
/-- the same read at the TensorCore's references (what the region's proof data take), -/
abbrev V1 : (c : Dev nD) → (b : Ref sig .tc) → Buf (Elt F) ((c : Thread nD τ).loc b) := fun c b => W1 m c b
/-- at the region's exit: the packed result at what the write-backs leave, every other buffer as entered, -/
def W2 (c : Dev nD) : Valuation τ sig (Elt F) :=
  Function.update (W1 m c) (Proc.devRef .tc main_v6) ((dat0 (V1 m) c).arrAt 5 cfg0.N)
/-- and after each later stretch. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev W8 (c : Dev nD) : Valuation τ sig (Elt F) := StableHlo.after hostOps1_5 (W7 m c)
abbrev W9 (c : Dev nD) : Valuation τ sig (Elt F) := StableHlo.after hostOps1_6 (W8 m c)

theorem W2_out (c : Dev nD) : W2 m c (Proc.devRef .tc main_v6) = (dat0 (V1 m) c).arrAt 5 cfg0.N := by
  unfold W2; exact Function.update_self ..
theorem W2_of_ne (c : Dev nD) (b : Ref sig .tc) (hb : b ≠ main_v6) : W2 m c (Proc.devRef .tc b) = W1 m c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m c b

/-! ## The region's arrays in and out of the core's unscoped buffers

The bf16 matrix is read through two windows, so its one buffer is dealt to them in two halves of its share at the
region's entry and joined again at its exit; the other four arrays are each one window's. -/

set_option maxHeartbeats 2000000

/-! A window's array at its share is the plain points-to of the buffer behind it: the bf16 matrix's two windows hold a
    half of its share each, every other window the whole. -/
theorem arr_pts_0 (V : (c : Dev nD) → (b : Ref sig .tc) → Buf (Elt F) ((c : Thread nD τ).loc b)) (c : Dev nD)
    (X : Buf (Elt F) ((cfg0.win (0 : Fin 6)).arr.view.loc (c.tc : Thread nD τ))) :
    ((cfg0.win (0 : Fin 6)).arr.view.loc (c.tc : Thread nD τ) ↦[(cfg0.win (0 : Fin 6)).arr.view.set]{(dat0 V c).share (0 : Fin 6)} X : sProp 𝕄)
      = ((c.tc : Thread nD τ).loc main_v0 ↦{fullShare.left} X) := by
  rw [(arr_whole0 (0 : Fin 6)).set_eq_univ]; rfl
theorem arr_pts_1 (V : (c : Dev nD) → (b : Ref sig .tc) → Buf (Elt F) ((c : Thread nD τ).loc b)) (c : Dev nD)
    (X : Buf (Elt F) ((cfg0.win (1 : Fin 6)).arr.view.loc (c.tc : Thread nD τ))) :
    ((cfg0.win (1 : Fin 6)).arr.view.loc (c.tc : Thread nD τ) ↦[(cfg0.win (1 : Fin 6)).arr.view.set]{(dat0 V c).share (1 : Fin 6)} X : sProp 𝕄)
      = ((c.tc : Thread nD τ).loc main_v0 ↦{fullShare.right} X) := by
  rw [(arr_whole0 (1 : Fin 6)).set_eq_univ]; rfl
theorem arr_pts_2 (V : (c : Dev nD) → (b : Ref sig .tc) → Buf (Elt F) ((c : Thread nD τ).loc b)) (c : Dev nD)
    (X : Buf (Elt F) ((cfg0.win (2 : Fin 6)).arr.view.loc (c.tc : Thread nD τ))) :
    ((cfg0.win (2 : Fin 6)).arr.view.loc (c.tc : Thread nD τ) ↦[(cfg0.win (2 : Fin 6)).arr.view.set]{(dat0 V c).share (2 : Fin 6)} X : sProp 𝕄)
      = ((c.tc : Thread nD τ).loc main_v1 ↦{fullShare} X) := by
  rw [(arr_whole0 (2 : Fin 6)).set_eq_univ]; rfl
theorem arr_pts_3 (V : (c : Dev nD) → (b : Ref sig .tc) → Buf (Elt F) ((c : Thread nD τ).loc b)) (c : Dev nD)
    (X : Buf (Elt F) ((cfg0.win (3 : Fin 6)).arr.view.loc (c.tc : Thread nD τ))) :
    ((cfg0.win (3 : Fin 6)).arr.view.loc (c.tc : Thread nD τ) ↦[(cfg0.win (3 : Fin 6)).arr.view.set]{(dat0 V c).share (3 : Fin 6)} X : sProp 𝕄)
      = ((c.tc : Thread nD τ).loc main_v2 ↦{fullShare} X) := by
  rw [(arr_whole0 (3 : Fin 6)).set_eq_univ]; rfl
theorem arr_pts_4 (V : (c : Dev nD) → (b : Ref sig .tc) → Buf (Elt F) ((c : Thread nD τ).loc b)) (c : Dev nD)
    (X : Buf (Elt F) ((cfg0.win (4 : Fin 6)).arr.view.loc (c.tc : Thread nD τ))) :
    ((cfg0.win (4 : Fin 6)).arr.view.loc (c.tc : Thread nD τ) ↦[(cfg0.win (4 : Fin 6)).arr.view.set]{(dat0 V c).share (4 : Fin 6)} X : sProp 𝕄)
      = ((c.tc : Thread nD τ).loc main_v5 ↦{fullShare} X) := by
  rw [(arr_whole0 (4 : Fin 6)).set_eq_univ]; rfl
theorem arr_pts_5 (V : (c : Dev nD) → (b : Ref sig .tc) → Buf (Elt F) ((c : Thread nD τ).loc b)) (c : Dev nD)
    (X : Buf (Elt F) ((cfg0.win (5 : Fin 6)).arr.view.loc (c.tc : Thread nD τ))) :
    ((cfg0.win (5 : Fin 6)).arr.view.loc (c.tc : Thread nD τ) ↦[(cfg0.win (5 : Fin 6)).arr.view.set]{(dat0 V c).share (5 : Fin 6)} X : sProp 𝕄)
      = ((c.tc : Thread nD τ).loc main_v6 ↦{fullShare} X) := by
  rw [(arr_whole0 (5 : Fin 6)).set_eq_univ]; rfl

/-! An input window's array is never written: it holds the entry contents throughout. -/
theorem arrAt_in_0 (V : (c : Dev nD) → (b : Ref sig .tc) → Buf (Elt F) ((c : Thread nD τ).loc b)) (c : Dev nD) (n : ℕ) : (dat0 V c).arrAt (0 : Fin 6) n = V c main_v0 :=
  (dat0 V c).arrAt_in (0 : Fin 6) rfl n
theorem arrAt_in_1 (V : (c : Dev nD) → (b : Ref sig .tc) → Buf (Elt F) ((c : Thread nD τ).loc b)) (c : Dev nD) (n : ℕ) : (dat0 V c).arrAt (1 : Fin 6) n = V c main_v0 :=
  (dat0 V c).arrAt_in (1 : Fin 6) rfl n
theorem arrAt_in_2 (V : (c : Dev nD) → (b : Ref sig .tc) → Buf (Elt F) ((c : Thread nD τ).loc b)) (c : Dev nD) (n : ℕ) : (dat0 V c).arrAt (2 : Fin 6) n = V c main_v1 :=
  (dat0 V c).arrAt_in (2 : Fin 6) rfl n
theorem arrAt_in_3 (V : (c : Dev nD) → (b : Ref sig .tc) → Buf (Elt F) ((c : Thread nD τ).loc b)) (c : Dev nD) (n : ℕ) : (dat0 V c).arrAt (3 : Fin 6) n = V c main_v2 :=
  (dat0 V c).arrAt_in (3 : Fin 6) rfl n
theorem arrAt_in_4 (V : (c : Dev nD) → (b : Ref sig .tc) → Buf (Elt F) ((c : Thread nD τ).loc b)) (c : Dev nD) (n : ℕ) : (dat0 V c).arrAt (4 : Fin 6) n = V c main_v5 :=
  (dat0 V c).arrAt_in (4 : Fin 6) rfl n

/-- The distinct buffers behind the six windows' arrays. -/
theorem arrRefs_eq : (Finset.univ.image (Pipeline.arrRef spec0) : Finset (Ref sig .tc)) = {main_v0, main_v1, main_v2, main_v5, main_v6} := by decide

/-- The buffers behind the arrays, each whole at contents `V`, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(((c.tc : Thread nD τ).loc main_v0 ↦{fullShare} V main_v0) ∗ ((c.tc : Thread nD τ).loc main_v1 ↦{fullShare} V main_v1)
          ∗ ((c.tc : Thread nD τ).loc main_v2 ↦{fullShare} V main_v2) ∗ ((c.tc : Thread nD τ).loc main_v5 ↦{fullShare} V main_v5)
          ∗ ((c.tc : Thread nD τ).loc main_v6 ↦{fullShare} V main_v6)) := by
  unfold Pipeline.arrBufs
  rw [arrRefs_eq, bigSep_insert (by decide), bigSep_insert (by decide), bigSep_insert (by decide), bigSep_insert (by decide), bigSep_singleton]
  rfl

/-- ENTRY: the unscoped buffers at the entry contents are the windows' arrays at their shares and the rest. -/
theorem arrays_of_bufs (V : (c : Dev nD) → (b : Ref sig .tc) → Buf (Elt F) ((c : Thread nD τ).loc b)) (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs (0 : Fin 1) winFacts₀0.arr_unscoped c (V c)]
  refine sep_mono ?_ .rfl
  rw [arrBufs_eq]
  unfold Dat.arrays
  rw [bigSep_W0]
  beta_reduce
  rw [arr_pts_0, arr_pts_1, arr_pts_2, arr_pts_3, arr_pts_4, arr_pts_5,
    arrAt_in_0, arrAt_in_1, arrAt_in_2, arrAt_in_3, arrAt_in_4]
  iintro ⟨H0, H1, H2, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H5]; · iexact H5
  iexact H6

/-- EXIT: the windows' arrays at their final contents and the rest are the unscoped buffers at any contents that
    have the packed result at what the write-backs leave and agree with the entry contents elsewhere. -/
theorem bufs_of_arrays (V V' : (c : Dev nD) → (b : Ref sig .tc) → Buf (Elt F) ((c : Thread nD τ).loc b)) (c : Dev nD)
    (hout : V' c main_v6 = (dat0 V c).arrAt 5 cfg0.N) (hrest : ∀ b : Ref sig .tc, b ≠ main_v6 → V' c b = V c b) :
    iprop((dat0 V c).arrays ((dat0 V c).arrAt · cfg0.N) ∗ Pipeline.unscopedRest spec0 c (V c)) ⊢ (unscopedBufs c (V' c) : sProp 𝕄) := by
  rw [Pipeline.unscopedBufs_split₀ cfgs (0 : Fin 1) winFacts₀0.arr_unscoped c (V' c)]
  refine sep_mono ?_ (Entails.of_eq ?_)
  · rw [arrBufs_eq]
    unfold Dat.arrays
    rw [bigSep_W0]
    beta_reduce
    rw [arr_pts_0, arr_pts_1, arr_pts_2, arr_pts_3, arr_pts_4, arr_pts_5,
      arrAt_in_0, arrAt_in_1, arrAt_in_2, arrAt_in_3, arrAt_in_4,
      hrest main_v0 (by decide), hrest main_v1 (by decide), hrest main_v2 (by decide), hrest main_v5 (by decide), hout]
    iintro ⟨H0l, H0r, H1, H2, H5, H6⟩
    isplitl [H0l H0r]
    · iapply (pointsTo_share (PosShare.mem_left_op_right fullShare)).2
      isplitl [H0l]; · iexact H0l
      iexact H0r
    isplitl [H1]; · iexact H1
    isplitl [H2]; · iexact H2
    isplitl [H5]; · iexact H5
    iexact H6
  · unfold Pipeline.unscopedRest
    refine bigSep_congr fun b hb => ?_
    rw [hrest b (fun e => (Finset.mem_sdiff.mp hb).2 (e ▸ Finset.mem_image.mpr ⟨5, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_of_bufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays (V1 m) (V2 m) c (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)) ]

theorem main_run (c : Dev nD) : main (F := F) c = Pipeline.Seg.run (segs m) := (main_chain c).trans (by chain_rfl)

/-- The final memory holds every unscoped buffer at the last contents. -/
def EndsAt (r : PUnit × MemSt nD τ sig (Elt F)) : Prop :=
  ∀ (c : Dev nD) (b : DevRef τ sig), b ∈ Pipeline.ucRefs τ sig → r.2.mem ((c : Thread nD τ).1, b) = W9 m c b

set_option backward.isDefEq.respectTransparency.types false in
/-- THE RUN: from any memory with zero counters every weakly fair execution of @main terminates, nothing faulting,
    with every unscoped buffer at the contents the nine items leave. -/
theorem run (ρ : Dev nD → PrngReg) : θ_run defs (onTc (τ := τ) (main (F := F))) ⟨m, fun _ => 0, ρ⟩ (EndsAt m) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c b hb)

/-! ## The arguments end as launched

No host operation writes an argument and the region writes only the packed result, so the contents the nine items
leave at an argument's buffer walk back to the launch memory. -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_forall_not_mem (b := Proc.devRef .tc main_arg0) _ _ (List.forall_iff_forall_mem.mp (by
          simp only [hostOps1_6, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W7 m c (Proc.devRef .tc main_arg0) := StableHlo.after_of_forall_not_mem (b := Proc.devRef .tc main_arg0) _ _ (List.forall_iff_forall_mem.mp (by
          simp only [hostOps1_5, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W6 m c (Proc.devRef .tc main_arg0) := StableHlo.after_of_forall_not_mem (b := Proc.devRef .tc main_arg0) _ _ (List.forall_iff_forall_mem.mp (by
          simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m c (Proc.devRef .tc main_arg0) := StableHlo.after_of_forall_not_mem (b := Proc.devRef .tc main_arg0) _ _ (List.forall_iff_forall_mem.mp (by
          simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W4 m c (Proc.devRef .tc main_arg0) := StableHlo.after_of_forall_not_mem (b := Proc.devRef .tc main_arg0) _ _ (List.forall_iff_forall_mem.mp (by
          simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m c (Proc.devRef .tc main_arg0) := StableHlo.after_of_forall_not_mem (b := Proc.devRef .tc main_arg0) _ _ (List.forall_iff_forall_mem.mp (by
          simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W2 m c (Proc.devRef .tc main_arg0) := StableHlo.after_of_forall_not_mem (b := Proc.devRef .tc main_arg0) _ _ (List.forall_iff_forall_mem.mp (by
          simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_forall_not_mem (b := Proc.devRef .tc main_arg1) _ _ (List.forall_iff_forall_mem.mp (by
          simp only [hostOps1_6, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W7 m c (Proc.devRef .tc main_arg1) := StableHlo.after_of_forall_not_mem (b := Proc.devRef .tc main_arg1) _ _ (List.forall_iff_forall_mem.mp (by
          simp only [hostOps1_5, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W6 m c (Proc.devRef .tc main_arg1) := StableHlo.after_of_forall_not_mem (b := Proc.devRef .tc main_arg1) _ _ (List.forall_iff_forall_mem.mp (by
          simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m c (Proc.devRef .tc main_arg1) := StableHlo.after_of_forall_not_mem (b := Proc.devRef .tc main_arg1) _ _ (List.forall_iff_forall_mem.mp (by
          simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W4 m c (Proc.devRef .tc main_arg1) := StableHlo.after_of_forall_not_mem (b := Proc.devRef .tc main_arg1) _ _ (List.forall_iff_forall_mem.mp (by
          simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m c (Proc.devRef .tc main_arg1) := StableHlo.after_of_forall_not_mem (b := Proc.devRef .tc main_arg1) _ _ (List.forall_iff_forall_mem.mp (by
          simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W2 m c (Proc.devRef .tc main_arg1) := StableHlo.after_of_forall_not_mem (b := Proc.devRef .tc main_arg1) _ _ (List.forall_iff_forall_mem.mp (by
          simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

end Cert.Kernel.Hand

end
-- ==== Proof.KI.OutBlk.lean ====
/-
  What the kernel body leaves in its output block at one grid point, as a function of the five input blocks.

  The point's row block of the matrix (512 rows, bf16), the whole matrix (8192 rows, bf16), the row block's labels,
  all labels, and the row block's squared norms are read once. A first pass over the 16 column chunks of 512
  columns forms, per chunk, the tile of similarities of the block's rows with the chunk's rows (the diagonal
  entries replaced by the squared norms), and folds the running row minimum over same-label entries below one and
  the running row maximum over different-label entries. A second pass over the same chunks, with those two row
  thresholds fixed, accumulates per row: the count of kept same-label entries, the count of kept different-label
  entries, the first count less the sum of the kept same-label similarities, and the sum of the kept
  different-label similarities. The block's four columns are those four accumulators.
  Stated for any float instance: every step is one of the body's own pure terms.
-/
import proofs.«422922_j45569603010928_3_alg».proof.Proof.Gen.KernelIdeal.Skeleton
import Idealize.ShloMosaic.Lib.Pipeline.FrameBody

noncomputable section

namespace Cert.KernelIdeal.Blk

open Cert.KernelIdeal Cert.KernelIdeal.Gen Idealize.ShloMosaic Idealize.SL.Sem

variable {F : FTy → Type} [FloatOps F]

/-- Both passes make sixteen trips. -/
theorem trips1 : k0_t1_loop.trips = 16 := by decide
theorem trips2 : k0_t2_loop.trips = 16 := by decide

/-- A trip of the second pass as the trip of the first pass over the same column chunk. -/
def tr (k : Fin k0_t2_loop.trips) : Fin k0_t1_loop.trips := ⟨k.val, by have h1 := trips1; have h2 := trips2; have := k.isLt; omega⟩

/-- The whole-buffer rectangles of the small shapes, and the output block's four columns. -/
abbrev rBlock : Rect S512x512 := Rect.unit (s := S512x512) ![0, 0] S512x512.size inb_S512x512_S512x512_0_0
abbrev rCol : Rect S512x1 := Rect.unit (s := S512x1) ![0, 0] S512x1.size inb_S512x1_S512x1_0_0
abbrev rOut0 : Rect S512x4 := Rect.unit (s := S512x4) ![0, 0] S512x1.size inb_S512x4_S512x1_0_0
abbrev rOut1 : Rect S512x4 := Rect.unit (s := S512x4) ![0, 1] S512x1.size inb_S512x4_S512x1_0_1
abbrev rOut2 : Rect S512x4 := Rect.unit (s := S512x4) ![0, 2] S512x1.size inb_S512x4_S512x1_0_2
abbrev rOut3 : Rect S512x4 := Rect.unit (s := S512x4) ![0, 3] S512x1.size inb_S512x4_S512x1_0_3

section
variable (i : grid0.Coords) (x1 : Vec F S512x512 .bf16) (x2 : Vec F S8192x512 .bf16) (x3 : Vec F S512x1 .i32)
  (x4 : Vec F S1x8192 .i32) (x5 : Vec F S512x1 .f32)

/-- The grid coordinate as the body's word. -/
def gridWord : BitVec 32 := BitVec.ofNat 32 (i 0).val
/-- The point's row block, its labels and its squared norms, as the body reads them once. -/
def rowsBf : FVec F S512x512 .bf16 := k0_pay17 (View.ld x1 rBlock)
def rowTg : IVec S512x1 32 := k0_pay18 (View.ld x3 rCol)
def rowNorm : FVec F S512x1 .f32 := k0_pay19 (View.ld x5 rCol)
/-- Column chunk `k`: its 512 rows of the matrix and their labels (read in each pass). -/
def colsBf (k : Fin k0_t1_loop.trips) : Vec F S512x512 .bf16 :=
  View.ld x2 (Rect.unit (s := S8192x512) (k0_off1 k) S512x512.size (k0_off1_inb k))
def colTg1 (k : Fin k0_t1_loop.trips) : Vec F S1x512 .i32 :=
  View.ld x4 (Rect.unit (s := S1x8192) (k0_off2 k) S1x512.size (k0_off2_inb k))
def colTg2 (k : Fin k0_t2_loop.trips) : Vec F S1x512 .i32 :=
  View.ld x4 (Rect.unit (s := S1x8192) (k0_off4 k) S1x512.size (k0_off4_inb k))

/-- The tile of similarities of the block's rows with chunk `k`'s rows, diagonal entries at the squared norms:
    what the first pass stores into the strip at chunk `k`, and what the second pass loads back from there. -/
def simTile (k : Fin k0_t1_loop.trips) : FVec F S512x512 .f32 :=
  k0_pay23 (k0_pay6 (gridWord i) (rowsBf x1) (rowNorm x5) 0#32 1#32 k (colsBf x2 k))

/-- The running row minimum over same-label entries below one, after the first `n` chunks. -/
def minpAt : ℕ → FVec F S512x1 .f32
  | 0 => k0_pay20
  | n + 1 => if h : n < k0_t1_loop.trips then
      k0_pay9 (gridWord i) (rowsBf x1) (rowTg x3) (rowNorm x5) 0#32 1#32 ⟨n, h⟩ (colsBf x2 ⟨n, h⟩) (colTg1 x4 ⟨n, h⟩) (minpAt n)
    else minpAt n

/-- The running row maximum over different-label entries, after the first `n` chunks. -/
def maxnAt : ℕ → FVec F S512x1 .f32
  | 0 => k0_pay21
  | n + 1 => if h : n < k0_t1_loop.trips then
      k0_pay22 (k0_pay8 (gridWord i) (rowsBf x1) (rowTg x3) (rowNorm x5) 0#32 1#32 ⟨n, h⟩ (colsBf x2 ⟨n, h⟩) (colTg1 x4 ⟨n, h⟩)) (maxnAt n)
    else maxnAt n

/-- The two row thresholds the second pass works with. -/
def minp : FVec F S512x1 .f32 := minpAt i x1 x2 x3 x4 x5 16
def maxn : FVec F S512x1 .f32 := maxnAt i x1 x2 x3 x4 x5 16

/-- The count of kept same-label entries, after the first `n` chunks of the second pass. -/
def cntpAt : ℕ → FVec F S512x1 .f32
  | 0 => k0_pay24
  | n + 1 => if h : n < k0_t2_loop.trips then
      k0_pay2 (k0_pay13 (rowTg x3) (colTg2 x4 ⟨n, h⟩) (simTile i x1 x2 x5 (tr ⟨n, h⟩)) (maxn i x1 x2 x3 x4 x5)) (cntpAt n)
    else cntpAt n

/-- The count of kept different-label entries. -/
def cntnAt : ℕ → FVec F S512x1 .f32
  | 0 => k0_pay25
  | n + 1 => if h : n < k0_t2_loop.trips then
      k0_pay3 (k0_pay14 (rowTg x3) (colTg2 x4 ⟨n, h⟩) (simTile i x1 x2 x5 (tr ⟨n, h⟩)) (minp i x1 x2 x3 x4 x5)) (cntnAt n)
    else cntnAt n

/-- The kept same-label count less the sum of the kept same-label similarities. -/
def losspAt : ℕ → FVec F S512x1 .f32
  | 0 => k0_pay26
  | n + 1 => if h : n < k0_t2_loop.trips then
      k0_pay4 (k0_pay13 (rowTg x3) (colTg2 x4 ⟨n, h⟩) (simTile i x1 x2 x5 (tr ⟨n, h⟩)) (maxn i x1 x2 x3 x4 x5))
        (k0_pay15 (rowTg x3) (colTg2 x4 ⟨n, h⟩) (simTile i x1 x2 x5 (tr ⟨n, h⟩)) (maxn i x1 x2 x3 x4 x5)) (losspAt n)
    else losspAt n

/-- The sum of the kept different-label similarities. -/
def lossnAt : ℕ → FVec F S512x1 .f32
  | 0 => k0_pay1 (Scalar.ofBits .f32 0x00000000#32)
  | n + 1 => if h : n < k0_t2_loop.trips then
      k0_pay5 (k0_pay16 (rowTg x3) (colTg2 x4 ⟨n, h⟩) (simTile i x1 x2 x5 (tr ⟨n, h⟩)) (minp i x1 x2 x3 x4 x5)) (lossnAt n)
    else lossnAt n

/-- The output block: its four columns are the four accumulators after all sixteen chunks. -/
def outBlk : Vec F S512x4 .f32 :=
  View.canon [⟨rOut3, lossnAt i x1 x2 x3 x4 x5 16⟩, ⟨rOut2, losspAt i x1 x2 x3 x4 x5 16⟩,
    ⟨rOut1, cntnAt i x1 x2 x3 x4 x5 16⟩, ⟨rOut0, cntpAt i x1 x2 x3 x4 x5 16⟩]

end

end Cert.KernelIdeal.Blk

end
-- ==== Proof.KI.Kern.lean ====
import proofs.«422922_j45569603010928_3_alg».proof.Proof.Gen.KernelIdeal.Launch
import proofs.«422922_j45569603010928_3_alg».proof.Proof.Gen.KernelIdeal.Skeleton
import proofs.«422922_j45569603010928_3_alg».proof.Proof.Gen.KernelIdeal.Points
import proofs.«422922_j45569603010928_3_alg».proof.Proof.Gen.KernelIdeal.Loops
import proofs.«422922_j45569603010928_3_alg».proof.Proof.KI.OutBlk
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body's stores leave, read back

The run of the body names what each buffer holds by the list of the stores made through it. The lemmas below read those
lists back as values: one trip of each pass opened into its stores, then by induction over the trips the contents of
the strip, of the two threshold buffers and of the four accumulators, and at the end the output block as the overlay
of its four columns. Nothing here does arithmetic: every value is one of the body's own pure terms. -/

namespace Kern

section Pieces

variable (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512x1 .f32) (harg5 : arg5.IsWhole) (arg6 : Memref sig .tc .vmem S512x4 .f32) (harg6 : arg6.IsWhole) (arg7 : Memref sig .tc .vmem S512x8192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)

variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)

/-! ## Whole-buffer stores and loads

A store through the whole-buffer rectangle, made last, leaves its payload whatever was stored before; a load through
that rectangle reads the contents as they are. -/

/-- Both offsets zero, as the zero function. -/
theorem hz2 : (![0, 0] : Fin 2 → ℕ) = fun _ => 0 := by
  funext a; fin_cases a <;> rfl

theorem read_writes_cons_whole {sg : RefSig} {κ : Kind} {sp : Space} {S : Shape} {e : EltTy}
    (v : View sg κ sp S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

theorem readAt_whole {sg : RefSig} {κ : Kind} {sp : Space} {S : Shape} {e : EltTy}
    (v : View sg κ sp S e) (f : v.ty.Contents (Elt F)) {off : Fin S.rank → ℕ} (hz : off = fun _ => 0)
    (inb : ∀ a, off a + S.size a ≤ S.size a) :
    v.readAt (Elt F) (Rect.unit off S.size inb).toLoadRect f = v.read (Elt F) f := by
  rw [View.readAt_eq_ld, View.ld_unit_zero hz]

set_option quotPrecheck false
local notation "rW" => Rect.unit (s := S512x1) ![0, 0] S512x1.size inb_S512x1_S512x1_0_0
local notation "rWl" => Rect.toLoadRect (Rect.unit (s := S512x1) ![0, 0] S512x1.size inb_S512x1_S512x1_0_0)
local notation "rBl" => Rect.toLoadRect (Rect.unit (s := S512x512) ![0, 0] S512x512.size inb_S512x512_S512x512_0_0)

/-! ## One trip of each pass, opened

What one trip of the first pass stores: the similarity tile into the strip at the chunk's columns, and over the whole
of the two threshold buffers the fold of the chunk into what the trip found there. What one trip of the second pass
stores: over the whole of each of the four accumulators, the chunk's contribution folded into what it found there. -/

theorem trip1_eq (arg0 : BitVec 32) (v0 : Vec F S512x512 .bf16) (v2 : Vec F S512x1 .i32) (v4 : Vec F S512x1 .f32)
    (X2 : BufTy.Contents (Elt F) arg2.view.ty) (X4 : BufTy.Contents (Elt F) arg4.view.ty) (k : Fin k0_t1_loop.trips)
    (g7 : BufTy.Contents (Elt F) arg7.view.ty) (g8 : BufTy.Contents (Elt F) arg8.view.ty) (g9 : BufTy.Contents (Elt F) arg9.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg0 v0 v2 v4 X2 X4 k g7 g8 g9
      = (([⟨Rect.unit (s := S512x8192) (k0_off3 k) S512x512.size (k0_off3_inb k),
            k0_pay23 (k0_pay6 arg0 (k0_pay17 v0) (k0_pay19 v4) 0#32 1#32 k (View.readAt (Elt F) arg2.view (Rect.unit (s := S8192x512) (k0_off1 k) S512x512.size (k0_off1_inb k)).toLoadRect X2))⟩] : List (View.Piece (Elt F) S512x8192 .f32)),
         ([⟨rW, k0_pay9 arg0 (k0_pay17 v0) (k0_pay18 v2) (k0_pay19 v4) 0#32 1#32 k (View.readAt (Elt F) arg2.view (Rect.unit (s := S8192x512) (k0_off1 k) S512x512.size (k0_off1_inb k)).toLoadRect X2) (View.readAt (Elt F) arg4.view (Rect.unit (s := S1x8192) (k0_off2 k) S1x512.size (k0_off2_inb k)).toLoadRect X4)
              (View.readAt (Elt F) arg8.view rWl g8)⟩] : List (View.Piece (Elt F) S512x1 .f32)),
         ([⟨rW, k0_pay22 (k0_pay8 arg0 (k0_pay17 v0) (k0_pay18 v2) (k0_pay19 v4) 0#32 1#32 k (View.readAt (Elt F) arg2.view (Rect.unit (s := S8192x512) (k0_off1 k) S512x512.size (k0_off1_inb k)).toLoadRect X2) (View.readAt (Elt F) arg4.view (Rect.unit (s := S1x8192) (k0_off2 k) S1x512.size (k0_off2_inb k)).toLoadRect X4))
              (View.readAt (Elt F) arg9.view rWl g9)⟩] : List (View.Piece (Elt F) S512x1 .f32))) := by
  unfold tripL_k0_t1; unfold trip_k0_t1; rfl

theorem trip2_eq (v3 : IVec S512x1 32) (X4 : BufTy.Contents (Elt F) arg4.view.ty) (X7 : BufTy.Contents (Elt F) arg7.view.ty)
    (X8 : BufTy.Contents (Elt F) arg8.view.ty) (X9 : BufTy.Contents (Elt F) arg9.view.ty) (k : Fin k0_t2_loop.trips)
    (g10 : BufTy.Contents (Elt F) arg10.view.ty) (g11 : BufTy.Contents (Elt F) arg11.view.ty)
    (g12 : BufTy.Contents (Elt F) arg12.view.ty) (g13 : BufTy.Contents (Elt F) arg13.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v3 X4 X7 X8 X9 k g10 g11 g12 g13
      = (([⟨rW, k0_pay2 (k0_pay13 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (View.readAt (Elt F) arg10.view rWl g10)⟩] : List (View.Piece (Elt F) S512x1 .f32)),
         ([⟨rW, k0_pay3 (k0_pay14 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg8.view rWl X8))
              (View.readAt (Elt F) arg11.view rWl g11)⟩] : List (View.Piece (Elt F) S512x1 .f32)),
         ([⟨rW, k0_pay4 (k0_pay13 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (k0_pay15 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg9.view rWl X9))
              (View.readAt (Elt F) arg12.view rWl g12)⟩] : List (View.Piece (Elt F) S512x1 .f32)),
         ([⟨rW, k0_pay5 (k0_pay16 v3 (View.readAt (Elt F) arg4.view (Rect.unit (s := S1x8192) (k0_off4 k) S1x512.size (k0_off4_inb k)).toLoadRect X4) (View.readAt (Elt F) arg7.view (Rect.unit (s := S512x8192) (k0_off5 k) S512x512.size (k0_off5_inb k)).toLoadRect X7) (View.readAt (Elt F) arg8.view rWl X8))
              (View.readAt (Elt F) arg13.view rWl g13)⟩] : List (View.Piece (Elt F) S512x1 .f32))) := by
  unfold tripL_k0_t2; unfold trip_k0_t2; rfl

local notation "Xr1" => View.read (Elt F) arg1.view f1
local notation "Xr2" => View.read (Elt F) arg2.view f2
local notation "Xr3" => View.read (Elt F) arg3.view f3
local notation "Xr4" => View.read (Elt F) arg4.view f4
local notation "Xr5" => View.read (Elt F) arg5.view f5
local notation "Vl0" => View.readAt (Elt F) arg1.view rBl f1
local notation "Vl2" => View.readAt (Elt F) arg3.view rWl f3
local notation "Vl4" => View.readAt (Elt F) arg5.view rWl f5
local notation "Gw0" => BitVec.ofNat 32 (i 0).val
local notation "Gm8" => View.writes arg8.view (Elt F) (View.junk arg8.view) [⟨rW, k0_pay20⟩]
local notation "Gm9" => View.writes arg9.view (Elt F) (View.junk arg9.view) [⟨rW, k0_pay21⟩]
local notation "Pb1" => pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9
local notation "Tn1" => Scf.trips k0_t1_loop.lb k0_t1_loop.ub k0_t1_loop.st
local notation "Tn2" => Scf.trips k0_t2_loop.lb k0_t2_loop.ub k0_t2_loop.st

/-! ## The first pass

After `n` trips the strip holds the similarity tiles of the first `n` chunks, each at its own columns, and the two
threshold buffers hold the running minimum and maximum over those chunks: by induction on `n`, one trip at a time. -/

theorem pb1_strip (n : ℕ) (hn : n ≤ k0_t1_loop.trips) :
    (Pb1 n).1 = View.tilePieces (s := S512x8192) (Val := Elt F) (e := .f32) S512x512.size (fun k => k0_off3 k)
      (fun k => k0_off3_inb k) (fun k => Blk.simTile i Xr1 Xr2 Xr5 k) n hn := by
  induction n with
  | zero => rfl
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    rw [show Pb1 (n + 1) = _ from e, trip1_eq]
    dsimp only
    rw [ih (Nat.le_of_succ_le hn)]
    rfl

theorem pb1_minp (n : ℕ) (hn : n ≤ k0_t1_loop.trips) :
    arg8.view.read (Elt F) (arg8.view.writes (Elt F) Gm8 (Pb1 n).2.1) = Blk.minpAt i Xr1 Xr2 Xr3 Xr4 Xr5 n := by
  induction n with
  | zero => exact read_writes_cons_whole arg8.view _ hz2 _ _ []
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    have key := (readAt_whole arg8.view (arg8.view.writes (Elt F) Gm8 (Pb1 n).2.1) hz2 inb_S512x1_S512x1_0_0).trans (ih (Nat.le_of_succ_le hn))
    rw [show Pb1 (n + 1) = _ from e, trip1_eq]
    dsimp only
    refine (read_writes_cons_whole arg8.view _ hz2 _ _ _).trans ?_
    rw [key, Blk.minpAt, dif_pos h]
    rfl

theorem pb1_maxn (n : ℕ) (hn : n ≤ k0_t1_loop.trips) :
    arg9.view.read (Elt F) (arg9.view.writes (Elt F) Gm9 (Pb1 n).2.2) = Blk.maxnAt i Xr1 Xr2 Xr3 Xr4 Xr5 n := by
  induction n with
  | zero => exact read_writes_cons_whole arg9.view _ hz2 _ _ []
  | succ n ih =>
    have h : n < k0_t1_loop.trips := hn
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 Gw0 Vl0 Vl2 Vl4 f2 f4 f7 Gm8 Gm9 ⟨n, h⟩
    have key := (readAt_whole arg9.view (arg9.view.writes (Elt F) Gm9 (Pb1 n).2.2) hz2 inb_S512x1_S512x1_0_0).trans (ih (Nat.le_of_succ_le hn))
    rw [show Pb1 (n + 1) = _ from e, trip1_eq]
    dsimp only
    refine (read_writes_cons_whole arg9.view _ hz2 _ _ _).trans ?_
    rw [key, Blk.maxnAt, dif_pos h]
    rfl

local notation "Vl3" => k0_pay18 Vl2
local notation "Xc7" => View.writes arg7.view (Elt F) f7 (Pb1 Tn1).1
local notation "Xc8" => View.writes arg8.view (Elt F) (View.junk arg8.view) ((Pb1 Tn1).2.1 ++ [⟨rW, k0_pay20⟩])
local notation "Xc9" => View.writes arg9.view (Elt F) (View.junk arg9.view) ((Pb1 Tn1).2.2 ++ [⟨rW, k0_pay21⟩])
local notation "Gm10" => View.writes arg10.view (Elt F) (View.junk arg10.view) [⟨rW, k0_pay24⟩]
local notation "Gm11" => View.writes arg11.view (Elt F) (View.junk arg11.view) [⟨rW, k0_pay25⟩]
local notation "Gm12" => View.writes arg12.view (Elt F) (View.junk arg12.view) [⟨rW, k0_pay26⟩]
local notation "Gm13" => View.writes arg13.view (Elt F) (View.junk arg13.view) [⟨rW, k0_pay1 (Scalar.ofBits .f32 0x00000000#32)⟩]
local notation "Pb2" => pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 Xc7 Xc8 Xc9 Gm10 Gm11 Gm12 Gm13

/-! ## Between the passes

The second pass finds the two threshold buffers at the minimum and maximum over all sixteen chunks, and chunk `k`'s
columns of the strip at the tile the first pass stored there: the sixteen column ranges are disjoint, so the tile at
those columns is read back whatever the other fifteen stores were. -/

theorem xc8_read : View.readAt (Elt F) arg8.view rWl Xc8 = Blk.minp i Xr1 Xr2 Xr3 Xr4 Xr5 := by
  refine (readAt_whole arg8.view _ hz2 inb_S512x1_S512x1_0_0).trans ?_
  rw [View.writes_append]
  exact (pb1_minp c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)).trans (congrArg (Blk.minpAt i Xr1 Xr2 Xr3 Xr4 Xr5) Blk.trips1)

theorem xc9_read : View.readAt (Elt F) arg9.view rWl Xc9 = Blk.maxn i Xr1 Xr2 Xr3 Xr4 Xr5 := by
  refine (readAt_whole arg9.view _ hz2 inb_S512x1_S512x1_0_0).trans ?_
  rw [View.writes_append]
  exact (pb1_maxn c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)).trans (congrArg (Blk.maxnAt i Xr1 Xr2 Xr3 Xr4 Xr5) Blk.trips1)

theorem xc7_slab (k : Fin k0_t2_loop.trips) :
    (View.readAt (Elt F) arg7.view (Rect.unit (s := S512x8192) (k0_off5 k) S512x512.size (k0_off5_inb k)).toLoadRect Xc7) = Blk.simTile i Xr1 Xr2 Xr5 (Blk.tr k) := by
  funext j
  rw [View.readAt_apply, pb1_strip c i arg1 harg1 arg2 harg2 arg3 harg3 arg4 harg4 arg5 harg5 arg6 harg6 arg7 harg7 arg8 harg8 arg9 harg9 arg10 harg10 arg11 harg11 arg12 harg12 arg13 harg13 f1 f2 f3 f4 f5 f7 Tn1 (Nat.le_refl _)]
  refine View.read_tilePieces arg7.view f7 S512x512.size (fun k => k0_off3 k) (fun k => k0_off3_inb k)
    (fun k => Blk.simTile i Xr1 Xr2 Xr5 k) Tn1 (Nat.le_refl _) _ (Blk.tr k) (Blk.tr k).isLt j ?_ (1 : Fin 2) ?_
  · intro a
    have e5 : k0_off5 k a = (![0, 512 * k.val] : Fin 2 → ℕ) a := congrFun (k0_off5_eq k) a
    have e3 : k0_off3 (Blk.tr k) a = (![0, 512 * k.val] : Fin 2 → ℕ) a := congrFun (k0_off3_eq (Blk.tr k)) a
    show k0_off5 k a + 1 * (j a).val = k0_off3 (Blk.tr k) a + (j a).val
    omega
  · intro i' hi'
    have hne : i'.val ≠ k.val := fun e => hi' (Fin.ext e)
    have hj : (j (1 : Fin 2)).val < 512 := (j (1 : Fin 2)).isLt
    have e5 : k0_off5 k (1 : Fin 2) = 512 * k.val := congrFun (k0_off5_eq k) (1 : Fin 2)
    have e3 : k0_off3 i' (1 : Fin 2) = 512 * i'.val := congrFun (k0_off3_eq i') (1 : Fin 2)
    show k0_off5 k (1 : Fin 2) + 1 * (j (1 : Fin 2)).val < k0_off3 i' (1 : Fin 2) ∨ k0_off3 i' (1 : Fin 2) + 512 ≤ k0_off5 k (1 : Fin 2) + 1 * (j (1 : Fin 2)).val
    omega

/-! ## The second pass

After `n` trips each of the four accumulators holds its fold over the first `n` chunks — given that the pass finds
the strip at the first pass's tiles and the two threshold buffers at the row minimum and maximum, and that the
accumulator was reset before the pass. Stated over whatever contents the pass starts from, with those facts as
hypotheses. -/

theorem pb2_cntp (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h9 : View.readAt (Elt F) arg9.view rWl X9 = Blk.maxn i Xr1 Xr2 Xr3 Xr4 Xr5)
    (hG : arg10.view.read (Elt F) G10 = k0_pay24) (n : ℕ) (hn : n ≤ k0_t2_loop.trips) :
    arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).1) = Blk.cntpAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg10.view (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg10.view _ hz2 _ _ _).trans ?_
    rw [key, h7 ⟨n, h⟩, h9, Blk.cntpAt, dif_pos h]
    rfl

theorem pb2_cntn (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h8 : View.readAt (Elt F) arg8.view rWl X8 = Blk.minp i Xr1 Xr2 Xr3 Xr4 Xr5)
    (hG : arg11.view.read (Elt F) G11 = k0_pay25) (n : ℕ) (hn : n ≤ k0_t2_loop.trips) :
    arg11.view.read (Elt F) (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.1) = Blk.cntnAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg11.view (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg11.view _ hz2 _ _ _).trans ?_
    rw [key, h7 ⟨n, h⟩, h8, Blk.cntnAt, dif_pos h]
    rfl

theorem pb2_lossp (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h9 : View.readAt (Elt F) arg9.view rWl X9 = Blk.maxn i Xr1 Xr2 Xr3 Xr4 Xr5)
    (hG : arg12.view.read (Elt F) G12 = k0_pay26) (n : ℕ) (hn : n ≤ k0_t2_loop.trips) :
    arg12.view.read (Elt F) (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.1) = Blk.losspAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg12.view (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.1) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg12.view _ hz2 _ _ _).trans ?_
    rw [key, h7 ⟨n, h⟩, h9, Blk.losspAt, dif_pos h]
    rfl

theorem pb2_lossn (X7 : BufTy.Contents (Elt F) arg7.view.ty) (X8 : BufTy.Contents (Elt F) arg8.view.ty) (X9 : BufTy.Contents (Elt F) arg9.view.ty)
    (G10 : BufTy.Contents (Elt F) arg10.view.ty) (G11 : BufTy.Contents (Elt F) arg11.view.ty) (G12 : BufTy.Contents (Elt F) arg12.view.ty) (G13 : BufTy.Contents (Elt F) arg13.view.ty)
    (h7 : ∀ k : Fin k0_t2_loop.trips, (View.readAt (Elt F) arg7.view (Rect.unit (s := S512x8192) (k0_off5 k) S512x512.size (k0_off5_inb k)).toLoadRect X7) = Blk.simTile i Xr1 Xr2 Xr5 (Blk.tr k))
    (h8 : View.readAt (Elt F) arg8.view rWl X8 = Blk.minp i Xr1 Xr2 Xr3 Xr4 Xr5)
    (hG : arg13.view.read (Elt F) G13 = k0_pay1 (Scalar.ofBits .f32 0x00000000#32)) (n : ℕ) (hn : n ≤ k0_t2_loop.trips) :
    arg13.view.read (Elt F) (arg13.view.writes (Elt F) G13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.2) = Blk.lossnAt i Xr1 Xr2 Xr3 Xr4 Xr5 n := by
  induction n with
  | zero => exact hG
  | succ n ih =>
    have h : n < k0_t2_loop.trips := hn
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 ⟨n, h⟩
    have key := (readAt_whole arg13.view (arg13.view.writes (Elt F) G13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 n).2.2.2) hz2 inb_S512x1_S512x1_0_0).trans (ih (Nat.le_of_succ_le hn))
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 Vl3 f4 X7 X8 X9 G10 G11 G12 G13 (n + 1)) = _ from e, trip2_eq]
    dsimp only
    refine (read_writes_cons_whole arg13.view _ hz2 _ _ _).trans ?_
    rw [key, h7 ⟨n, h⟩, h8, Blk.lossnAt, dif_pos h]
    rfl

/-! ## The output block

The four accumulators after all sixteen chunks are stored into the block's four columns, which tile it: the block
reads as the overlay of the four columns. -/

theorem acc10 :
    View.readAt (Elt F) arg10.view rWl (View.writes arg10.view (Elt F) (View.junk arg10.view) ((Pb2 Tn2).1 ++ [⟨rW, k0_pay24⟩]))
      = Blk.cntpAt i Xr1 Xr2 Xr3 Xr4 Xr5 16 := by
  refine (readAt_whole arg10.view _ hz2 inb_S512x1_S512x1_0_0).trans ?_
  rw [View.writes_append]
  exact (pb2_cntp c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc9_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg10.view _ hz2 _ _ []) Tn2 (Nat.le_refl _)).trans (congrArg (Blk.cntpAt i Xr1 Xr2 Xr3 Xr4 Xr5) Blk.trips2)

theorem acc11 :
    View.readAt (Elt F) arg11.view rWl (View.writes arg11.view (Elt F) (View.junk arg11.view) ((Pb2 Tn2).2.1 ++ [⟨rW, k0_pay25⟩]))
      = Blk.cntnAt i Xr1 Xr2 Xr3 Xr4 Xr5 16 := by
  refine (readAt_whole arg11.view _ hz2 inb_S512x1_S512x1_0_0).trans ?_
  rw [View.writes_append]
  exact (pb2_cntn c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc8_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg11.view _ hz2 _ _ []) Tn2 (Nat.le_refl _)).trans (congrArg (Blk.cntnAt i Xr1 Xr2 Xr3 Xr4 Xr5) Blk.trips2)

theorem acc12 :
    View.readAt (Elt F) arg12.view rWl (View.writes arg12.view (Elt F) (View.junk arg12.view) ((Pb2 Tn2).2.2.1 ++ [⟨rW, k0_pay26⟩]))
      = Blk.losspAt i Xr1 Xr2 Xr3 Xr4 Xr5 16 := by
  refine (readAt_whole arg12.view _ hz2 inb_S512x1_S512x1_0_0).trans ?_
  rw [View.writes_append]
  exact (pb2_lossp c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc9_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg12.view _ hz2 _ _ []) Tn2 (Nat.le_refl _)).trans (congrArg (Blk.losspAt i Xr1 Xr2 Xr3 Xr4 Xr5) Blk.trips2)

theorem acc13 :
    View.readAt (Elt F) arg13.view rWl (View.writes arg13.view (Elt F) (View.junk arg13.view) ((Pb2 Tn2).2.2.2 ++ [⟨rW, k0_pay1 (Scalar.ofBits .f32 0x00000000#32)⟩]))
      = Blk.lossnAt i Xr1 Xr2 Xr3 Xr4 Xr5 16 := by
  refine (readAt_whole arg13.view _ hz2 inb_S512x1_S512x1_0_0).trans ?_
  rw [View.writes_append]
  exact (pb2_lossn c i arg1 harg1 arg2 harg2 arg3 harg3 arg4 harg4 arg5 harg5 arg6 harg6 arg7 harg7 arg8 harg8 arg9 harg9 arg10 harg10 arg11 harg11 arg12 harg12 arg13 harg13 f1 f2 f3 f4 f5 Xc7 Xc8 Xc9 Gm10 Gm11 Gm12 Gm13 (xc7_slab c i arg1 harg1 arg2 harg2 arg3 harg3 arg4 harg4 arg5 harg5 arg6 harg6 arg7 harg7 arg8 harg8 arg9 harg9 arg10 harg10 arg11 harg11 arg12 harg12 arg13 harg13 f1 f2 f3 f4 f5 f7) (xc8_read c i arg1 harg1 arg2 harg2 arg3 harg3 arg4 harg4 arg5 harg5 arg6 harg6 arg7 harg7 arg8 harg8 arg9 harg9 arg10 harg10 arg11 harg11 arg12 harg12 arg13 harg13 f1 f2 f3 f4 f5 f7)
    (read_writes_cons_whole arg13.view _ hz2 _ _ []) Tn2 (Nat.le_refl _)).trans (congrArg (Blk.lossnAt i Xr1 Xr2 Xr3 Xr4 Xr5) Blk.trips2)

theorem out_final :
    View.read (Elt F) arg6.view (View.writes arg6.view (Elt F) f6
      [⟨Rect.unit (s := S512x4) ![0, 3] S512x1.size inb_S512x4_S512x1_0_3,
          View.readAt (Elt F) arg13.view rWl (View.writes arg13.view (Elt F) (View.junk arg13.view) ((Pb2 Tn2).2.2.2 ++ [⟨rW, k0_pay1 (Scalar.ofBits .f32 0x00000000#32)⟩]))⟩,
       ⟨Rect.unit (s := S512x4) ![0, 2] S512x1.size inb_S512x4_S512x1_0_2,
          View.readAt (Elt F) arg12.view rWl (View.writes arg12.view (Elt F) (View.junk arg12.view) ((Pb2 Tn2).2.2.1 ++ [⟨rW, k0_pay26⟩]))⟩,
       ⟨Rect.unit (s := S512x4) ![0, 1] S512x1.size inb_S512x4_S512x1_0_1,
          View.readAt (Elt F) arg11.view rWl (View.writes arg11.view (Elt F) (View.junk arg11.view) ((Pb2 Tn2).2.1 ++ [⟨rW, k0_pay25⟩]))⟩,
       ⟨Rect.unit (s := S512x4) ![0, 0] S512x1.size inb_S512x4_S512x1_0_0,
          View.readAt (Elt F) arg10.view rWl (View.writes arg10.view (Elt F) (View.junk arg10.view) ((Pb2 Tn2).1 ++ [⟨rW, k0_pay24⟩]))⟩])
      = Blk.outBlk i Xr1 Xr2 Xr3 Xr4 Xr5 := by
  rw [acc13 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc12 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc11 c i arg1 harg1 arg2 harg2 arg3 harg3 arg4 harg4 arg5 harg5 arg6 harg6 arg7 harg7 arg8 harg8 arg9 harg9 arg10 harg10 arg11 harg11 arg12 harg12 arg13 harg13 f1 f2 f3 f4 f5 f7, acc10 c i arg1 harg1 arg2 harg2 arg3 harg3 arg4 harg4 arg5 harg5 arg6 harg6 arg7 harg7 arg8 harg8 arg9 harg9 arg10 harg10 arg11 harg11 arg12 harg12 arg13 harg13 f1 f2 f3 f4 f5 f7]
  unfold Blk.outBlk
  exact View.read_writes_eq_canon arg6.view f6 _ (View.cover_of_tiled _ S512x1.size (by rfl))

end Pieces

end Kern

/-! # The kernel body's triple

On whole staging memrefs, the five inputs' at read contents and the output's and the seven scratch buffers' at anything,
the body runs to the end, leaves the inputs as they were, the output buffer at `Blk.outBlk` of the inputs, and the
scratch buffers at something. The run goes through both counted loops by their invariants (the pieces of the trips
so far written over what the loop found); what is then left to show is that the four column pieces the body stores
last, read back through those pieces, are the four accumulators of `Blk.outBlk`. -/

set_option maxHeartbeats 8000000 in
theorem sound_kernel (c : Dev nD) (E : Set ℕ) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512x1 .f32) (harg5 : arg5.IsWhole) (arg6 : Memref sig .tc .vmem S512x4 .f32) (harg6 : arg6.IsWhole) (arg7 : Memref sig .tc .vmem S512x8192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (x1 : Vec F S512x512 .bf16) (x2 : Vec F S8192x512 .bf16) (x3 : Vec F S512x1 .i32) (x4 : Vec F S1x8192 .i32) (x5 : Vec F S512x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (Blk.outBlk i x1 x2 x3 x4 x5)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    exact Kern.out_final c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.KernelIdeal.Hand

end
-- ==== Proof.KI.Data.lean ====
import proofs.«422922_j45569603010928_3_alg».proof.Proof.Gen.KernelIdeal.Launch
import proofs.«422922_j45569603010928_3_alg».proof.Proof.Gen.KernelIdeal.Skeleton
import proofs.«422922_j45569603010928_3_alg».proof.Proof.Gen.KernelIdeal.Points
import proofs.«422922_j45569603010928_3_alg».proof.Proof.Gen.KernelIdeal.Loops
import proofs.«422922_j45569603010928_3_alg».proof.Proof.KI.OutBlk
import proofs.«422922_j45569603010928_3_alg».proof.Proof.KI.Kern
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's proof data and the body obligation

The region is entered with the TensorCore's buffers at contents `V`. At grid point `t` each input window's staging
buffer holds its block of its array (the row block of the bf16 matrix, the whole bf16 matrix, the row block's labels,
all the labels, the row block's squared norms), whether the pipeline fetched it at that point or left it from the
point before; the body leaves those as it found them and the output window's buffer at the block `Blk.outBlk` of
the five. The bf16 matrix is one array read through two windows: each holds half of its share. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => Blk.outBlk (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t
    = Blk.outBlk (grid0.coords t) (iblk V c 0 t) (iblk V c 1 t) (iblk V c 2 t) (iblk V c 3 t) (iblk V c 4 t) := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- A whole scratch buffer owned at some contents is its points-to at some contents. -/
theorem owns_scratch (c : Dev nD) (b : Ref sig .tc) :
    (iprop(∃ X, owns (Ix := Unit) (Name := ℕ) (U := UR sig nD τ) (Lvl := ℕ) (c : Thread nD τ) (Memref.whole b : Memref sig .tc _ _ _) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The scratch buffers the body uses, each owned whole at some contents: the scoped buffers no window stages. -/
theorem scratch_of_rest (c : Dev nD) :
    (Pipeline.scopedRest (Ix := Unit) (Name := ℕ) (U := UR sig nD τ) (Lvl := ℕ) (Val := Elt F) spec0 c : sProp 𝕄)
      = iprop((∃ X, owns (c : Thread nD τ) (Memref.whole cc0_scratch0 : Memref sig .tc _ _ _) fullShare X) ∗ (∃ X, owns (c : Thread nD τ) (Memref.whole cc0_scratch1 : Memref sig .tc _ _ _) fullShare X) ∗ (∃ X, owns (c : Thread nD τ) (Memref.whole cc0_scratch2 : Memref sig .tc _ _ _) fullShare X) ∗ (∃ X, owns (c : Thread nD τ) (Memref.whole cc0_scratch3 : Memref sig .tc _ _ _) fullShare X) ∗ (∃ X, owns (c : Thread nD τ) (Memref.whole cc0_scratch4 : Memref sig .tc _ _ _) fullShare X) ∗ (∃ X, owns (c : Thread nD τ) (Memref.whole cc0_scratch5 : Memref sig .tc _ _ _) fullShare X) ∗ (∃ X, owns (c : Thread nD τ) (Memref.whole cc0_scratch6 : Memref sig .tc _ _ _) fullShare X)) := by
  rw [scopedRest0_eq c, owns_scratch c cc0_scratch0, owns_scratch c cc0_scratch1, owns_scratch c cc0_scratch2, owns_scratch c cc0_scratch3, owns_scratch c cc0_scratch4, owns_scratch c cc0_scratch5, owns_scratch c cc0_scratch6]

set_option maxHeartbeats 4000000 in
/-- The body at any point: the inputs' memrefs hold their blocks, the scratch buffers come out of the invariant and go
    back into it, and the kernel's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.succ = (dat0 V c).Φ t.castSucc from rfl,
    show (dat0 V c).owesAt () t.succ = (dat0 V c).owesAt () t.castSucc from rfl,
    after_0, after_1, after_2, after_3, after_4, after_5]
  rw [show (dat0 V c).Φ t.castSucc = Pipeline.ΦA spec0 c from rfl]
  unfold Pipeline.ΦA
  rw [scratch_of_rest]
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hp]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Run.lean ====
import proofs.«422922_j45569603010928_3_alg».proof.Proof.Gen.KernelIdeal.Launch
import proofs.«422922_j45569603010928_3_alg».proof.Proof.Gen.KernelIdeal.Skeleton
import proofs.«422922_j45569603010928_3_alg».proof.Proof.Gen.KernelIdeal.Points
import proofs.«422922_j45569603010928_3_alg».proof.Proof.Gen.KernelIdeal.Loops
import proofs.«422922_j45569603010928_3_alg».proof.Proof.KI.Data
import Idealize.ShloMosaic.Lib.Pipeline.RegionsLoop
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main

@main is nine items: seven host operations (the bf16 copy of the matrix, the labels as a column and as a row, the
rows' squared norms), the kernel region, and seven more stretches of host operations (the four columns sliced out
of the packed result, the two quotients per row, the mean over the rows with a kept different-label entry, the share
of the others, the last row's similarities by a host product with its own entry reset to its squared norm, and
the last row's two means). Between two items the core holds every unscoped buffer whole, at the contents the items
so far leave: the launch memory, then each stretch's operations applied, the region changing only the packed result,
which ends at what the sixteen write-backs of the output window leave. -/

variable (m : (ℓ : Loc nD τ sig) → Buf (Elt F) ℓ)

/-- Core `c`'s buffers at launch, -/
abbrev W0 (c : Dev nD) : Valuation τ sig (Elt F) := fun b => m (c, b)
/-- after the host operations before the region (the region's entry), -/
abbrev W1 (c : Dev nD) : Valuation τ sig (Elt F) := StableHlo.after hostOps0 (W0 m c)
/-- the same read at the TensorCore's references (what the region's proof data take), -/
abbrev V1 : (c : Dev nD) → (b : Ref sig .tc) → Buf (Elt F) ((c : Thread nD τ).loc b) := fun c b => W1 m c b
/-- at the region's exit: the packed result at what the write-backs leave, every other buffer as entered, -/
def W2 (c : Dev nD) : Valuation τ sig (Elt F) :=
  Function.update (W1 m c) (Proc.devRef .tc main_v6) ((dat0 (V1 m) c).arrAt 5 cfg0.N)
/-- and after each later stretch. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev W8 (c : Dev nD) : Valuation τ sig (Elt F) := StableHlo.after hostOps1_5 (W7 m c)
abbrev W9 (c : Dev nD) : Valuation τ sig (Elt F) := StableHlo.after hostOps1_6 (W8 m c)

theorem W2_out (c : Dev nD) : W2 m c (Proc.devRef .tc main_v6) = (dat0 (V1 m) c).arrAt 5 cfg0.N := by
  unfold W2; exact Function.update_self ..
theorem W2_of_ne (c : Dev nD) (b : Ref sig .tc) (hb : b ≠ main_v6) : W2 m c (Proc.devRef .tc b) = W1 m c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m c b

/-! ## The region's arrays in and out of the core's unscoped buffers

The bf16 matrix is read through two windows, so its one buffer is dealt to them in two halves of its share at the
region's entry and joined again at its exit; the other four arrays are each one window's. -/

set_option maxHeartbeats 2000000

/-! A window's array at its share is the plain points-to of the buffer behind it: the bf16 matrix's two windows hold a
    half of its share each, every other window the whole. -/
theorem arr_pts_0 (V : (c : Dev nD) → (b : Ref sig .tc) → Buf (Elt F) ((c : Thread nD τ).loc b)) (c : Dev nD)
    (X : Buf (Elt F) ((cfg0.win (0 : Fin 6)).arr.view.loc (c.tc : Thread nD τ))) :
    ((cfg0.win (0 : Fin 6)).arr.view.loc (c.tc : Thread nD τ) ↦[(cfg0.win (0 : Fin 6)).arr.view.set]{(dat0 V c).share (0 : Fin 6)} X : sProp 𝕄)
      = ((c.tc : Thread nD τ).loc main_v0 ↦{fullShare.left} X) := by
  rw [(arr_whole0 (0 : Fin 6)).set_eq_univ]; rfl
theorem arr_pts_1 (V : (c : Dev nD) → (b : Ref sig .tc) → Buf (Elt F) ((c : Thread nD τ).loc b)) (c : Dev nD)
    (X : Buf (Elt F) ((cfg0.win (1 : Fin 6)).arr.view.loc (c.tc : Thread nD τ))) :
    ((cfg0.win (1 : Fin 6)).arr.view.loc (c.tc : Thread nD τ) ↦[(cfg0.win (1 : Fin 6)).arr.view.set]{(dat0 V c).share (1 : Fin 6)} X : sProp 𝕄)
      = ((c.tc : Thread nD τ).loc main_v0 ↦{fullShare.right} X) := by
  rw [(arr_whole0 (1 : Fin 6)).set_eq_univ]; rfl
theorem arr_pts_2 (V : (c : Dev nD) → (b : Ref sig .tc) → Buf (Elt F) ((c : Thread nD τ).loc b)) (c : Dev nD)
    (X : Buf (Elt F) ((cfg0.win (2 : Fin 6)).arr.view.loc (c.tc : Thread nD τ))) :
    ((cfg0.win (2 : Fin 6)).arr.view.loc (c.tc : Thread nD τ) ↦[(cfg0.win (2 : Fin 6)).arr.view.set]{(dat0 V c).share (2 : Fin 6)} X : sProp 𝕄)
      = ((c.tc : Thread nD τ).loc main_v1 ↦{fullShare} X) := by
  rw [(arr_whole0 (2 : Fin 6)).set_eq_univ]; rfl
theorem arr_pts_3 (V : (c : Dev nD) → (b : Ref sig .tc) → Buf (Elt F) ((c : Thread nD τ).loc b)) (c : Dev nD)
    (X : Buf (Elt F) ((cfg0.win (3 : Fin 6)).arr.view.loc (c.tc : Thread nD τ))) :
    ((cfg0.win (3 : Fin 6)).arr.view.loc (c.tc : Thread nD τ) ↦[(cfg0.win (3 : Fin 6)).arr.view.set]{(dat0 V c).share (3 : Fin 6)} X : sProp 𝕄)
      = ((c.tc : Thread nD τ).loc main_v2 ↦{fullShare} X) := by
  rw [(arr_whole0 (3 : Fin 6)).set_eq_univ]; rfl
theorem arr_pts_4 (V : (c : Dev nD) → (b : Ref sig .tc) → Buf (Elt F) ((c : Thread nD τ).loc b)) (c : Dev nD)
    (X : Buf (Elt F) ((cfg0.win (4 : Fin 6)).arr.view.loc (c.tc : Thread nD τ))) :
    ((cfg0.win (4 : Fin 6)).arr.view.loc (c.tc : Thread nD τ) ↦[(cfg0.win (4 : Fin 6)).arr.view.set]{(dat0 V c).share (4 : Fin 6)} X : sProp 𝕄)
      = ((c.tc : Thread nD τ).loc main_v5 ↦{fullShare} X) := by
  rw [(arr_whole0 (4 : Fin 6)).set_eq_univ]; rfl
theorem arr_pts_5 (V : (c : Dev nD) → (b : Ref sig .tc) → Buf (Elt F) ((c : Thread nD τ).loc b)) (c : Dev nD)
    (X : Buf (Elt F) ((cfg0.win (5 : Fin 6)).arr.view.loc (c.tc : Thread nD τ))) :
    ((cfg0.win (5 : Fin 6)).arr.view.loc (c.tc : Thread nD τ) ↦[(cfg0.win (5 : Fin 6)).arr.view.set]{(dat0 V c).share (5 : Fin 6)} X : sProp 𝕄)
      = ((c.tc : Thread nD τ).loc main_v6 ↦{fullShare} X) := by
  rw [(arr_whole0 (5 : Fin 6)).set_eq_univ]; rfl

/-! An input window's array is never written: it holds the entry contents throughout. -/
theorem arrAt_in_0 (V : (c : Dev nD) → (b : Ref sig .tc) → Buf (Elt F) ((c : Thread nD τ).loc b)) (c : Dev nD) (n : ℕ) : (dat0 V c).arrAt (0 : Fin 6) n = V c main_v0 :=
  (dat0 V c).arrAt_in (0 : Fin 6) rfl n
theorem arrAt_in_1 (V : (c : Dev nD) → (b : Ref sig .tc) → Buf (Elt F) ((c : Thread nD τ).loc b)) (c : Dev nD) (n : ℕ) : (dat0 V c).arrAt (1 : Fin 6) n = V c main_v0 :=
  (dat0 V c).arrAt_in (1 : Fin 6) rfl n
theorem arrAt_in_2 (V : (c : Dev nD) → (b : Ref sig .tc) → Buf (Elt F) ((c : Thread nD τ).loc b)) (c : Dev nD) (n : ℕ) : (dat0 V c).arrAt (2 : Fin 6) n = V c main_v1 :=
  (dat0 V c).arrAt_in (2 : Fin 6) rfl n
theorem arrAt_in_3 (V : (c : Dev nD) → (b : Ref sig .tc) → Buf (Elt F) ((c : Thread nD τ).loc b)) (c : Dev nD) (n : ℕ) : (dat0 V c).arrAt (3 : Fin 6) n = V c main_v2 :=
  (dat0 V c).arrAt_in (3 : Fin 6) rfl n
theorem arrAt_in_4 (V : (c : Dev nD) → (b : Ref sig .tc) → Buf (Elt F) ((c : Thread nD τ).loc b)) (c : Dev nD) (n : ℕ) : (dat0 V c).arrAt (4 : Fin 6) n = V c main_v5 :=
  (dat0 V c).arrAt_in (4 : Fin 6) rfl n

/-- The distinct buffers behind the six windows' arrays. -/
theorem arrRefs_eq : (Finset.univ.image (Pipeline.arrRef spec0) : Finset (Ref sig .tc)) = {main_v0, main_v1, main_v2, main_v5, main_v6} := by decide

/-- The buffers behind the arrays, each whole at contents `V`, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(((c.tc : Thread nD τ).loc main_v0 ↦{fullShare} V main_v0) ∗ ((c.tc : Thread nD τ).loc main_v1 ↦{fullShare} V main_v1)
          ∗ ((c.tc : Thread nD τ).loc main_v2 ↦{fullShare} V main_v2) ∗ ((c.tc : Thread nD τ).loc main_v5 ↦{fullShare} V main_v5)
          ∗ ((c.tc : Thread nD τ).loc main_v6 ↦{fullShare} V main_v6)) := by
  unfold Pipeline.arrBufs
  rw [arrRefs_eq, bigSep_insert (by decide), bigSep_insert (by decide), bigSep_insert (by decide), bigSep_insert (by decide), bigSep_singleton]
  rfl

/-- ENTRY: the unscoped buffers at the entry contents are the windows' arrays at their shares and the rest. -/
theorem arrays_of_bufs (V : (c : Dev nD) → (b : Ref sig .tc) → Buf (Elt F) ((c : Thread nD τ).loc b)) (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs (0 : Fin 1) winFacts₀0.arr_unscoped c (V c)]
  refine sep_mono ?_ .rfl
  rw [arrBufs_eq]
  unfold Dat.arrays
  rw [bigSep_W0]
  beta_reduce
  rw [arr_pts_0, arr_pts_1, arr_pts_2, arr_pts_3, arr_pts_4, arr_pts_5,
    arrAt_in_0, arrAt_in_1, arrAt_in_2, arrAt_in_3, arrAt_in_4]
  iintro ⟨H0, H1, H2, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H5]; · iexact H5
  iexact H6

/-- EXIT: the windows' arrays at their final contents and the rest are the unscoped buffers at any contents that
    have the packed result at what the write-backs leave and agree with the entry contents elsewhere. -/
theorem bufs_of_arrays (V V' : (c : Dev nD) → (b : Ref sig .tc) → Buf (Elt F) ((c : Thread nD τ).loc b)) (c : Dev nD)
    (hout : V' c main_v6 = (dat0 V c).arrAt 5 cfg0.N) (hrest : ∀ b : Ref sig .tc, b ≠ main_v6 → V' c b = V c b) :
    iprop((dat0 V c).arrays ((dat0 V c).arrAt · cfg0.N) ∗ Pipeline.unscopedRest spec0 c (V c)) ⊢ (unscopedBufs c (V' c) : sProp 𝕄) := by
  rw [Pipeline.unscopedBufs_split₀ cfgs (0 : Fin 1) winFacts₀0.arr_unscoped c (V' c)]
  refine sep_mono ?_ (Entails.of_eq ?_)
  · rw [arrBufs_eq]
    unfold Dat.arrays
    rw [bigSep_W0]
    beta_reduce
    rw [arr_pts_0, arr_pts_1, arr_pts_2, arr_pts_3, arr_pts_4, arr_pts_5,
      arrAt_in_0, arrAt_in_1, arrAt_in_2, arrAt_in_3, arrAt_in_4,
      hrest main_v0 (by decide), hrest main_v1 (by decide), hrest main_v2 (by decide), hrest main_v5 (by decide), hout]
    iintro ⟨H0l, H0r, H1, H2, H5, H6⟩
    isplitl [H0l H0r]
    · iapply (pointsTo_share (PosShare.mem_left_op_right fullShare)).2
      isplitl [H0l]; · iexact H0l
      iexact H0r
    isplitl [H1]; · iexact H1
    isplitl [H2]; · iexact H2
    isplitl [H5]; · iexact H5
    iexact H6
  · unfold Pipeline.unscopedRest
    refine bigSep_congr fun b hb => ?_
    rw [hrest b (fun e => (Finset.mem_sdiff.mp hb).2 (e ▸ Finset.mem_image.mpr ⟨5, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_of_bufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays (V1 m) (V2 m) c (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)) ]

theorem main_run (c : Dev nD) : main (F := F) c = Pipeline.Seg.run (segs m) := (main_chain c).trans (by chain_rfl)

/-- The final memory holds every unscoped buffer at the last contents. -/
def EndsAt (r : PUnit × MemSt nD τ sig (Elt F)) : Prop :=
  ∀ (c : Dev nD) (b : DevRef τ sig), b ∈ Pipeline.ucRefs τ sig → r.2.mem ((c : Thread nD τ).1, b) = W9 m c b

set_option backward.isDefEq.respectTransparency.types false in
/-- THE RUN: from any memory with zero counters every weakly fair execution of @main terminates, nothing faulting,
    with every unscoped buffer at the contents the nine items leave. -/
theorem run (ρ : Dev nD → PrngReg) : θ_run defs (onTc (τ := τ) (main (F := F))) ⟨m, fun _ => 0, ρ⟩ (EndsAt m) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c b hb)

/-! ## The arguments end as launched

No host operation writes an argument and the region writes only the packed result, so the contents the nine items
leave at an argument's buffer walk back to the launch memory. -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_forall_not_mem (b := Proc.devRef .tc main_arg0) _ _ (List.forall_iff_forall_mem.mp (by
          simp only [hostOps1_6, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W7 m c (Proc.devRef .tc main_arg0) := StableHlo.after_of_forall_not_mem (b := Proc.devRef .tc main_arg0) _ _ (List.forall_iff_forall_mem.mp (by
          simp only [hostOps1_5, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W6 m c (Proc.devRef .tc main_arg0) := StableHlo.after_of_forall_not_mem (b := Proc.devRef .tc main_arg0) _ _ (List.forall_iff_forall_mem.mp (by
          simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m c (Proc.devRef .tc main_arg0) := StableHlo.after_of_forall_not_mem (b := Proc.devRef .tc main_arg0) _ _ (List.forall_iff_forall_mem.mp (by
          simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W4 m c (Proc.devRef .tc main_arg0) := StableHlo.after_of_forall_not_mem (b := Proc.devRef .tc main_arg0) _ _ (List.forall_iff_forall_mem.mp (by
          simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m c (Proc.devRef .tc main_arg0) := StableHlo.after_of_forall_not_mem (b := Proc.devRef .tc main_arg0) _ _ (List.forall_iff_forall_mem.mp (by
          simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W2 m c (Proc.devRef .tc main_arg0) := StableHlo.after_of_forall_not_mem (b := Proc.devRef .tc main_arg0) _ _ (List.forall_iff_forall_mem.mp (by
          simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_forall_not_mem (b := Proc.devRef .tc main_arg1) _ _ (List.forall_iff_forall_mem.mp (by
          simp only [hostOps1_6, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W7 m c (Proc.devRef .tc main_arg1) := StableHlo.after_of_forall_not_mem (b := Proc.devRef .tc main_arg1) _ _ (List.forall_iff_forall_mem.mp (by
          simp only [hostOps1_5, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W6 m c (Proc.devRef .tc main_arg1) := StableHlo.after_of_forall_not_mem (b := Proc.devRef .tc main_arg1) _ _ (List.forall_iff_forall_mem.mp (by
          simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m c (Proc.devRef .tc main_arg1) := StableHlo.after_of_forall_not_mem (b := Proc.devRef .tc main_arg1) _ _ (List.forall_iff_forall_mem.mp (by
          simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W4 m c (Proc.devRef .tc main_arg1) := StableHlo.after_of_forall_not_mem (b := Proc.devRef .tc main_arg1) _ _ (List.forall_iff_forall_mem.mp (by
          simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m c (Proc.devRef .tc main_arg1) := StableHlo.after_of_forall_not_mem (b := Proc.devRef .tc main_arg1) _ _ (List.forall_iff_forall_mem.mp (by
          simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W2 m c (Proc.devRef .tc main_arg1) := StableHlo.after_of_forall_not_mem (b := Proc.devRef .tc main_arg1) _ _ (List.forall_iff_forall_mem.mp (by
          simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

end Cert.KernelIdeal.Hand

end
-- ==== Proof.Spec.lean ====
/-
  The mathematics of the two programs, over the extended reals, with no program in sight.

  A matrix `X` of 8192 rows and 512 columns and a label per row. The similarity of rows `r` and `c` is the sum
  over the 512 columns of the products of their entries. An entry is "positive" for row `r` when the labels agree
  and the similarity is below one; the row's positive threshold is the least similarity over its positive entries
  (the infinity when there is none) and its negative threshold the greatest similarity over the entries of another
  label (minus infinity when there is none). A different-label entry is kept when its similarity exceeds the
  positive threshold less a tenth; a positive entry is kept when its similarity is below the negative threshold
  plus a tenth. Per row: the two counts of kept entries, and two sums over them. Four scalars follow: a mean over
  rows with a kept different-label entry, the share of rows without one, and two means over the last row.

  The literals stay the words the programs print: nothing here evaluates one.
  `…R` is the shape the plain reference computes (one sum over a whole row of `one - sim`; counts as numbers of
  entries). `rowK` and `…K` are the shape the tiled kernel computes (the third column the per-chunk count less the
  per-chunk sum, chunk by chunk; counts as sums of ones; the four scalars from a packed array of per-row columns).
-/
import Idealize.ShloMosaic.PureOps.Ideal

noncomputable section

open scoped Classical

namespace Cert.Spec

open Idealize.ShloMosaic

abbrev Mat : Type := Fin 8192 → Fin 512 → EReal
abbrev Lab : Type := Fin 8192 → BitVec 32
/-- A packed array of four per-row columns. -/
abbrev Packed : Type := Fin 8192 → Fin 4 → EReal

/-- The literal words, as the extended reals they denote. -/
def one : EReal := Ideal.ofBits .f32 0x3F800000#32
def tenth : EReal := Ideal.ofBits .f32 0x3DCCCCCD#32
def pinf : EReal := Ideal.ofBits .f32 0x7F800000#32
def ninf : EReal := Ideal.ofBits .f32 0xFF800000#32
def zero : EReal := Ideal.ofBits .f32 0x00000000#32
def n8192 : EReal := Ideal.ofBits .f32 0x46000000#32

/-- The last row. -/
def last : Fin 8192 := ⟨8191, by decide⟩

/-- Column `c'` of chunk `j` (sixteen chunks of 512 columns). -/
def col (j : Fin 16) (c' : Fin 512) : Fin 8192 := ⟨512 * j.val + c'.val, by have := j.isLt; have := c'.isLt; omega⟩

/-- How many indices satisfy `p`. -/
def cntOf {n : ℕ} (p : Fin n → Prop) : ℕ := (Finset.univ.filter p).card

section
variable (X : Mat) (t : Lab)

/-- The similarity of two rows. -/
def sim (r c : Fin 8192) : EReal := ∑ k : Fin 512, X r k * X c k
/-- The labels agree. -/
def same (r c : Fin 8192) : Prop := t r = t c
/-- A same-label entry below one. -/
def posm (r c : Fin 8192) : Prop := same t r c ∧ sim X r c < one
/-- The least similarity over the row's positive entries. -/
def minpos (r : Fin 8192) : EReal := Finset.univ.fold min pinf fun c => if posm X t r c then sim X r c else pinf
/-- The greatest similarity over the row's different-label entries. -/
def maxneg (r : Fin 8192) : EReal := Finset.univ.fold max ninf fun c => if same t r c then ninf else sim X r c
/-- A kept different-label entry, a kept positive entry. -/
def negk (r c : Fin 8192) : Prop := ¬ same t r c ∧ minpos X t r - tenth < sim X r c
def posk (r c : Fin 8192) : Prop := posm X t r c ∧ sim X r c < maxneg X t r + tenth
/-- The numbers of kept entries in a row. -/
def pcntN (r : Fin 8192) : ℕ := cntOf (posk X t r)
def ncntN (r : Fin 8192) : ℕ := cntOf (negk X t r)

/-! ## The reference's shape -/

def plossR (r : Fin 8192) : EReal :=
  Ideal.div (zero + ∑ c, if posk X t r c then one - sim X r c else zero) ((max (pcntN X t r) 1 : ℕ) : EReal)
def nlossR (r : Fin 8192) : EReal :=
  Ideal.div (zero + ∑ c, if negk X t r c then sim X r c else zero) ((max (ncntN X t r) 1 : ℕ) : EReal)
def lossR : EReal :=
  Ideal.div (zero + ∑ r, if 1 ≤ ncntN X t r then plossR X t r + nlossR X t r else zero) n8192
def precR : EReal := Ideal.div ((cntOf (fun r => ¬ 1 ≤ ncntN X t r) : ℕ) : EReal) n8192
def mposR : EReal :=
  Ideal.div (zero + ∑ c, if posm X t last c then sim X last c else zero) ((max (cntOf (posm X t last)) 1 : ℕ) : EReal)
def mnegR : EReal :=
  Ideal.div (zero + ∑ c, if ¬ same t last c then sim X last c else zero) ((max (cntOf fun c => ¬ same t last c) 1 : ℕ) : EReal)

/-! ## The kernel's shape -/

/-- A row's four columns as the tiled kernel leaves them: the two counts (as extended reals), the per-chunk count
    of kept positive entries less the per-chunk sum of their similarities, summed over the chunks, and the sum of
    the kept different-label similarities. -/
def chunkK (r : Fin 8192) (j : Fin 16) : EReal :=
  (((cntOf fun c' : Fin 512 => posk X t r (col j c')) : ℕ) : EReal)
    - ∑ c' : Fin 512, (if posk X t r (col j c') then sim X r (col j c') else zero)
def rowK (r : Fin 8192) : Fin 4 → EReal :=
  ![(pcntN X t r : EReal), (ncntN X t r : EReal), ∑ j : Fin 16, chunkK X t r j,
    ∑ c, (if negk X t r c then sim X r c else zero)]

/-- The four scalars from a packed array of per-row columns, and the last row's two means, as the kernel's host
    lines compute them. -/
def lossK (P : Packed) : EReal :=
  Ideal.div (zero + ∑ r, if one ≤ P r 1 then Ideal.div (P r 2) (max (P r 0) one) + Ideal.div (P r 3) (max (P r 1) one) else zero) n8192
def precK (P : Packed) : EReal := Ideal.div ((cntOf (fun r => ¬ one ≤ P r 1) : ℕ) : EReal) n8192
def mposK : EReal :=
  Ideal.div (zero + ∑ c, if posm X t last c then sim X last c else zero)
    (max (zero + ∑ c, if posm X t last c then (1 : EReal) else 0) one)
def mnegK : EReal :=
  Ideal.div (zero + ∑ c, if ¬ same t last c then sim X last c else zero)
    (max (zero + ∑ c, if ¬ same t last c then (1 : EReal) else 0) one)

end

end Cert.Spec

end
-- ==== Proof.KI.Pass1Value.lean ====
/-
  The first pass of the kernel body, read index by index over the extended reals.

  At grid coordinate `i` the block's local row `r'` is row `512 i + r'` of the matrix. The tile of chunk `k` at
  `(r', c')` is the contraction over the 512 columns of row `512 i + r'` with row `512 k + c'` — a change of float
  format is the identity, and the matrix unit's product into a zero accumulator is the plain sum —, except on the
  diagonal, where the body puts the row's squared norm, which is that same sum. The running minimum and maximum
  over sixteen chunks are the minimum and maximum over the whole row: `min` and `max` are associative, commutative
  and idempotent, so neither the chunking nor the repeated initial value matters.
-/
import proofs.«422922_j45569603010928_3_alg».proof.Proof.Spec
import proofs.«422922_j45569603010928_3_alg».proof.Proof.KI.OutBlk
import Idealize.ShloMosaic.Lib.ValueIdx
import Idealize.ShloMosaic.Lib.Pipeline.Value
import Idealize.ShloMosaic.PureOps.Ideal.Laws

noncomputable section

open scoped Classical

namespace Cert.KernelIdeal.BlkValue

open Cert.KernelIdeal Cert.KernelIdeal.Gen Cert.KernelIdeal.Blk Idealize.ShloMosaic Idealize.ShloMosaic.ValueIdx

/-- The grid has sixteen points along its one axis. -/
theorem coord_lt (i : grid0.Coords) : (i 0).val < 16 := (i 0).isLt

/-- Local row `r'` of the block at grid coordinate `i`, as a row of the matrix. -/
def rowOf (i : grid0.Coords) (r' : Fin 512) : Fin 8192 :=
  ⟨512 * (i 0).val + r'.val, by have := coord_lt i; have := r'.isLt; omega⟩

/-- A trip of the first pass as a chunk number. -/
def chunkOf (k : Fin k0_t1_loop.trips) : Fin 16 := ⟨k.val, by have h := trips1; have := k.isLt; omega⟩

/-! ## Layout operations of the body's shapes, read at an index -/

section Layout
variable {α : Type}

/-- A column `[512, 1]` broadcast along the rows reads, at `(p, q)`, the column at `p`. -/
theorem colBcast_apply (v : S512x1.Idx → α) (h : S512x1.Broadcasts S512x512) (p q : Fin 512) :
    broadcastTo S512x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row `[1, 512]` broadcast along the columns reads, at `(p, q)`, the row at `q`. -/
theorem rowBcast_apply (v : S1x512.Idx → α) (h : S1x512.Broadcasts S512x512) (p q : Fin 512) :
    broadcastTo S512x512 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- A vector `[512]` cast to a column `[512, 1]` reads, at `(p, u)`, the vector at `p`. -/
theorem keepdims_apply (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

end Layout

/-! ## The lane reductions and the matrix product, read at an index -/

/-- The source index of a lane reduction over the columns: row `p`, column `q`. -/
theorem lift_row (h : S512x512.Reduces [1] S512) (p q : Fin 512) : h.lift (ix1 p) q = ix2 p q := by
  funext a
  match a with
  | ⟨0, _⟩ => exact Fin.ext rfl
  | ⟨1, _⟩ => exact Fin.ext rfl

/-- A number is below a row's lane minimum exactly when it is below the initial value and below every entry of the row. -/
theorem le_laneMin_iff (src : FVec Ideal S512x512 .f32) (acc : BitVec 32) (h : S512x512.Reduces [1] S512)
    (hφ : FKind.Formats .f32) (hacc : acc = FKind.minimumf.neutral .f32 hφ) (p : Fin 512) (a : EReal) :
    a ≤ multiReduction (F := Ideal) .minimumf [1] S512 src acc h hφ hacc (ix1 p)
      ↔ a ≤ Ideal.ofBits .f32 acc ∧ ∀ q : Fin 512, a ≤ src (ix2 p q) := by
  rw [multiReduction_minimumf_eq_fold, h.fold_filter_drop_single]
  refine (Finset.le_fold_min (b := Ideal.ofBits .f32 acc) a).trans (and_congr Iff.rfl ⟨fun H q => ?_, fun H q _ => ?_⟩)
  · exact le_of_le_of_eq (H q (Finset.mem_univ _)) (congrArg src (lift_row h p q))
  · exact le_of_le_of_eq (H q) (congrArg src (lift_row h p q)).symm

/-- A row's lane maximum is below a number exactly when the initial value and every entry of the row are. -/
theorem laneMax_le_iff (src : FVec Ideal S512x512 .f32) (acc : BitVec 32) (h : S512x512.Reduces [1] S512)
    (hφ : FKind.Formats .f32) (hacc : acc = FKind.maximumf.neutral .f32 hφ) (p : Fin 512) (a : EReal) :
    multiReduction (F := Ideal) .maximumf [1] S512 src acc h hφ hacc (ix1 p) ≤ a
      ↔ Ideal.ofBits .f32 acc ≤ a ∧ ∀ q : Fin 512, src (ix2 p q) ≤ a := by
  rw [multiReduction_maximumf_eq_fold, h.fold_filter_drop_single]
  refine (Finset.fold_max_le (b := Ideal.ofBits .f32 acc) a).trans (and_congr Iff.rfl ⟨fun H q => ?_, fun H q _ => ?_⟩)
  · exact le_of_eq_of_le (congrArg src (lift_row h p q)).symm (H q (Finset.mem_univ _))
  · exact le_of_eq_of_le (congrArg src (lift_row h p q)) (H q)

/-! ### The matrix product: rows against rows -/

theorem lhs_dot_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_dot_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_dot_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_dot_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The matrix unit's product into the zero accumulator, contracting the columns of both operands: at `(p, q)` the
    sum over the 512 columns of row `p` of the left operand times row `q` of the right one. -/
theorem matmul_rows_apply (lhs rhs : FVec Ideal S512x512 .bf16) (p q : Fin 512) :
    matmul (F := Ideal) dot_S512x512_S512x512_S512x512_1_1_0_0_n_n none lhs rhs (constant (F := Ideal) S512x512 .f32 0x00000000#32) (ix2 p q)
      = ∑ k : Fin 512, lhs (ix2 p k) * rhs (ix2 q k) := by
  refine (Ideal.matmul_constant_zero_apply dot_S512x512_S512x512_S512x512_1_1_0_0_n_n none lhs rhs (ix2 p q)).trans ?_
  rw [← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-! ### The diagonal mask: 32-bit words below 8192 do not wrap -/

theorem word_row (a p : ℕ) :
    IntOp.addi (Scalar.muli 512#32 (BitVec.ofNat 32 a)) (BitVec.ofNat 32 p) = BitVec.ofNat 32 (512 * a + p) := by
  show 512#32 * BitVec.ofNat 32 a + BitVec.ofNat 32 p = _
  rw [BitVec.ofNat_add, BitVec.ofNat_mul]

/-- The induction variable of trip `b` of a loop from 0 by steps of 1, as the body rescales it, is the word `b`. -/
theorem iv_word (b : ℕ) : Scalar.addi 0#32 (Scalar.muli (Scf.iv 0#32 1#32 b) 1#32) = BitVec.ofNat 32 b := by
  show 0#32 + (0#32 + BitVec.ofNat 32 b * 1#32) * 1#32 = _
  simp

theorem ofNat_inj_of_lt {x y : ℕ} (hx : x < 2 ^ 32) (hy : y < 2 ^ 32) : BitVec.ofNat 32 x = BitVec.ofNat 32 y ↔ x = y := by
  constructor
  · intro h
    have := congrArg BitVec.toNat h
    simp only [BitVec.toNat_ofNat] at this
    rwa [Nat.mod_eq_of_lt hx, Nat.mod_eq_of_lt hy] at this
  · rintro rfl; rfl

theorem cmpi_eq_one_iff (x y : BitVec 32) : IntOp.cmpi .eq x y = 1#1 ↔ x = y := by
  show BitVec.ofBool (x == y) = 1#1 ↔ _
  by_cases h : x = y
  · subst h; simp
  · have hb : (x == y) = false := beq_eq_false_iff_ne.mpr h
    rw [hb]; exact iff_of_false (by decide) h

/-- The body's diagonal mask at `(p, q)`, for the block of rows `a` and the chunk of columns `b`: set exactly when
    row `512 a + p` is column `512 b + q`. -/
theorem diagMask_apply (a b : ℕ) (ha : a < 16) (hb : b < 16) (h0 : S512x1.Iotas .tc 32 [0]) (h1 : S1x512.Iotas .tc 32 [1])
    (hb0 : S512x1.Broadcasts S512x512) (hb1 : S1x512.Broadcasts S512x512) (p q : Fin 512) :
    cmpi .eq (broadcastTo S512x512 (addi (broadcast S512x1 (Scalar.muli 512#32 (BitVec.ofNat 32 a))) (iota .tc S512x1 32 [0] h0)) hb0)
        (broadcastTo S512x512 (addi (broadcast S1x512 (Scalar.muli 512#32 (Scalar.addi 0#32 (Scalar.muli (Scf.iv 0#32 1#32 b) 1#32))))
          (iota .tc S1x512 32 [1] h1)) hb1) (ix2 p q) = 1#1
      ↔ 512 * a + p.val = 512 * b + q.val := by
  have e1 : broadcastTo S512x512 (addi (broadcast S512x1 (Scalar.muli 512#32 (BitVec.ofNat 32 a))) (iota .tc S512x1 32 [0] h0)) hb0 (ix2 p q)
      = BitVec.ofNat 32 (512 * a + p.val) :=
    (colBcast_apply _ hb0 p q).trans
      ((congrArg (IntOp.addi (Scalar.muli 512#32 (BitVec.ofNat 32 a))) (iota_single_apply .tc S512x1 32 0 h0 (ix2 p (0 : Fin 1)))).trans
        (word_row a p.val))
  have e2 : broadcastTo S512x512 (addi (broadcast S1x512 (Scalar.muli 512#32 (Scalar.addi 0#32 (Scalar.muli (Scf.iv 0#32 1#32 b) 1#32))))
        (iota .tc S1x512 32 [1] h1)) hb1 (ix2 p q) = BitVec.ofNat 32 (512 * b + q.val) :=
    (rowBcast_apply _ hb1 p q).trans
      ((congrArg (IntOp.addi (Scalar.muli 512#32 (Scalar.addi 0#32 (Scalar.muli (Scf.iv 0#32 1#32 b) 1#32))))
          (iota_single_apply .tc S1x512 32 1 h1 (ix2 (0 : Fin 1) q))).trans
        ((congrArg (fun w => IntOp.addi (Scalar.muli 512#32 w) (BitVec.ofNat 32 q.val)) (iv_word b)).trans (word_row b q.val)))
  refine (iff_of_eq (congrArg (· = 1#1) (congrArg₂ (IntOp.cmpi .eq) e1 e2))).trans ?_
  refine (cmpi_eq_one_iff _ _).trans ?_
  have := p.isLt; have := q.isLt
  exact ofNat_inj_of_lt (by omega) (by omega)

/-! ## The body's loads, read at an index -/

theorem rBlock_idx (p q : Fin 512) : rBlock.idx (ix2 p q) = ix2 p q := by
  funext a
  refine Fin.ext ?_
  match a with
  | ⟨0, _⟩ => show 0 + 1 * p.val = p.val; omega
  | ⟨1, _⟩ => show 0 + 1 * q.val = q.val; omega

theorem rCol_idx (p : Fin 512) (u : Fin 1) : rCol.idx (ix2 p u) = ix2 p u := by
  funext a
  refine Fin.ext ?_
  match a with
  | ⟨0, _⟩ => show 0 + 1 * p.val = p.val; omega
  | ⟨1, _⟩ => show 0 + 1 * u.val = u.val; omega

/-- Row `q` of the chunk of rows a trip loads is row `512 k + q` of the matrix. -/
theorem cols_idx (k : Fin k0_t1_loop.trips) (q j : Fin 512) :
    (Rect.unit (s := S8192x512) (k0_off1 k) S512x512.size (k0_off1_inb k)).idx (ix2 q j) = ix2 (Cert.Spec.col (chunkOf k) q) j := by
  funext a
  refine Fin.ext ?_
  match a with
  | ⟨0, _⟩ =>
    show k0_off1 k 0 + 1 * q.val = 512 * k.val + q.val
    rw [k0_off1_eq k]; show 512 * k.val + 1 * q.val = _; omega
  | ⟨1, _⟩ =>
    show k0_off1 k 1 + 1 * j.val = j.val
    rw [k0_off1_eq k]; show 0 + 1 * j.val = _; omega

/-- Label `q` of the chunk of labels a trip loads is label `512 k + q`. -/
theorem colTg_idx (k : Fin k0_t1_loop.trips) (u : Fin 1) (q : Fin 512) :
    (Rect.unit (s := S1x8192) (k0_off2 k) S1x512.size (k0_off2_inb k)).idx (ix2 u q) = ix2 (0 : Fin 1) (Cert.Spec.col (chunkOf k) q) := by
  funext a
  refine Fin.ext ?_
  match a with
  | ⟨0, _⟩ =>
    show k0_off2 k 0 + 1 * u.val = 0
    rw [k0_off2_eq k]; show 0 + 1 * u.val = _; omega
  | ⟨1, _⟩ =>
    show k0_off2 k 1 + 1 * q.val = 512 * k.val + q.val
    rw [k0_off2_eq k]; show 512 * k.val + 1 * q.val = _; omega

/-! ## The tile of one chunk -/

/-- The body's tile at `(p, q)` over any operands: the squared norm on the diagonal, the contraction elsewhere. -/
theorem tile_apply (a : ℕ) (ha : a < 16) (v1 : FVec Ideal S512x512 .bf16) (v5 : FVec Ideal S512x1 .f32)
    (k : Fin k0_t1_loop.trips) (v45 : Vec Ideal S512x512 .bf16) (p q : Fin 512) :
    k0_pay6 (F := Ideal) (BitVec.ofNat 32 a) v1 v5 0#32 1#32 k v45 (ix2 p q)
      = if 512 * a + p.val = 512 * k.val + q.val then v5 (ix2 p (0 : Fin 1)) else ∑ j : Fin 512, v1 (ix2 p j) * v45 (ix2 q j) := by
  have hk : k.val < 16 := (chunkOf k).isLt
  unfold k0_pay6
  show Scalar.select (cmpi .eq _ _ (ix2 p q)) (broadcastTo S512x512 _ _ (ix2 p q)) (matmul _ none _ _ _ (ix2 p q)) = _
  refine if_congr (diagMask_apply a k.val ha hk _ _ _ _ p q) ?_ ?_
  · refine (colBcast_apply _ _ p q).trans ?_
    exact congrFun (shapeCast_self v5 _) _
  · refine (congrArg (fun w => matmul (F := Ideal) dot_S512x512_S512x512_S512x512_1_1_0_0_n_n none v1 w
      (constant (F := Ideal) S512x512 .f32 0x00000000#32) (ix2 p q)) (shapeCast_self v45 _)).trans ?_
    exact matmul_rows_apply v1 v45 p q

/-- What the body reads once, at an index: the blocks themselves. -/
theorem rowsBf_apply (x1 : Vec Ideal S512x512 .bf16) (p q : Fin 512) : rowsBf (F := Ideal) x1 (ix2 p q) = x1 (ix2 p q) := by
  unfold rowsBf k0_pay17
  exact (congrFun (shapeCast_self _ _) (ix2 p q)).trans (congrArg x1 (rBlock_idx p q))
theorem rowNorm_apply (x5 : Vec Ideal S512x1 .f32) (p : Fin 512) (u : Fin 1) : rowNorm (F := Ideal) x5 (ix2 p u) = x5 (ix2 p u) := by
  unfold rowNorm k0_pay19
  exact (congrFun (shapeCast_self _ _) (ix2 p u)).trans (congrArg x5 (rCol_idx p u))
theorem rowTg_read (x3 : Vec Ideal S512x1 .i32) (p : Fin 512) (u : Fin 1) : rowTg (F := Ideal) x3 (ix2 p u) = x3 (ix2 p u) := by
  unfold rowTg k0_pay18
  exact (congrFun (shapeCast_self _ _) (ix2 p u)).trans (congrArg x3 (rCol_idx p u))

/-! ## One-bit conditions -/

theorem andi_eq_one_iff (x y : BitVec 1) : IntOp.andi x y = 1#1 ↔ x = 1#1 ∧ y = 1#1 := by
  rcases BitVec.eq_zero_or_eq_one x with h | h <;> rcases BitVec.eq_zero_or_eq_one y with h' | h' <;>
    subst h <;> subst h' <;> decide

theorem cmpf_olt_eq_one_iff (x y : Ideal .f32) : FloatOps.cmpf (F := Ideal) (φ := .f32) .olt x y = 1#1 ↔ x < y := by
  show BitVec.ofBool (decide (x < y)) = 1#1 ↔ _
  by_cases h : x < y
  · simp [h]
  · simp [h]

/-- The body's same-label mask at `(p, q)`: set exactly when the row's label is the column's. -/
theorem same_apply (v3 : IVec S512x1 32) (v48 : Vec Ideal S1x512 .i32) (p q : Fin 512) :
    k0_pay7 (F := Ideal) v3 v48 (ix2 p q) = 1#1 ↔ v3 (ix2 p (0 : Fin 1)) = v48 (ix2 (0 : Fin 1) q) := by
  unfold k0_pay7
  show IntOp.cmpi .eq (broadcastTo S512x512 v3 _ (ix2 p q)) (broadcastTo S512x512 (shapeCast S1x512 v48 _) _ (ix2 p q)) = 1#1 ↔ _
  refine (cmpi_eq_one_iff _ _).trans ?_
  exact iff_of_eq (congrArg₂ (· = ·) (colBcast_apply v3 _ p q)
    ((rowBcast_apply _ _ p q).trans (congrFun (shapeCast_self v48 _) _)))

/-! ## One trip's fold into the running minimum and maximum -/

/-- A number is below the running minimum after a trip exactly when it was below it before, is below the infinity,
    and is below every same-label entry below one of the trip's tile. -/
theorem pay9_le_iff (arg0 : BitVec 32) (v1 : FVec Ideal S512x512 .bf16) (v3 : IVec S512x1 32) (v5 : FVec Ideal S512x1 .f32)
    (k : Fin k0_t1_loop.trips) (v45 : Vec Ideal S512x512 .bf16) (v48 : Vec Ideal S1x512 .i32) (v75 : Vec Ideal S512x1 .f32)
    (p : Fin 512) (c : EReal) :
    c ≤ k0_pay9 (F := Ideal) arg0 v1 v3 v5 0#32 1#32 k v45 v48 v75 (ix2 p (0 : Fin 1))
      ↔ c ≤ v75 (ix2 p (0 : Fin 1)) ∧ c ≤ Cert.Spec.pinf ∧ ∀ q : Fin 512,
          c ≤ (if v3 (ix2 p (0 : Fin 1)) = v48 (ix2 (0 : Fin 1) q)
                  ∧ k0_pay6 (F := Ideal) arg0 v1 v5 0#32 1#32 k v45 (ix2 p q) < Cert.Spec.one
                then k0_pay6 (F := Ideal) arg0 v1 v5 0#32 1#32 k v45 (ix2 p q) else Cert.Spec.pinf) := by
  unfold k0_pay9
  refine (iff_of_eq (congrArg (c ≤ ·) ((congrFun (shapeCast_self _ _) _).trans
    (congrArg (min (v75 (ix2 p (0 : Fin 1)))) (keepdims_apply _ _ p (0 : Fin 1)))))).trans ?_
  refine le_min_iff.trans (and_congr Iff.rfl ?_)
  refine (le_laneMin_iff _ _ _ _ _ p c).trans (and_congr Iff.rfl (forall_congr' fun q => ?_))
  refine iff_of_eq (congrArg (c ≤ ·) ?_)
  show Scalar.select (IntOp.andi (k0_pay7 (F := Ideal) v3 v48 (ix2 p q))
      (FloatOps.cmpf (F := Ideal) (φ := .f32) .olt (k0_pay6 (F := Ideal) arg0 v1 v5 0#32 1#32 k v45 (ix2 p q)) Cert.Spec.one))
      (k0_pay6 (F := Ideal) arg0 v1 v5 0#32 1#32 k v45 (ix2 p q)) Cert.Spec.pinf = _
  exact if_congr ((andi_eq_one_iff _ _).trans (and_congr (same_apply v3 v48 p q) (cmpf_olt_eq_one_iff _ _))) rfl rfl

/-- The running maximum after a trip is below a number exactly when it was before, minus infinity is, and every
    different-label entry of the trip's tile is. -/
theorem pay22_le_iff (arg0 : BitVec 32) (v1 : FVec Ideal S512x512 .bf16) (v3 : IVec S512x1 32) (v5 : FVec Ideal S512x1 .f32)
    (k : Fin k0_t1_loop.trips) (v45 : Vec Ideal S512x512 .bf16) (v48 : Vec Ideal S1x512 .i32) (v82 : Vec Ideal S512x1 .f32)
    (p : Fin 512) (c : EReal) :
    k0_pay22 (F := Ideal) (k0_pay8 (F := Ideal) arg0 v1 v3 v5 0#32 1#32 k v45 v48) v82 (ix2 p (0 : Fin 1)) ≤ c
      ↔ v82 (ix2 p (0 : Fin 1)) ≤ c ∧ Cert.Spec.ninf ≤ c ∧ ∀ q : Fin 512,
          (if v3 (ix2 p (0 : Fin 1)) = v48 (ix2 (0 : Fin 1) q) then Cert.Spec.ninf
            else k0_pay6 (F := Ideal) arg0 v1 v5 0#32 1#32 k v45 (ix2 p q)) ≤ c := by
  unfold k0_pay22
  refine (iff_of_eq (congrArg (· ≤ c) ((congrFun (shapeCast_self _ _) _).trans
    (congrArg (max (v82 (ix2 p (0 : Fin 1)))) (keepdims_apply _ _ p (0 : Fin 1)))))).trans ?_
  refine max_le_iff.trans (and_congr Iff.rfl ?_)
  refine (laneMax_le_iff _ _ _ _ _ p c).trans (and_congr Iff.rfl (forall_congr' fun q => ?_))
  refine iff_of_eq (congrArg (· ≤ c) ?_)
  unfold k0_pay8
  show Scalar.select (k0_pay7 (F := Ideal) v3 v48 (ix2 p q)) Cert.Spec.ninf
      (k0_pay6 (F := Ideal) arg0 v1 v5 0#32 1#32 k v45 (ix2 p q)) = _
  exact if_congr (same_apply v3 v48 p q) rfl rfl

section
variable (i : grid0.Coords) (X : Cert.Spec.Mat) (t : Cert.Spec.Lab)
  (x1 : Vec Ideal S512x512 .bf16) (x2 : Vec Ideal S8192x512 .bf16) (x3 : Vec Ideal S512x1 .i32)
  (x4 : Vec Ideal S1x8192 .i32) (x5 : Vec Ideal S512x1 .f32)
  (h1 : ∀ r' k : Fin 512, x1 (ix2 r' k) = X (rowOf i r') k)
  (h2 : ∀ (r : Fin 8192) (k : Fin 512), x2 (ix2 r k) = X r k)
  (h3 : ∀ r' : Fin 512, x3 (ix2 r' 0) = t (rowOf i r'))
  (h4 : ∀ c : Fin 8192, x4 (ix2 0 c) = t c)
  (h5 : ∀ r' : Fin 512, x5 (ix2 r' 0) = Cert.Spec.zero + ∑ k : Fin 512, X (rowOf i r') k * X (rowOf i r') k)

include h1 h2 h5 in
/-- The body's tile of chunk `k` before it is stored: on the diagonal the squared norm is the row's similarity with
    itself, elsewhere the contraction is the similarity. -/
theorem pay6_apply (k : Fin k0_t1_loop.trips) (r' c' : Fin 512) :
    k0_pay6 (F := Ideal) (gridWord i) (rowsBf (F := Ideal) x1) (rowNorm (F := Ideal) x5) 0#32 1#32 k (colsBf (F := Ideal) x2 k) (ix2 r' c')
      = Cert.Spec.sim X (rowOf i r') (Cert.Spec.col (chunkOf k) c') := by
  refine (tile_apply (i 0).val (coord_lt i) (rowsBf (F := Ideal) x1) (rowNorm (F := Ideal) x5) k (colsBf (F := Ideal) x2 k) r' c').trans ?_
  have e1 : ∀ j : Fin 512, rowsBf (F := Ideal) x1 (ix2 r' j) = X (rowOf i r') j := fun j =>
    (rowsBf_apply x1 r' j).trans (h1 r' j)
  have e2 : ∀ j : Fin 512, colsBf (F := Ideal) x2 k (ix2 c' j) = X (Cert.Spec.col (chunkOf k) c') j := fun j =>
    (congrArg x2 (cols_idx k c' j)).trans (h2 _ j)
  have e5 : rowNorm (F := Ideal) x5 (ix2 r' (0 : Fin 1)) = Cert.Spec.sim X (rowOf i r') (rowOf i r') :=
    (rowNorm_apply x5 r' 0).trans ((h5 r').trans (by
      unfold Cert.Spec.zero Cert.Spec.sim; rw [Ideal.ofBits_zero_f32, zero_add]))
  by_cases hd : 512 * (i 0).val + r'.val = 512 * k.val + c'.val
  · rw [if_pos hd, e5]
    have : rowOf i r' = Cert.Spec.col (chunkOf k) c' := Fin.ext hd
    rw [← this]
  · rw [if_neg hd]
    unfold Cert.Spec.sim
    exact Finset.sum_congr rfl fun j _ => by rw [e1 j, e2 j]

include h1 h2 h5 in
/-- The tile of chunk `k`: the similarities of the block's rows with the chunk's rows. -/
theorem simTile_apply (k : Fin k0_t1_loop.trips) (r' c' : Fin 512) :
    simTile (F := Ideal) i x1 x2 x5 k (ix2 r' c') = Cert.Spec.sim X (rowOf i r') (Cert.Spec.col (chunkOf k) c') := by
  unfold simTile k0_pay23
  exact (congrFun (shapeCast_self _ _) (ix2 r' c')).trans (pay6_apply i X x1 x2 x5 h1 h2 h5 k r' c')

include h3 in
theorem rowTg_apply (r' : Fin 512) : rowTg (F := Ideal) x3 (ix2 r' (0 : Fin 1)) = t (rowOf i r') :=
  (rowTg_read x3 r' 0).trans (h3 r')

include h4 in
theorem colTg1_apply (k : Fin k0_t1_loop.trips) (q : Fin 512) :
    colTg1 (F := Ideal) x4 k (ix2 (0 : Fin 1) q) = t (Cert.Spec.col (chunkOf k) q) :=
  (congrArg x4 (colTg_idx k 0 q)).trans (h4 _)

/-- Every column below `512 (n + 1)` and not below `512 n` is a column of chunk `n`. -/
theorem col_of_ge (n : ℕ) (hn : n < 16) (c : Fin 8192) (h0 : ¬ c.val < 512 * n) (h1' : c.val < 512 * (n + 1)) :
    c = Cert.Spec.col ⟨n, hn⟩ ⟨c.val - 512 * n, by omega⟩ :=
  Fin.ext (by show c.val = 512 * n + (c.val - 512 * n); omega)

include h1 h2 h3 h4 h5 in
/-- After `n` chunks a number is below the running minimum exactly when it is below the infinity and below the
    selection at every column of those chunks. -/
theorem le_minpAt_iff (n : ℕ) (hn : n ≤ 16) (r' : Fin 512) (a : EReal) :
    a ≤ minpAt (F := Ideal) i x1 x2 x3 x4 x5 n (ix2 r' (0 : Fin 1))
      ↔ a ≤ Cert.Spec.pinf ∧ ∀ c : Fin 8192, c.val < 512 * n →
          a ≤ (if Cert.Spec.posm X t (rowOf i r') c then Cert.Spec.sim X (rowOf i r') c else Cert.Spec.pinf) := by
  induction n with
  | zero =>
    have e0 : minpAt (F := Ideal) i x1 x2 x3 x4 x5 0 (ix2 r' (0 : Fin 1)) = Cert.Spec.pinf := by
      show k0_pay20 (F := Ideal) (ix2 r' (0 : Fin 1)) = _
      unfold k0_pay20
      exact congrFun (shapeCast_self _ _) (ix2 r' (0 : Fin 1))
    rw [e0]
    exact ⟨fun h => ⟨h, fun c hc => absurd hc (by omega)⟩, fun h => h.1⟩
  | succ n ih =>
    have hlt : n < k0_t1_loop.trips := by rw [trips1]; omega
    have hn16 : n < 16 := by omega
    have step : minpAt (F := Ideal) i x1 x2 x3 x4 x5 (n + 1)
        = k0_pay9 (F := Ideal) (gridWord i) (rowsBf (F := Ideal) x1) (rowTg (F := Ideal) x3) (rowNorm (F := Ideal) x5) 0#32 1#32 ⟨n, hlt⟩
            (colsBf (F := Ideal) x2 ⟨n, hlt⟩) (colTg1 (F := Ideal) x4 ⟨n, hlt⟩) (minpAt (F := Ideal) i x1 x2 x3 x4 x5 n) := by
      rw [minpAt, dif_pos hlt]
    rw [step]
    refine (pay9_le_iff _ _ _ _ _ _ _ _ r' a).trans ?_
    rw [ih (by omega)]
    have hq : ∀ q : Fin 512,
        (if rowTg (F := Ideal) x3 (ix2 r' (0 : Fin 1)) = colTg1 (F := Ideal) x4 ⟨n, hlt⟩ (ix2 (0 : Fin 1) q)
            ∧ k0_pay6 (F := Ideal) (gridWord i) (rowsBf (F := Ideal) x1) (rowNorm (F := Ideal) x5) 0#32 1#32 ⟨n, hlt⟩ (colsBf (F := Ideal) x2 ⟨n, hlt⟩) (ix2 r' q) < Cert.Spec.one
          then k0_pay6 (F := Ideal) (gridWord i) (rowsBf (F := Ideal) x1) (rowNorm (F := Ideal) x5) 0#32 1#32 ⟨n, hlt⟩ (colsBf (F := Ideal) x2 ⟨n, hlt⟩) (ix2 r' q)
          else Cert.Spec.pinf)
        = (if Cert.Spec.posm X t (rowOf i r') (Cert.Spec.col ⟨n, hn16⟩ q)
            then Cert.Spec.sim X (rowOf i r') (Cert.Spec.col ⟨n, hn16⟩ q) else Cert.Spec.pinf) := fun q => by
      have es := pay6_apply i X x1 x2 x5 h1 h2 h5 ⟨n, hlt⟩ r' q
      have er := rowTg_apply i t x3 h3 r'
      have ec := colTg1_apply t x4 h4 ⟨n, hlt⟩ q
      rw [es, er, ec]
      exact if_congr Iff.rfl rfl rfl
    constructor
    · rintro ⟨⟨h0, hA⟩, _, hB⟩
      refine ⟨h0, fun c hc => ?_⟩
      by_cases hcn : c.val < 512 * n
      · exact hA c hcn
      · rw [col_of_ge n hn16 c hcn hc, ← hq]; exact hB _
    · rintro ⟨h0, hA⟩
      refine ⟨⟨h0, fun c hc => hA c (by omega)⟩, h0, fun q => ?_⟩
      rw [hq]
      exact hA _ (by show 512 * n + q.val < 512 * (n + 1); have := q.isLt; omega)

include h1 h2 h3 h4 h5 in
/-- The row's positive threshold after all sixteen chunks. -/
theorem minp_apply (r' : Fin 512) :
    minp (F := Ideal) i x1 x2 x3 x4 x5 (ix2 r' 0) = Cert.Spec.minpos X t (rowOf i r') := by
  unfold minp
  refine eq_of_forall_le_iff fun a => ?_
  refine (le_minpAt_iff i X t x1 x2 x3 x4 x5 h1 h2 h3 h4 h5 16 le_rfl r' a).trans ?_
  unfold Cert.Spec.minpos
  rw [Finset.le_fold_min]
  exact and_congr Iff.rfl ⟨fun H c _ => H c c.isLt, fun H c _ => H c (Finset.mem_univ _)⟩

include h1 h2 h3 h4 h5 in
/-- After `n` chunks the running maximum is below a number exactly when minus infinity is and the selection at every
    column of those chunks is. -/
theorem maxnAt_le_iff (n : ℕ) (hn : n ≤ 16) (r' : Fin 512) (a : EReal) :
    maxnAt (F := Ideal) i x1 x2 x3 x4 x5 n (ix2 r' (0 : Fin 1)) ≤ a
      ↔ Cert.Spec.ninf ≤ a ∧ ∀ c : Fin 8192, c.val < 512 * n →
          (if Cert.Spec.same t (rowOf i r') c then Cert.Spec.ninf else Cert.Spec.sim X (rowOf i r') c) ≤ a := by
  induction n with
  | zero =>
    have e0 : maxnAt (F := Ideal) i x1 x2 x3 x4 x5 0 (ix2 r' (0 : Fin 1)) = Cert.Spec.ninf := by
      show k0_pay21 (F := Ideal) (ix2 r' (0 : Fin 1)) = _
      unfold k0_pay21
      exact congrFun (shapeCast_self _ _) (ix2 r' (0 : Fin 1))
    rw [e0]
    exact ⟨fun h => ⟨h, fun c hc => absurd hc (by omega)⟩, fun h => h.1⟩
  | succ n ih =>
    have hlt : n < k0_t1_loop.trips := by rw [trips1]; omega
    have hn16 : n < 16 := by omega
    have step : maxnAt (F := Ideal) i x1 x2 x3 x4 x5 (n + 1)
        = k0_pay22 (F := Ideal) (k0_pay8 (F := Ideal) (gridWord i) (rowsBf (F := Ideal) x1) (rowTg (F := Ideal) x3) (rowNorm (F := Ideal) x5) 0#32 1#32 ⟨n, hlt⟩
            (colsBf (F := Ideal) x2 ⟨n, hlt⟩) (colTg1 (F := Ideal) x4 ⟨n, hlt⟩)) (maxnAt (F := Ideal) i x1 x2 x3 x4 x5 n) := by
      rw [maxnAt, dif_pos hlt]
    rw [step]
    refine (pay22_le_iff _ _ _ _ _ _ _ _ r' a).trans ?_
    rw [ih (by omega)]
    have hq : ∀ q : Fin 512,
        (if rowTg (F := Ideal) x3 (ix2 r' (0 : Fin 1)) = colTg1 (F := Ideal) x4 ⟨n, hlt⟩ (ix2 (0 : Fin 1) q)
          then Cert.Spec.ninf
          else k0_pay6 (F := Ideal) (gridWord i) (rowsBf (F := Ideal) x1) (rowNorm (F := Ideal) x5) 0#32 1#32 ⟨n, hlt⟩ (colsBf (F := Ideal) x2 ⟨n, hlt⟩) (ix2 r' q))
        = (if Cert.Spec.same t (rowOf i r') (Cert.Spec.col ⟨n, hn16⟩ q)
            then Cert.Spec.ninf else Cert.Spec.sim X (rowOf i r') (Cert.Spec.col ⟨n, hn16⟩ q)) := fun q => by
      have es := pay6_apply i X x1 x2 x5 h1 h2 h5 ⟨n, hlt⟩ r' q
      have er := rowTg_apply i t x3 h3 r'
      have ec := colTg1_apply t x4 h4 ⟨n, hlt⟩ q
      rw [es, er, ec]
      exact if_congr Iff.rfl rfl rfl
    constructor
    · rintro ⟨⟨h0, hA⟩, _, hB⟩
      refine ⟨h0, fun c hc => ?_⟩
      by_cases hcn : c.val < 512 * n
      · exact hA c hcn
      · rw [col_of_ge n hn16 c hcn hc, ← hq]; exact hB _
    · rintro ⟨h0, hA⟩
      refine ⟨⟨h0, fun c hc => hA c (by omega)⟩, h0, fun q => ?_⟩
      rw [hq]
      exact hA _ (by show 512 * n + q.val < 512 * (n + 1); have := q.isLt; omega)

include h1 h2 h3 h4 h5 in
/-- The row's negative threshold after all sixteen chunks. -/
theorem maxn_apply (r' : Fin 512) :
    maxn (F := Ideal) i x1 x2 x3 x4 x5 (ix2 r' 0) = Cert.Spec.maxneg X t (rowOf i r') := by
  unfold maxn
  refine eq_of_forall_ge_iff fun a => ?_
  refine (maxnAt_le_iff i X t x1 x2 x3 x4 x5 h1 h2 h3 h4 h5 16 le_rfl r' a).trans ?_
  unfold Cert.Spec.maxneg
  rw [Finset.fold_max_le]
  exact and_congr Iff.rfl ⟨fun H c _ => H c c.isLt, fun H c _ => H c (Finset.mem_univ _)⟩

end

end Cert.KernelIdeal.BlkValue

end
-- ==== Proof.KI.BlockValue.lean ====
/-
  The kernel body's output block, read index by index over the extended reals: local row `r'` of the block at grid
  coordinate `i` holds the four columns of row `512 i + r'` in the kernel's shape.

  With the tile of each chunk and the two row thresholds known (the first pass), the second pass adds per chunk: the
  number of kept positive entries of the chunk, as a sum of ones and zeros converted from one-bit words; the number
  of kept different-label entries; the first of these less the chunk's sum of kept positive similarities; and the
  chunk's sum of kept different-label similarities. Sums of extended reals may be regrouped freely (addition is
  commutative and associative there), so the sixteen per-chunk sums of the second and fourth accumulators are the
  sums over the row; the third stays in its per-chunk form. The word for zero denotes zero.
-/
import proofs.«422922_j45569603010928_3_alg».proof.Proof.KI.Pass1Value
import Idealize.ShloMosaic.Lib.ValueLayout

noncomputable section

open scoped Classical

namespace Cert.KernelIdeal.BlkValue

open Cert.KernelIdeal Cert.KernelIdeal.Gen Cert.KernelIdeal.Blk Idealize.ShloMosaic Idealize.ShloMosaic.ValueIdx

namespace Pass2

/-! ## One-bit words -/

/-- A conjunction of two one-bit words is set exactly when both are. -/
theorem bit_and_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- The exclusive or with the set bit is the negation. -/
theorem bit_not_eq_one (a : BitVec 1) : IntOp.xori a 1#1 = 1#1 ↔ ¬ a = 1#1 := by
  rcases BitVec.eq_zero_or_eq_one a with rfl | rfl <;> decide

/-- A truth value as a one-bit word is set exactly when it is true. -/
theorem ofBool_eq_one (b : Bool) : BitVec.ofBool b = 1#1 ↔ b = true := by cases b <;> decide

/-- The equality test of two words is set exactly when they are equal. -/
theorem cmpi_eq_one (x y : BitVec 32) : IntOp.cmpi .eq x y = 1#1 ↔ x = y := by
  unfold IntOp.cmpi
  rw [ofBool_eq_one]
  exact beq_iff_eq

/-- The "less than" test of two extended reals is set exactly when the first is below the second. -/
theorem cmp_olt_one (x y : EReal) : Ideal.cmp .olt x y = 1#1 ↔ x < y := by
  unfold Ideal.cmp
  rw [ofBool_eq_one]
  exact decide_eq_true_iff

/-- The "greater than" test is set exactly when the second is below the first. -/
theorem cmp_ogt_one (x y : EReal) : Ideal.cmp .ogt x y = 1#1 ↔ y < x := by
  unfold Ideal.cmp
  rw [ofBool_eq_one]
  exact decide_eq_true_iff

/-- A set bit widened to a word and read as a signed integer is one; a cleared bit, zero. -/
theorem sitofp_extui_bit (b : BitVec 1) :
    (FloatOps.sitofp (F := Ideal) .f32 (b.setWidth 32) : EReal) = if b = 1#1 then 1 else 0 := by
  rcases BitVec.eq_zero_or_eq_one b with rfl | rfl
  · show (((0#1 : BitVec 1).setWidth 32).toInt : ℝ) = (if (0#1 : BitVec 1) = 1#1 then (1 : EReal) else 0)
    rw [if_neg (by decide), show ((0#1 : BitVec 1).setWidth 32).toInt = 0 by decide]
    simp
  · show (((1#1 : BitVec 1).setWidth 32).toInt : ℝ) = (if (1#1 : BitVec 1) = 1#1 then (1 : EReal) else 0)
    rw [if_pos rfl, show ((1#1 : BitVec 1).setWidth 32).toInt = 1 by decide]
    simp

/-! ## Layout operations of a column -/

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a 512 by 512 tile, read at row `p`: the sum over the row's entries. -/
theorem laneSum_apply (v : FVec Ideal S512x512 .f32) (h : S512x512.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ q : Fin 512, v (ix2 p q) := by
  refine (Ideal.multiReduction_add_single v _ h hφ hacc (ix1 p)).trans ?_
  show ∑ q : Fin 512, v (h.lift (ix1 p) q) = _
  refine Finset.sum_congr rfl fun q _ => congrArg v ?_
  funext a
  match a with
  | ⟨0, _⟩ => rfl
  | ⟨1, _⟩ => rfl

/-! ## The second pass's pure terms read at an index, over any operands -/

section Payloads
variable (v3 : IVec S512x1 32) (v45 : Vec Ideal S1x512 .i32) (v48 : Vec Ideal S512x512 .f32)
  (v52 v53 : Vec Ideal S512x1 .f32)

/-- The label test at `(p, q)`: the row's label against the chunk's label at lane `q`. -/
theorem pay10_iff (p q : Fin 512) :
    k0_pay10 (F := Ideal) v3 v45 (ix2 p q) = 1#1 ↔ v3 (ix2 p (0 : Fin 1)) = v45 (ix2 (0 : Fin 1) q) := by
  unfold k0_pay10
  show IntOp.cmpi .eq (broadcastTo S512x512 v3 broadcasts_S512x1_S512x512 (ix2 p q))
    (broadcastTo S512x512 (shapeCast S1x512 v45 shapeCasts_S1x512_S1x512) broadcasts_S1x512_S512x512 (ix2 p q)) = 1#1 ↔ _
  rw [cmpi_eq_one, broadcastTo_a1_ab_apply, broadcastTo_1b_ab_apply, shapeCast_self]

/-- The kept-positive mask at `(p, q)`: same label, similarity below one, and below the row's second threshold plus
    a tenth. -/
theorem pay12_iff (p q : Fin 512) :
    k0_pay12 (F := Ideal) v3 v45 v48 v53 (ix2 p q) = 1#1 ↔
      (v3 (ix2 p (0 : Fin 1)) = v45 (ix2 (0 : Fin 1) q) ∧ (v48 (ix2 p q) : EReal) < Cert.Spec.one)
        ∧ (v48 (ix2 p q) : EReal) < v53 (ix2 p (0 : Fin 1)) + Cert.Spec.tenth := by
  unfold k0_pay12
  show IntOp.andi (IntOp.andi (k0_pay10 (F := Ideal) v3 v45 (ix2 p q))
        (Ideal.cmp .olt (v48 (ix2 p q)) (Ideal.ofBits .f32 0x3F800000#32)))
      (Ideal.cmp .olt (v48 (ix2 p q))
        (broadcastTo S512x512 (addf (F := Ideal) (φ := .f32) v53 (broadcast S512x1 (Ideal.ofBits .f32 0x3DCCCCCD#32)))
          broadcasts_S512x1_S512x512 (ix2 p q))) = 1#1 ↔ _
  rw [bit_and_eq_one, bit_and_eq_one, pay10_iff, cmp_olt_one, cmp_olt_one, broadcastTo_a1_ab_apply]
  exact Iff.rfl

/-- The kept-negative mask at `(p, q)`: another label, and similarity above the row's first threshold less a tenth. -/
theorem pay11_iff (p q : Fin 512) :
    k0_pay11 (F := Ideal) v3 v45 v48 v52 (ix2 p q) = 1#1 ↔
      ¬ v3 (ix2 p (0 : Fin 1)) = v45 (ix2 (0 : Fin 1) q)
        ∧ (v52 (ix2 p (0 : Fin 1)) : EReal) - Cert.Spec.tenth < v48 (ix2 p q) := by
  unfold k0_pay11
  show IntOp.andi (IntOp.xori (k0_pay10 (F := Ideal) v3 v45 (ix2 p q)) 1#1)
      (Ideal.cmp .ogt (v48 (ix2 p q))
        (broadcastTo S512x512 (subf (F := Ideal) (φ := .f32) v52 (broadcast S512x1 (Ideal.ofBits .f32 0x3DCCCCCD#32)))
          broadcasts_S512x1_S512x512 (ix2 p q))) = 1#1 ↔ _
  rw [bit_and_eq_one, bit_not_eq_one, pay10_iff, cmp_ogt_one, broadcastTo_a1_ab_apply]
  exact Iff.rfl

/-- The chunk's count of kept positive entries in row `p`: a sum of ones and zeros. -/
theorem pay13_apply (p : Fin 512) (u : Fin 1) :
    k0_pay13 (F := Ideal) v3 v45 v48 v53 (ix2 p u)
      = ∑ q : Fin 512, (if k0_pay12 (F := Ideal) v3 v45 v48 v53 (ix2 p q) = 1#1 then (1 : EReal) else 0) := by
  unfold k0_pay13
  refine (shapeCast_a_a1_apply _ shapeCasts_S512_S512x1 p u).trans ?_
  refine (laneSum_apply _ _ _ _ p).trans ?_
  refine Finset.sum_congr rfl fun q _ => ?_
  exact sitofp_extui_bit _

/-- The chunk's count of kept different-label entries in row `p`. -/
theorem pay14_apply (p : Fin 512) (u : Fin 1) :
    k0_pay14 (F := Ideal) v3 v45 v48 v52 (ix2 p u)
      = ∑ q : Fin 512, (if k0_pay11 (F := Ideal) v3 v45 v48 v52 (ix2 p q) = 1#1 then (1 : EReal) else 0) := by
  unfold k0_pay14
  refine (shapeCast_a_a1_apply _ shapeCasts_S512_S512x1 p u).trans ?_
  refine (laneSum_apply _ _ _ _ p).trans ?_
  refine Finset.sum_congr rfl fun q _ => ?_
  exact sitofp_extui_bit _

/-- The kept positive similarities of the chunk at `(p, q)`: the similarity where the mask is set, else the zero
    word's value. -/
theorem pay15_apply (p q : Fin 512) :
    (k0_pay15 (F := Ideal) v3 v45 v48 v53 (ix2 p q) : EReal)
      = if k0_pay12 (F := Ideal) v3 v45 v48 v53 (ix2 p q) = 1#1 then v48 (ix2 p q) else Cert.Spec.zero := rfl

/-- The kept different-label similarities of the chunk at `(p, q)`. -/
theorem pay16_apply (p q : Fin 512) :
    (k0_pay16 (F := Ideal) v3 v45 v48 v52 (ix2 p q) : EReal)
      = if k0_pay11 (F := Ideal) v3 v45 v48 v52 (ix2 p q) = 1#1 then v48 (ix2 p q) else Cert.Spec.zero := rfl

end Payloads

section Steps
variable (a : FVec Ideal S512x1 .f32) (b : Vec Ideal S512x1 .f32) (w : Vec Ideal S512x512 .f32)

/-- A count's step: the running value plus the chunk's count. -/
theorem pay2_apply (p : Fin 512) (u : Fin 1) : k0_pay2 (F := Ideal) a b (ix2 p u) = (b (ix2 p u) : EReal) + a (ix2 p u) := by
  unfold k0_pay2
  rw [shapeCast_self]
  rfl

theorem pay3_apply (p : Fin 512) (u : Fin 1) : k0_pay3 (F := Ideal) a b (ix2 p u) = (b (ix2 p u) : EReal) + a (ix2 p u) := by
  unfold k0_pay3
  rw [shapeCast_self]
  rfl

/-- The third accumulator's step: the running value plus (the chunk's count less the row sum of the tile). -/
theorem pay4_apply (p : Fin 512) (u : Fin 1) :
    k0_pay4 (F := Ideal) a w b (ix2 p u) = (b (ix2 p u) : EReal) + (a (ix2 p u) - ∑ q : Fin 512, (w (ix2 p q) : EReal)) := by
  unfold k0_pay4
  rw [shapeCast_self]
  show (b (ix2 p u) : EReal) + (a (ix2 p u) - shapeCast S512x1 _ shapeCasts_S512_S512x1 (ix2 p u)) = _
  refine congrArg (fun z : EReal => (b (ix2 p u) : EReal) + (a (ix2 p u) - z)) ?_
  exact (shapeCast_a_a1_apply _ shapeCasts_S512_S512x1 p u).trans (laneSum_apply _ _ _ _ p)

/-- The fourth accumulator's step: the running value plus the row sum of the tile. -/
theorem pay5_apply (p : Fin 512) (u : Fin 1) :
    k0_pay5 (F := Ideal) w b (ix2 p u) = (b (ix2 p u) : EReal) + ∑ q : Fin 512, (w (ix2 p q) : EReal) := by
  unfold k0_pay5
  rw [shapeCast_self]
  show (b (ix2 p u) : EReal) + shapeCast S512x1 _ shapeCasts_S512_S512x1 (ix2 p u) = _
  refine congrArg (fun z : EReal => (b (ix2 p u) : EReal) + z) ?_
  exact (shapeCast_a_a1_apply _ shapeCasts_S512_S512x1 p u).trans (laneSum_apply _ _ _ _ p)

/-- The four accumulators start at zero. -/
theorem pay24_apply (j : S512x1.Idx) : (k0_pay24 (F := Ideal) j : EReal) = 0 := by
  unfold k0_pay24
  rw [shapeCast_self]
  exact Ideal.ofBits_zero_f32
theorem pay25_apply (j : S512x1.Idx) : (k0_pay25 (F := Ideal) j : EReal) = 0 := by
  unfold k0_pay25
  rw [shapeCast_self]
  exact Ideal.ofBits_zero_f32
theorem pay26_apply (j : S512x1.Idx) : (k0_pay26 (F := Ideal) j : EReal) = 0 := by
  unfold k0_pay26
  rw [shapeCast_self]
  exact Ideal.ofBits_zero_f32
theorem pay1_zero_apply (j : S512x1.Idx) :
    (k0_pay1 (F := Ideal) (Scalar.ofBits (F := Ideal) .f32 0x00000000#32) j : EReal) = 0 := by
  unfold k0_pay1
  rw [shapeCast_self]
  exact Ideal.ofBits_zero_f32

end Steps

/-! ## Sums over a row, regrouped by chunks; counts as sums of ones -/

/-- The columns as pairs of a chunk and a lane. -/
def colEquiv : Fin 16 × Fin 512 ≃ Fin 8192 where
  toFun p := Cert.Spec.col p.1 p.2
  invFun c := (⟨c.val / 512, by have := c.isLt; omega⟩, ⟨c.val % 512, Nat.mod_lt _ (by decide)⟩)
  left_inv := by
    rintro ⟨j, c'⟩
    have hj := j.isLt
    have hc := c'.isLt
    refine Prod.ext (Fin.ext ?_) (Fin.ext ?_)
    · show (512 * j.val + c'.val) / 512 = j.val
      omega
    · show (512 * j.val + c'.val) % 512 = c'.val
      omega
  right_inv c := Fin.ext (by
    show 512 * (c.val / 512) + c.val % 512 = c.val
    omega)

/-- A sum over the 8192 columns is the sum over the sixteen chunks of the sums over each chunk's 512 lanes: addition
    is commutative and associative, nothing else is used. -/
theorem sum_col {M : Type*} [AddCommMonoid M] (f : Fin 8192 → M) :
    ∑ c, f c = ∑ j : Fin 16, ∑ c' : Fin 512, f (Cert.Spec.col j c') := by
  rw [← Equiv.sum_comp colEquiv f, Fintype.sum_prod_type]
  rfl

/-- A count, as an extended real, is the sum of a one per counted index. -/
theorem cast_cntOf {n : ℕ} (p : Fin n → Prop) :
    ((Cert.Spec.cntOf p : ℕ) : EReal) = ∑ c : Fin n, if p c then (1 : EReal) else 0 := by
  unfold Cert.Spec.cntOf
  rw [Finset.card_filter, Nat.cast_sum]
  refine Finset.sum_congr rfl fun c _ => ?_
  split
  · exact Nat.cast_one
  · exact Nat.cast_zero

/-- A count over the row is the sum of the sixteen per-chunk counts. -/
theorem cast_cntOf_col (p : Fin 8192 → Prop) :
    ((Cert.Spec.cntOf p : ℕ) : EReal)
      = ∑ j : Fin 16, ((Cert.Spec.cntOf (fun c' : Fin 512 => p (Cert.Spec.col j c')) : ℕ) : EReal) := by
  rw [cast_cntOf, sum_col]
  exact Finset.sum_congr rfl fun j _ => (cast_cntOf _).symm

/-- A sum over the first sixteen naturals of a term defined below sixteen is the sum over `Fin 16`. -/
theorem sum_range_dite (B : Fin 16 → EReal) :
    ∑ m ∈ Finset.range 16, (if h : m < 16 then B ⟨m, h⟩ else 0) = ∑ j : Fin 16, B j := by
  rw [Finset.sum_range]
  refine Finset.sum_congr rfl fun j _ => ?_
  rw [dif_pos j.isLt]

/-- A quantity that starts at zero and to which step `n` adds `B n`, after sixteen steps: the sum of the `B n`. -/
theorem acc_sixteen (acc : ℕ → EReal) (B : Fin 16 → EReal) (h0 : acc 0 = 0)
    (hs : ∀ n (h : n < 16), acc (n + 1) = acc n + B ⟨n, h⟩) : acc 16 = ∑ j : Fin 16, B j := by
  have inv : ∀ n, n ≤ 16 → acc n = ∑ m ∈ Finset.range n, (if h : m < 16 then B ⟨m, h⟩ else 0) := by
    intro n
    induction n with
    | zero =>
      intro _
      rw [h0, Finset.range_zero, Finset.sum_empty]
    | succ n ih =>
      intro hn
      have h : n < 16 := hn
      rw [hs n h, ih (Nat.le_of_lt h), Finset.sum_range_succ, dif_pos h]
  rw [inv 16 le_rfl, sum_range_dite]

/-! ## The second pass at the program's operands -/

/-- The zero offsets, however spelt. -/
theorem hz2 : (![0, 0] : Fin 2 → Nat) = fun _ => 0 := funext fun a => by fin_cases a <;> rfl

/-- A trip of the second pass as a chunk number. -/
abbrev chunk2 (k : Fin k0_t2_loop.trips) : Fin 16 := chunkOf (tr k)

section
variable (i : grid0.Coords) (X : Cert.Spec.Mat) (t : Cert.Spec.Lab)
  (x1 : Vec Ideal S512x512 .bf16) (x2 : Vec Ideal S8192x512 .bf16) (x3 : Vec Ideal S512x1 .i32)
  (x4 : Vec Ideal S1x8192 .i32) (x5 : Vec Ideal S512x1 .f32)
  (h1 : ∀ r' k : Fin 512, x1 (ix2 r' k) = X (rowOf i r') k)
  (h2 : ∀ (r : Fin 8192) (k : Fin 512), x2 (ix2 r k) = X r k)
  (h3 : ∀ r' : Fin 512, x3 (ix2 r' 0) = t (rowOf i r'))
  (h4 : ∀ c : Fin 8192, x4 (ix2 0 c) = t c)
  (h5 : ∀ r' : Fin 512, x5 (ix2 r' 0) = Cert.Spec.zero + ∑ k : Fin 512, X (rowOf i r') k * X (rowOf i r') k)

include h3 in
/-- The block's labels: local row `r'` carries the label of its row of the matrix. -/
theorem rowTg_apply (r' : Fin 512) : rowTg (F := Ideal) x3 (ix2 r' (0 : Fin 1)) = t (rowOf i r') := by
  unfold rowTg k0_pay18
  rw [shapeCast_self]
  show View.ld x3 rCol (ix2 r' (0 : Fin 1)) = _
  rw [View.ld_unit_zero hz2]
  exact h3 r'

include h4 in
/-- The chunk's labels: lane `c'` of chunk `k` carries the label of column `512 k + c'`. -/
theorem colTg2_apply (k : Fin k0_t2_loop.trips) (c' : Fin 512) :
    colTg2 (F := Ideal) x4 k (ix2 (0 : Fin 1) c') = t (Cert.Spec.col (chunk2 k) c') := by
  refine Eq.trans ?_ (h4 _)
  show x4 ((Rect.unit (s := S1x8192) (k0_off4 k) S1x512.size _).emb (ix2 (0 : Fin 1) c')) = _
  refine congrArg x4 (funext fun a => Fin.ext ?_)
  rw [Rect.emb_apply]
  have e := k0_off4_eq k
  match a with
  | ⟨0, _⟩ =>
    show k0_off4 k 0 + 1 * 0 = 0
    rw [e]
    rfl
  | ⟨1, _⟩ =>
    show k0_off4 k 1 + 1 * c'.val = 512 * k.val + c'.val
    rw [e]
    show 512 * k.val + 1 * c'.val = _
    omega

include h1 h2 h3 h4 h5 in
/-- The kept-positive mask of chunk `k` at `(r', c')` is the mathematics' kept positive entry at column `512 k + c'`. -/
theorem posk_iff (k : Fin k0_t2_loop.trips) (r' c' : Fin 512) :
    k0_pay12 (F := Ideal) (rowTg x3) (colTg2 x4 k) (simTile i x1 x2 x5 (tr k)) (maxn i x1 x2 x3 x4 x5) (ix2 r' c') = 1#1
      ↔ Cert.Spec.posk X t (rowOf i r') (Cert.Spec.col (chunk2 k) c') := by
  rw [pay12_iff, rowTg_apply i t x3 h3, colTg2_apply t x4 h4, simTile_apply i X x1 x2 x5 h1 h2 h5,
    maxn_apply i X t x1 x2 x3 x4 x5 h1 h2 h3 h4 h5]
  exact Iff.rfl

include h1 h2 h3 h4 h5 in
/-- The kept-negative mask likewise. -/
theorem negk_iff (k : Fin k0_t2_loop.trips) (r' c' : Fin 512) :
    k0_pay11 (F := Ideal) (rowTg x3) (colTg2 x4 k) (simTile i x1 x2 x5 (tr k)) (minp i x1 x2 x3 x4 x5) (ix2 r' c') = 1#1
      ↔ Cert.Spec.negk X t (rowOf i r') (Cert.Spec.col (chunk2 k) c') := by
  rw [pay11_iff, rowTg_apply i t x3 h3, colTg2_apply t x4 h4, simTile_apply i X x1 x2 x5 h1 h2 h5,
    minp_apply i X t x1 x2 x3 x4 x5 h1 h2 h3 h4 h5]
  exact Iff.rfl

include h1 h2 h3 h4 h5 in
/-- The chunk's count of kept positive entries. -/
theorem cntp_chunk (k : Fin k0_t2_loop.trips) (r' : Fin 512) (u : Fin 1) :
    (k0_pay13 (F := Ideal) (rowTg x3) (colTg2 x4 k) (simTile i x1 x2 x5 (tr k)) (maxn i x1 x2 x3 x4 x5) (ix2 r' u) : EReal)
      = ((Cert.Spec.cntOf (fun c' : Fin 512 => Cert.Spec.posk X t (rowOf i r') (Cert.Spec.col (chunk2 k) c')) : ℕ) : EReal) := by
  rw [pay13_apply, cast_cntOf]
  exact Finset.sum_congr rfl fun q _ => if_congr (posk_iff i X t x1 x2 x3 x4 x5 h1 h2 h3 h4 h5 k r' q) rfl rfl

include h1 h2 h3 h4 h5 in
/-- The chunk's count of kept different-label entries. -/
theorem cntn_chunk (k : Fin k0_t2_loop.trips) (r' : Fin 512) (u : Fin 1) :
    (k0_pay14 (F := Ideal) (rowTg x3) (colTg2 x4 k) (simTile i x1 x2 x5 (tr k)) (minp i x1 x2 x3 x4 x5) (ix2 r' u) : EReal)
      = ((Cert.Spec.cntOf (fun c' : Fin 512 => Cert.Spec.negk X t (rowOf i r') (Cert.Spec.col (chunk2 k) c')) : ℕ) : EReal) := by
  rw [pay14_apply, cast_cntOf]
  exact Finset.sum_congr rfl fun q _ => if_congr (negk_iff i X t x1 x2 x3 x4 x5 h1 h2 h3 h4 h5 k r' q) rfl rfl

include h1 h2 h3 h4 h5 in
/-- The chunk's sum of kept positive similarities. -/
theorem sump_chunk (k : Fin k0_t2_loop.trips) (r' : Fin 512) :
    ∑ q : Fin 512, (k0_pay15 (F := Ideal) (rowTg x3) (colTg2 x4 k) (simTile i x1 x2 x5 (tr k)) (maxn i x1 x2 x3 x4 x5) (ix2 r' q) : EReal)
      = ∑ c' : Fin 512, (if Cert.Spec.posk X t (rowOf i r') (Cert.Spec.col (chunk2 k) c')
          then Cert.Spec.sim X (rowOf i r') (Cert.Spec.col (chunk2 k) c') else Cert.Spec.zero) := by
  refine Finset.sum_congr rfl fun q _ => ?_
  rw [pay15_apply, simTile_apply i X x1 x2 x5 h1 h2 h5]
  exact if_congr (posk_iff i X t x1 x2 x3 x4 x5 h1 h2 h3 h4 h5 k r' q) rfl rfl

include h1 h2 h3 h4 h5 in
/-- The chunk's sum of kept different-label similarities. -/
theorem sumn_chunk (k : Fin k0_t2_loop.trips) (r' : Fin 512) :
    ∑ q : Fin 512, (k0_pay16 (F := Ideal) (rowTg x3) (colTg2 x4 k) (simTile i x1 x2 x5 (tr k)) (minp i x1 x2 x3 x4 x5) (ix2 r' q) : EReal)
      = ∑ c' : Fin 512, (if Cert.Spec.negk X t (rowOf i r') (Cert.Spec.col (chunk2 k) c')
          then Cert.Spec.sim X (rowOf i r') (Cert.Spec.col (chunk2 k) c') else Cert.Spec.zero) := by
  refine Finset.sum_congr rfl fun q _ => ?_
  rw [pay16_apply, simTile_apply i X x1 x2 x5 h1 h2 h5]
  exact if_congr (negk_iff i X t x1 x2 x3 x4 x5 h1 h2 h3 h4 h5 k r' q) rfl rfl

end

/-! ## The four accumulators after sixteen chunks -/

section
variable (i : grid0.Coords) (X : Cert.Spec.Mat) (t : Cert.Spec.Lab)
  (x1 : Vec Ideal S512x512 .bf16) (x2 : Vec Ideal S8192x512 .bf16) (x3 : Vec Ideal S512x1 .i32)
  (x4 : Vec Ideal S1x8192 .i32) (x5 : Vec Ideal S512x1 .f32)
  (h1 : ∀ r' k : Fin 512, x1 (ix2 r' k) = X (rowOf i r') k)
  (h2 : ∀ (r : Fin 8192) (k : Fin 512), x2 (ix2 r k) = X r k)
  (h3 : ∀ r' : Fin 512, x3 (ix2 r' 0) = t (rowOf i r'))
  (h4 : ∀ c : Fin 8192, x4 (ix2 0 c) = t c)
  (h5 : ∀ r' : Fin 512, x5 (ix2 r' 0) = Cert.Spec.zero + ∑ k : Fin 512, X (rowOf i r') k * X (rowOf i r') k)

/-- One more chunk of each accumulator, below sixteen chunks. -/
theorem cntpAt_succ (n : ℕ) (h : n < k0_t2_loop.trips) :
    cntpAt (F := Ideal) i x1 x2 x3 x4 x5 (n + 1)
      = k0_pay2 (k0_pay13 (rowTg x3) (colTg2 x4 ⟨n, h⟩) (simTile i x1 x2 x5 (tr ⟨n, h⟩)) (maxn i x1 x2 x3 x4 x5))
          (cntpAt i x1 x2 x3 x4 x5 n) := by
  rw [cntpAt, dif_pos h]

theorem cntnAt_succ (n : ℕ) (h : n < k0_t2_loop.trips) :
    cntnAt (F := Ideal) i x1 x2 x3 x4 x5 (n + 1)
      = k0_pay3 (k0_pay14 (rowTg x3) (colTg2 x4 ⟨n, h⟩) (simTile i x1 x2 x5 (tr ⟨n, h⟩)) (minp i x1 x2 x3 x4 x5))
          (cntnAt i x1 x2 x3 x4 x5 n) := by
  rw [cntnAt, dif_pos h]

theorem losspAt_succ (n : ℕ) (h : n < k0_t2_loop.trips) :
    losspAt (F := Ideal) i x1 x2 x3 x4 x5 (n + 1)
      = k0_pay4 (k0_pay13 (rowTg x3) (colTg2 x4 ⟨n, h⟩) (simTile i x1 x2 x5 (tr ⟨n, h⟩)) (maxn i x1 x2 x3 x4 x5))
          (k0_pay15 (rowTg x3) (colTg2 x4 ⟨n, h⟩) (simTile i x1 x2 x5 (tr ⟨n, h⟩)) (maxn i x1 x2 x3 x4 x5))
          (losspAt i x1 x2 x3 x4 x5 n) := by
  rw [losspAt, dif_pos h]

theorem lossnAt_succ (n : ℕ) (h : n < k0_t2_loop.trips) :
    lossnAt (F := Ideal) i x1 x2 x3 x4 x5 (n + 1)
      = k0_pay5 (k0_pay16 (rowTg x3) (colTg2 x4 ⟨n, h⟩) (simTile i x1 x2 x5 (tr ⟨n, h⟩)) (minp i x1 x2 x3 x4 x5))
          (lossnAt i x1 x2 x3 x4 x5 n) := by
  rw [lossnAt, dif_pos h]

include h1 h2 h3 h4 h5 in
/-- The first accumulator: the row's number of kept positive entries. -/
theorem cntp_sixteen (r' : Fin 512) :
    (cntpAt (F := Ideal) i x1 x2 x3 x4 x5 16 (ix2 r' (0 : Fin 1)) : EReal) = (Cert.Spec.pcntN X t (rowOf i r') : EReal) := by
  refine (acc_sixteen (fun n => cntpAt (F := Ideal) i x1 x2 x3 x4 x5 n (ix2 r' (0 : Fin 1)))
    (fun j => ((Cert.Spec.cntOf (fun c' : Fin 512 => Cert.Spec.posk X t (rowOf i r') (Cert.Spec.col j c')) : ℕ) : EReal))
    ?_ ?_).trans ?_
  · exact pay24_apply _
  · intro n h
    have h' : n < k0_t2_loop.trips := lt_of_lt_of_eq h trips2.symm
    show (cntpAt (F := Ideal) i x1 x2 x3 x4 x5 (n + 1) (ix2 r' (0 : Fin 1)) : EReal) = _
    rw [cntpAt_succ i x1 x2 x3 x4 x5 n h', pay2_apply,
      cntp_chunk i X t x1 x2 x3 x4 x5 h1 h2 h3 h4 h5 ⟨n, h'⟩ r' 0]
    rfl
  · exact (cast_cntOf_col (Cert.Spec.posk X t (rowOf i r'))).symm

include h1 h2 h3 h4 h5 in
/-- The second accumulator: the row's number of kept different-label entries. -/
theorem cntn_sixteen (r' : Fin 512) :
    (cntnAt (F := Ideal) i x1 x2 x3 x4 x5 16 (ix2 r' (0 : Fin 1)) : EReal) = (Cert.Spec.ncntN X t (rowOf i r') : EReal) := by
  refine (acc_sixteen (fun n => cntnAt (F := Ideal) i x1 x2 x3 x4 x5 n (ix2 r' (0 : Fin 1)))
    (fun j => ((Cert.Spec.cntOf (fun c' : Fin 512 => Cert.Spec.negk X t (rowOf i r') (Cert.Spec.col j c')) : ℕ) : EReal))
    ?_ ?_).trans ?_
  · exact pay25_apply _
  · intro n h
    have h' : n < k0_t2_loop.trips := lt_of_lt_of_eq h trips2.symm
    show (cntnAt (F := Ideal) i x1 x2 x3 x4 x5 (n + 1) (ix2 r' (0 : Fin 1)) : EReal) = _
    rw [cntnAt_succ i x1 x2 x3 x4 x5 n h', pay3_apply,
      cntn_chunk i X t x1 x2 x3 x4 x5 h1 h2 h3 h4 h5 ⟨n, h'⟩ r' 0]
    rfl
  · exact (cast_cntOf_col (Cert.Spec.negk X t (rowOf i r'))).symm

include h1 h2 h3 h4 h5 in
/-- The third accumulator: chunk by chunk, the chunk's count less the chunk's sum of kept positive similarities. -/
theorem lossp_sixteen (r' : Fin 512) :
    (losspAt (F := Ideal) i x1 x2 x3 x4 x5 16 (ix2 r' (0 : Fin 1)) : EReal)
      = ∑ j : Fin 16, Cert.Spec.chunkK X t (rowOf i r') j := by
  refine acc_sixteen (fun n => losspAt (F := Ideal) i x1 x2 x3 x4 x5 n (ix2 r' (0 : Fin 1)))
    (fun j => Cert.Spec.chunkK X t (rowOf i r') j) ?_ ?_
  · exact pay26_apply _
  · intro n h
    have h' : n < k0_t2_loop.trips := lt_of_lt_of_eq h trips2.symm
    show (losspAt (F := Ideal) i x1 x2 x3 x4 x5 (n + 1) (ix2 r' (0 : Fin 1)) : EReal) = _
    rw [losspAt_succ i x1 x2 x3 x4 x5 n h', pay4_apply,
      cntp_chunk i X t x1 x2 x3 x4 x5 h1 h2 h3 h4 h5 ⟨n, h'⟩ r' 0,
      sump_chunk i X t x1 x2 x3 x4 x5 h1 h2 h3 h4 h5 ⟨n, h'⟩ r']
    rfl

include h1 h2 h3 h4 h5 in
/-- The fourth accumulator: the row's sum of kept different-label similarities. -/
theorem lossn_sixteen (r' : Fin 512) :
    (lossnAt (F := Ideal) i x1 x2 x3 x4 x5 16 (ix2 r' (0 : Fin 1)) : EReal)
      = ∑ c, (if Cert.Spec.negk X t (rowOf i r') c then Cert.Spec.sim X (rowOf i r') c else Cert.Spec.zero) := by
  refine (acc_sixteen (fun n => lossnAt (F := Ideal) i x1 x2 x3 x4 x5 n (ix2 r' (0 : Fin 1)))
    (fun j => ∑ c' : Fin 512, (if Cert.Spec.negk X t (rowOf i r') (Cert.Spec.col j c')
        then Cert.Spec.sim X (rowOf i r') (Cert.Spec.col j c') else Cert.Spec.zero)) ?_ ?_).trans ?_
  · exact pay1_zero_apply _
  · intro n h
    have h' : n < k0_t2_loop.trips := lt_of_lt_of_eq h trips2.symm
    show (lossnAt (F := Ideal) i x1 x2 x3 x4 x5 (n + 1) (ix2 r' (0 : Fin 1)) : EReal) = _
    rw [lossnAt_succ i x1 x2 x3 x4 x5 n h', pay5_apply,
      sumn_chunk i X t x1 x2 x3 x4 x5 h1 h2 h3 h4 h5 ⟨n, h'⟩ r']
    rfl
  · exact (sum_col (fun c => if Cert.Spec.negk X t (rowOf i r') c then Cert.Spec.sim X (rowOf i r') c else Cert.Spec.zero)).symm

end

/-! ## The block's four columns -/

/-- Column `q` of the block at local row `r'` is the one entry of the `q`-th column piece at `r'`. -/
theorem emb_rOut0 (r' : Fin 512) : rOut0.emb (ix2 r' (0 : Fin 1)) = ix2 r' (0 : Fin 4) := by
  funext a
  refine Fin.ext ?_
  rw [Rect.emb_apply]
  match a with
  | ⟨0, _⟩ =>
    show 0 + 1 * r'.val = r'.val
    omega
  | ⟨1, _⟩ => rfl
theorem emb_rOut1 (r' : Fin 512) : rOut1.emb (ix2 r' (0 : Fin 1)) = ix2 r' (1 : Fin 4) := by
  funext a
  refine Fin.ext ?_
  rw [Rect.emb_apply]
  match a with
  | ⟨0, _⟩ =>
    show 0 + 1 * r'.val = r'.val
    omega
  | ⟨1, _⟩ => rfl
theorem emb_rOut2 (r' : Fin 512) : rOut2.emb (ix2 r' (0 : Fin 1)) = ix2 r' (2 : Fin 4) := by
  funext a
  refine Fin.ext ?_
  rw [Rect.emb_apply]
  match a with
  | ⟨0, _⟩ =>
    show 0 + 1 * r'.val = r'.val
    omega
  | ⟨1, _⟩ => rfl
theorem emb_rOut3 (r' : Fin 512) : rOut3.emb (ix2 r' (0 : Fin 1)) = ix2 r' (3 : Fin 4) := by
  funext a
  refine Fin.ext ?_
  rw [Rect.emb_apply]
  match a with
  | ⟨0, _⟩ =>
    show 0 + 1 * r'.val = r'.val
    omega
  | ⟨1, _⟩ => rfl

/-- An entry of an earlier column is off a later column's piece. -/
theorem not_mem_rOut3 (r' : Fin 512) (q : Fin 4) (hq : q.val < 3) : ix2 r' q ∉ rOut3.set := by
  intro hm
  have h : 3 ≤ q.val := ((Rect.mem_set_unit.mp hm) 1).1
  omega
theorem not_mem_rOut2 (r' : Fin 512) (q : Fin 4) (hq : q.val < 2) : ix2 r' q ∉ rOut2.set := by
  intro hm
  have h : 2 ≤ q.val := ((Rect.mem_set_unit.mp hm) 1).1
  omega
theorem not_mem_rOut1 (r' : Fin 512) (q : Fin 4) (hq : q.val < 1) : ix2 r' q ∉ rOut1.set := by
  intro hm
  have h : 1 ≤ q.val := ((Rect.mem_set_unit.mp hm) 1).1
  omega

/-- Off a later column's piece the stores before it decide the entry. -/
theorem canon_skip3 (w : rOut3.shape.Idx → Elt Ideal .f32) (L : List (View.Piece (Elt Ideal) S512x4 .f32)) (r' : Fin 512)
    (q : Fin 4) (hq : q.val < 3) :
    View.canon (Val := Elt Ideal) (⟨rOut3, w⟩ :: L) (ix2 r' q) = View.canon L (ix2 r' q) :=
  View.canon_cons_of_not_mem ⟨rOut3, w⟩ L (not_mem_rOut3 r' q hq)
theorem canon_skip2 (w : rOut2.shape.Idx → Elt Ideal .f32) (L : List (View.Piece (Elt Ideal) S512x4 .f32)) (r' : Fin 512)
    (q : Fin 4) (hq : q.val < 2) :
    View.canon (Val := Elt Ideal) (⟨rOut2, w⟩ :: L) (ix2 r' q) = View.canon L (ix2 r' q) :=
  View.canon_cons_of_not_mem ⟨rOut2, w⟩ L (not_mem_rOut2 r' q hq)
theorem canon_skip1 (w : rOut1.shape.Idx → Elt Ideal .f32) (L : List (View.Piece (Elt Ideal) S512x4 .f32)) (r' : Fin 512)
    (q : Fin 4) (hq : q.val < 1) :
    View.canon (Val := Elt Ideal) (⟨rOut1, w⟩ :: L) (ix2 r' q) = View.canon L (ix2 r' q) :=
  View.canon_cons_of_not_mem ⟨rOut1, w⟩ L (not_mem_rOut1 r' q hq)

end Pass2

section
variable (i : grid0.Coords) (X : Cert.Spec.Mat) (t : Cert.Spec.Lab)
  (x1 : Vec Ideal S512x512 .bf16) (x2 : Vec Ideal S8192x512 .bf16) (x3 : Vec Ideal S512x1 .i32)
  (x4 : Vec Ideal S1x8192 .i32) (x5 : Vec Ideal S512x1 .f32)
  (h1 : ∀ r' k : Fin 512, x1 (ix2 r' k) = X (rowOf i r') k)
  (h2 : ∀ (r : Fin 8192) (k : Fin 512), x2 (ix2 r k) = X r k)
  (h3 : ∀ r' : Fin 512, x3 (ix2 r' 0) = t (rowOf i r'))
  (h4 : ∀ c : Fin 8192, x4 (ix2 0 c) = t c)
  (h5 : ∀ r' : Fin 512, x5 (ix2 r' 0) = Cert.Spec.zero + ∑ k : Fin 512, X (rowOf i r') k * X (rowOf i r') k)

include h1 h2 h3 h4 h5 in
/-- The block at `(r', q)` is column `q` of the row's four. -/
theorem outBlk_apply (r' : Fin 512) (q : Fin 4) :
    outBlk (F := Ideal) i x1 x2 x3 x4 x5 (ix2 r' q) = Cert.Spec.rowK X t (rowOf i r') q := by
  unfold outBlk
  match q with
  | ⟨0, _⟩ =>
    show View.canon (Val := Elt Ideal) (s := S512x4) (e := .f32) _ (ix2 r' (0 : Fin 4)) = (Cert.Spec.pcntN X t (rowOf i r') : EReal)
    rw [Pass2.canon_skip3 _ _ r' 0 (by decide), Pass2.canon_skip2 _ _ r' 0 (by decide), Pass2.canon_skip1 _ _ r' 0 (by decide),
      ← Pass2.emb_rOut0 r', View.canon_cons_emb]
    exact Pass2.cntp_sixteen i X t x1 x2 x3 x4 x5 h1 h2 h3 h4 h5 r'
  | ⟨1, _⟩ =>
    show View.canon (Val := Elt Ideal) (s := S512x4) (e := .f32) _ (ix2 r' (1 : Fin 4)) = (Cert.Spec.ncntN X t (rowOf i r') : EReal)
    rw [Pass2.canon_skip3 _ _ r' 1 (by decide), Pass2.canon_skip2 _ _ r' 1 (by decide), ← Pass2.emb_rOut1 r', View.canon_cons_emb]
    exact Pass2.cntn_sixteen i X t x1 x2 x3 x4 x5 h1 h2 h3 h4 h5 r'
  | ⟨2, _⟩ =>
    show View.canon (Val := Elt Ideal) (s := S512x4) (e := .f32) _ (ix2 r' (2 : Fin 4)) = ∑ j : Fin 16, Cert.Spec.chunkK X t (rowOf i r') j
    rw [Pass2.canon_skip3 _ _ r' 2 (by decide), ← Pass2.emb_rOut2 r', View.canon_cons_emb]
    exact Pass2.lossp_sixteen i X t x1 x2 x3 x4 x5 h1 h2 h3 h4 h5 r'
  | ⟨3, _⟩ =>
    show View.canon (Val := Elt Ideal) (s := S512x4) (e := .f32) _ (ix2 r' (3 : Fin 4))
      = ∑ c, (if Cert.Spec.negk X t (rowOf i r') c then Cert.Spec.sim X (rowOf i r') c else Cert.Spec.zero)
    rw [← Pass2.emb_rOut3 r', View.canon_cons_emb]
    exact Pass2.lossn_sixteen i X t x1 x2 x3 x4 x5 h1 h2 h3 h4 h5 r'

end

end Cert.KernelIdeal.BlkValue

end
-- ==== Proof.KI.Packed.lean ====
/-
  The packed array the kernel region leaves, read index by index over the extended reals: row `r` holds the four
  columns of row `r` in the kernel's shape.

  The region is entered after seven host operations: the bf16 copy of the matrix (the identity over the extended
  reals), the labels as a column and as a row, and the rows' squared norms as a column. Grid point `t` of sixteen
  reads row block `t` of the copy, of the label column and of the norm column, and the whole copy and label row, and
  writes back block `t` of the packed array; the sixteen blocks tile it, so the array after the region is, at row
  `512 t + r'`, what point `t` left at local row `r'`.
-/
import proofs.«422922_j45569603010928_3_alg».proof.Proof.KI.Run
import proofs.«422922_j45569603010928_3_alg».proof.Proof.KI.BlockValue
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped Classical

namespace Cert.KernelIdeal.KValue

open Cert.KernelIdeal Cert.KernelIdeal.Gen Cert.KernelIdeal.Hand Cert.KernelIdeal.Blk Cert.KernelIdeal.BlkValue
open Idealize.ShloMosaic Idealize.ShloMosaic.TcCoe Idealize.ShloMosaic.ValueIdx Idealize.SL.Sem

variable (m : (ℓ : Loc nD τ sig) → Buf (Elt Ideal) ℓ) (c : Dev nD) (X : Cert.Spec.Mat) (t : Cert.Spec.Lab)
  (hX : ∀ (r : Fin 8192) (k : Fin 512), m ((c.tc : Thread nD τ).loc main_arg0) (ix2 r k) = X r k)
  (ht : ∀ r : Fin 8192, m ((c.tc : Thread nD τ).loc main_arg1) (ix1 r) = t r)

/-! ## The four arrays the region reads, as the host operations before it leave them -/

include hX in
/-- The bf16 copy of the matrix is the matrix: a change of float format is the identity over the extended reals. -/
theorem copy_apply (r : Fin 8192) (k : Fin 512) :
    (V1 (F := Ideal) m c main_v0 : S8192x512.Idx → EReal) (ix2 r k) = X r k := by
  show StableHlo.after hostOps0 (W0 m c) (Proc.devRef .tc main_v0) (ix2 r k) = _
  after_results
  exact hX r k

include ht in
/-- The labels as a column: the entry at `(r, 0)` has the row-major position of the vector's entry `r`. -/
theorem labCol_apply (r : Fin 8192) :
    (V1 (F := Ideal) m c main_v1 : S8192x1.Idx → BitVec 32) (ix2 r 0) = t r := by
  have e : (V1 (F := Ideal) m c main_v1 : S8192x1.Idx → BitVec 32)
      = shapeCast S8192x1 (m ((c.tc : Thread nD τ).loc main_arg1) : S8192.Idx → BitVec 32) shapeCasts_S8192_S8192x1 := by
    show StableHlo.after hostOps0 (W0 m c) (Proc.devRef .tc main_v1) = _
    after_results
    try rfl
  rw [e, shapeCast_apply _ _ (ix2 r 0) (ix1 r) (by rw [Shape.rowMajor_val_one, Shape.rowMajor_val_two]; show r.val = r.val * 1 + 0; omega)]
  exact ht r

include ht in
/-- The labels as a row: the entry at `(0, r)` has the row-major position of the vector's entry `r`. -/
theorem labRow_apply (r : Fin 8192) :
    (V1 (F := Ideal) m c main_v2 : S1x8192.Idx → BitVec 32) (ix2 0 r) = t r := by
  have e : (V1 (F := Ideal) m c main_v2 : S1x8192.Idx → BitVec 32)
      = shapeCast S1x8192 (m ((c.tc : Thread nD τ).loc main_arg1) : S8192.Idx → BitVec 32) shapeCasts_S8192_S1x8192 := by
    show StableHlo.after hostOps0 (W0 m c) (Proc.devRef .tc main_v2) = _
    after_results
    try rfl
  rw [e, shapeCast_apply _ _ (ix2 0 r) (ix1 r) (by rw [Shape.rowMajor_val_one, Shape.rowMajor_val_two]; show r.val = 0 * 8192 + r.val; omega)]
  exact ht r

include hX in
/-- The rows' squared norms as a column: the word for zero plus the sum over the row of the squares. -/
theorem norm_apply (r : Fin 8192) :
    (V1 (F := Ideal) m c main_v5 : S8192x1.Idx → EReal) (ix2 r 0) = Cert.Spec.zero + ∑ k : Fin 512, X r k * X r k := by
  have e : (V1 (F := Ideal) m c main_v5 : S8192x1.Idx → EReal)
      = broadcastInDim S8192x1 ![0] bcast_S8192_S8192x1_0
          (Host.reduceAdd (F := Ideal)
            (mulf (m ((c.tc : Thread nD τ).loc main_arg0) : S8192x512.Idx → EReal) (m ((c.tc : Thread nD τ).loc main_arg0) : S8192x512.Idx → EReal))
            (constant (F := Ideal) S_ .f32 0x00000000#32) reducesTo_S8192x512_S8192_d1 h_S_) := by
    show StableHlo.after hostOps0 (W0 m c) (Proc.devRef .tc main_v5) = _
    after_results
    try rfl
  rw [e, broadcastInDim_apply _ _ _ (ix2 r 0) (ix1 r) (fun a => by match a with | ⟨0, _⟩ => rfl)]
  rw [hostReduceAdd_apply, Ideal.hostReduceAdd_single reducesTo_S8192x512_S8192_d1 (by decide : S8192x512.Reduces [1] S8192)]
  refine congrArg₂ (· + ·) rfl (Finset.sum_congr rfl fun k _ => ?_)
  have hl : (by decide : S8192x512.Reduces [1] S8192).lift (ix1 r) k = ix2 r k := by
    funext a; match a with | ⟨0, _⟩ => rfl | ⟨1, _⟩ => rfl
  rw [mulf_apply, hl]
  exact congrArg₂ (· * ·) (hX r k) (hX r k)

/-! ## The windows' blocks at a grid point -/

/-- The windows' block indices, decided over the sixteen points: the three row-block windows and the output are at
    the point's coordinate on the row axis, the two whole-array windows at zero. -/
theorem idx_facts : ∀ p : Fin cfg0.N,
    win0_0.index p (0 : Fin 2) = (grid0.coords p 0).val ∧ win0_0.index p (1 : Fin 2) = 0
    ∧ win0_1.index p (0 : Fin 2) = 0 ∧ win0_1.index p (1 : Fin 2) = 0
    ∧ win0_2.index p (0 : Fin 2) = (grid0.coords p 0).val ∧ win0_2.index p (1 : Fin 2) = 0
    ∧ win0_3.index p (0 : Fin 2) = 0 ∧ win0_3.index p (1 : Fin 2) = 0
    ∧ win0_4.index p (0 : Fin 2) = (grid0.coords p 0).val ∧ win0_4.index p (1 : Fin 2) = 0
    ∧ win0_5.index p (0 : Fin 2) = (grid0.coords p 0).val ∧ win0_5.index p (1 : Fin 2) = 0 :=
  (by decide +kernel : ∀ p : Fin grid0.N, _)

/-- Every row block is some point's. -/
theorem idx_onto : ∀ q0 : Fin 16, ∃ p : Fin cfg0.N, win0_5.index p = ![q0.val, 0] :=
  (by decide +kernel : ∀ q0 : Fin 16, ∃ p : Fin grid0.N, win0_5.index p = ![q0.val, 0])

include hX in
/-- The row block of the copy at point `p`: rows `512 p …` of the matrix. -/
theorem blk0_apply (p : Fin cfg0.N) (r' k : Fin 512) :
    (iblk (V1 (F := Ideal) m) c 0 p : S512x512.Idx → EReal) (ix2 r' k) = X (rowOf (grid0.coords p) r') k := by
  obtain ⟨e0, e1, -⟩ := idx_facts p
  unfold iblk
  rw [View.read_apply]
  show (V1 (F := Ideal) m c main_v0 : S8192x512.Idx → EReal) (((cfg0.win 0).blk p).view.emb (ix2 r' k)) = _
  rw [← copy_apply m c X hX (rowOf (grid0.coords p) r') k]
  congr 1
  funext a; apply Fin.ext
  match a with
  | ⟨0, _⟩ => show win0_0.index p (0 : Fin 2) * 512 + 1 * r'.val = 512 * (grid0.coords p 0).val + r'.val; omega
  | ⟨1, _⟩ => show win0_0.index p (1 : Fin 2) * 512 + 1 * k.val = k.val; omega

include hX in
/-- The whole copy at any point. -/
theorem blk1_apply (p : Fin cfg0.N) (r : Fin 8192) (k : Fin 512) :
    (iblk (V1 (F := Ideal) m) c 1 p : S8192x512.Idx → EReal) (ix2 r k) = X r k := by
  obtain ⟨-, -, e0, e1, -⟩ := idx_facts p
  unfold iblk
  rw [View.read_apply]
  show (V1 (F := Ideal) m c main_v0 : S8192x512.Idx → EReal) (((cfg0.win 1).blk p).view.emb (ix2 r k)) = _
  rw [← copy_apply m c X hX r k]
  congr 1
  funext a; apply Fin.ext
  match a with
  | ⟨0, _⟩ => show win0_1.index p (0 : Fin 2) * 8192 + 1 * r.val = r.val; omega
  | ⟨1, _⟩ => show win0_1.index p (1 : Fin 2) * 512 + 1 * k.val = k.val; omega

include ht in
/-- The row block's labels. -/
theorem blk2_apply (p : Fin cfg0.N) (r' : Fin 512) :
    (iblk (V1 (F := Ideal) m) c 2 p : S512x1.Idx → BitVec 32) (ix2 r' 0) = t (rowOf (grid0.coords p) r') := by
  obtain ⟨-, -, -, -, e0, e1, -⟩ := idx_facts p
  unfold iblk
  rw [View.read_apply]
  show (V1 (F := Ideal) m c main_v1 : S8192x1.Idx → BitVec 32) (((cfg0.win 2).blk p).view.emb (ix2 r' 0)) = _
  rw [← labCol_apply m c t ht (rowOf (grid0.coords p) r')]
  congr 1
  funext a; apply Fin.ext
  match a with
  | ⟨0, _⟩ => show win0_2.index p (0 : Fin 2) * 512 + 1 * r'.val = 512 * (grid0.coords p 0).val + r'.val; omega
  | ⟨1, _⟩ => show win0_2.index p (1 : Fin 2) * 1 + 1 * 0 = 0; omega

include ht in
/-- All the labels at any point. -/
theorem blk3_apply (p : Fin cfg0.N) (r : Fin 8192) :
    (iblk (V1 (F := Ideal) m) c 3 p : S1x8192.Idx → BitVec 32) (ix2 0 r) = t r := by
  obtain ⟨-, -, -, -, -, -, e0, e1, -⟩ := idx_facts p
  unfold iblk
  rw [View.read_apply]
  show (V1 (F := Ideal) m c main_v2 : S1x8192.Idx → BitVec 32) (((cfg0.win 3).blk p).view.emb (ix2 0 r)) = _
  rw [← labRow_apply m c t ht r]
  congr 1
  funext a; apply Fin.ext
  match a with
  | ⟨0, _⟩ => show win0_3.index p (0 : Fin 2) * 1 + 1 * 0 = 0; omega
  | ⟨1, _⟩ => show win0_3.index p (1 : Fin 2) * 8192 + 1 * r.val = r.val; omega

include hX in
/-- The row block's squared norms. -/
theorem blk4_apply (p : Fin cfg0.N) (r' : Fin 512) :
    (iblk (V1 (F := Ideal) m) c 4 p : S512x1.Idx → EReal) (ix2 r' 0)
      = Cert.Spec.zero + ∑ k : Fin 512, X (rowOf (grid0.coords p) r') k * X (rowOf (grid0.coords p) r') k := by
  obtain ⟨-, -, -, -, -, -, -, -, e0, e1, -⟩ := idx_facts p
  unfold iblk
  rw [View.read_apply]
  show (V1 (F := Ideal) m c main_v5 : S8192x1.Idx → EReal) (((cfg0.win 4).blk p).view.emb (ix2 r' 0)) = _
  rw [← norm_apply m c X hX (rowOf (grid0.coords p) r')]
  congr 1
  funext a; apply Fin.ext
  match a with
  | ⟨0, _⟩ => show win0_4.index p (0 : Fin 2) * 512 + 1 * r'.val = 512 * (grid0.coords p 0).val + r'.val; omega
  | ⟨1, _⟩ => show win0_4.index p (1 : Fin 2) * 1 + 1 * 0 = 0; omega

/-! ## From the sixteen blocks to the array -/

/-- The packed array in the kernel's shape: row `r` holds the row's four columns. -/
abbrev packedK : S8192x4.Idx → EReal := fun i => Cert.Spec.rowK X t (i 0) (i 1)

include hX ht in
/-- What point `p` writes back is block `p` of the packed array. -/
theorem flushed_eq (p : Fin cfg0.N) :
    (dat0 (V1 (F := Ideal) m) c).flushed 5 p = ((cfg0.win 5).blk p).view.read (Elt Ideal) (packedK X t) := by
  obtain ⟨-, -, -, -, -, -, -, -, -, -, e0, e1⟩ := idx_facts p
  show (cfg0.win 5).cut (grid0.coords p) ((dat0 (V1 m) c).after 5 p) = _
  rw [after_5]
  funext y
  rw [View.read_apply]
  have h := outBlk_apply (grid0.coords p) X t _ _ _ _ _ (blk0_apply m c X hX p) (blk1_apply m c X hX p)
    (blk2_apply m c t ht p) (blk3_apply m c t ht p) (blk4_apply m c X hX p) (y 0) (y 1)
  have hy : (cfg0.win 5).xinj (grid0.coords p) y = @ix2 512 4 (y 0) (y 1) := by
    funext a; match a with | ⟨0, _⟩ => rfl | ⟨1, _⟩ => rfl
  show outBlk (F := Ideal) (grid0.coords p) _ _ _ _ _ ((cfg0.win 5).xinj (grid0.coords p) y)
    = Cert.Spec.rowK X t ((((cfg0.win 5).blk p).view.emb y) 0) ((((cfg0.win 5).blk p).view.emb y) 1)
  rw [hy]
  refine h.trans (congrArg₂ (Cert.Spec.rowK X t) (Fin.ext ?_) (Fin.ext ?_))
  · show 512 * (grid0.coords p 0).val + (y 0).val = win0_5.index p (0 : Fin 2) * 512 + 1 * (y 0).val; omega
  · show (y 1).val = win0_5.index p (1 : Fin 2) * 4 + 1 * (y 1).val; omega

/-- An index of the packed array is in point `p`'s block iff each coordinate is in the block's range on its axis. -/
theorem mem_blk (p : Fin cfg0.N) (i : S8192x4.Idx) :
    i ∈ ((cfg0.win 5).blk p).view.set
      ↔ ∀ a : Fin 2, win0_5.index p a * S512x4.size a ≤ (i a).val ∧ (i a).val < win0_5.index p a * S512x4.size a + S512x4.size a := by
  show i ∈ ((View.whole main_v6).slice (win0_5.rect p)).set ↔ _
  rw [View.set_slice_whole, Rect.mem_set_unit]
  exact Iff.rfl

/-- The sixteen blocks tile the packed array: row `r` is in the block of the point at `r / 512`. -/
theorem cover (i : S8192x4.Idx) : ∃ p : Fin cfg0.N, (cfg0.win 5).flush p = true ∧ i ∈ ((cfg0.win 5).blk p).view.set := by
  have hi0 : (i 0).val < 8192 := (i 0).isLt
  have hi1 : (i 1).val < 4 := (i 1).isLt
  obtain ⟨p, hp⟩ := idx_onto ⟨(i 0).val / 512, by omega⟩
  have q0 : win0_5.index p (0 : Fin 2) = (i 0).val / 512 := congrFun hp 0
  have q1 : win0_5.index p (1 : Fin 2) = 0 := congrFun hp 1
  refine ⟨p, flush0_5 p, ?_⟩
  rw [mem_blk]
  intro a
  match a with
  | ⟨0, _⟩ => show win0_5.index p (0 : Fin 2) * 512 ≤ (i 0).val ∧ (i 0).val < win0_5.index p (0 : Fin 2) * 512 + 512; omega
  | ⟨1, _⟩ => show win0_5.index p (1 : Fin 2) * 4 ≤ (i 1).val ∧ (i 1).val < win0_5.index p (1 : Fin 2) * 4 + 4; omega

include hX ht in
/-- So the array the sixteen write-backs leave is the packed array in the kernel's shape. -/
theorem final : (dat0 (V1 (F := Ideal) m) c).arrAt 5 cfg0.N = packedK X t :=
  (dat0 (V1 (F := Ideal) m) c).arrAt_eq_of_cover 5 (packedK X t) (fun p _ => flushed_eq m c X t hX ht p) cover

include hX ht in
/-- The packed array after the region, at row `r` and column `q`. -/
theorem packed_apply (r : Fin 8192) (q : Fin 4) :
    W2 (F := Ideal) m c (Proc.devRef .tc main_v6) (ix2 r q) = Cert.Spec.rowK X t r q := by
  rw [W2_out, final m c X t hX ht]

end Cert.KernelIdeal.KValue

end
-- ==== Proof.KI.Tail.lean ====
/-
  The kernel program's four results, read off the host operations after the region, over the extended reals.

  From a packed array `P` of per-row columns: the two quotients per row (third column by the larger of the first and
  one; fourth by the larger of the second and one), their sum kept where the second column is at least one, summed
  over the rows and divided by 8192; and the number of rows where it is not, divided by 8192. From the matrix and
  the labels alone: the last row's similarities by a host product (its own entry reset to its squared norm, which is
  that similarity), summed over the same-label entries below one and over the different-label entries, each divided
  by the larger of the number of such entries (a sum of ones) and one.
-/
import proofs.«422922_j45569603010928_3_alg».proof.Proof.KI.Run
import proofs.«422922_j45569603010928_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IndicatorCount
import Idealize.ShloMosaic.Lib.IdealHost

set_option maxRecDepth 16384

noncomputable section

open scoped Classical

namespace Cert.KernelIdeal.KValue

open Cert.KernelIdeal Cert.KernelIdeal.Gen Cert.KernelIdeal.Hand
open Idealize.ShloMosaic Idealize.ShloMosaic.TcCoe Idealize.ShloMosaic.ValueIdx Idealize.SL.Sem

namespace Tail

/-! ## Words: one-bit conditions made from decided facts -/

section Words

theorem select_ofBool {α : Type} (b : Bool) (x y : α) : Scalar.select (BitVec.ofBool b) x y = if b then x else y := by
  cases b <;> rfl

theorem not_ofBool (b : Bool) : ~~~(BitVec.ofBool b) = BitVec.ofBool (!b) := by cases b <;> rfl

theorem andi_ofBool (a b : Bool) : IntOp.andi (BitVec.ofBool a) (BitVec.ofBool b) = BitVec.ofBool (a && b) := by
  cases a <;> cases b <;> rfl

theorem ofBool_eq_one (b : Bool) : BitVec.ofBool b = 1#1 ↔ b = true := by cases b <;> decide

/-- A one-bit word read unsigned into the extended reals is one or zero. -/
theorem uitofp_ofBool (b : Bool) : (FloatOps.uitofp (F := Ideal) .f32 (BitVec.ofBool b) : EReal) = if b then 1 else 0 := by
  cases b
  · show (((0#1 : BitVec 1).toNat : ℝ) : EReal) = 0
    simp
  · show (((1#1 : BitVec 1).toNat : ℝ) : EReal) = 1
    simp

/-- An `if` on a decided bit is the `if` on the proposition it decides, whatever decides the proposition. -/
theorem ite_bool_prop {α : Type} (b : Bool) (p : Prop) [Decidable p] (h : b = true ↔ p) (x y : α) :
    (if b then x else y) = if p then x else y := by
  by_cases hp : p
  · rw [if_pos hp, if_pos (h.mpr hp)]
  · rw [if_neg hp, if_neg (fun hb => hp (h.mp hb))]

end Words

/-! ## Layout reads at an index -/

section Reads
variable {α : Type}

/-- Column `q` of an 8192 × 4 array, as a vector, at row `r`. -/
theorem col_read (off : Fin 2 → Nat) (x : S8192x4.Idx → α) (h : S8192x4.Slices off S8192x1) (hc : S8192x1.ShapeCasts S8192)
    (r : Fin 8192) (q : Fin 4) (h0 : off 0 = 0) (h1 : off 1 = q.val) :
    shapeCast S8192 (extractStridedSlice S8192x1 off x h) hc (ix1 r) = x (ix2 r q) := by
  rw [shapeCast_apply _ hc (ix1 r) (ix2 r (0 : Fin 1)) (by
    rw [Shape.rowMajor_val_two, Shape.rowMajor_val_one]; show r.val * 1 + 0 = r.val; omega)]
  exact extractStridedSlice_apply off x h _ (ix2 r q) (fun a => match a with
    | ⟨0, _⟩ => by show r.val = off 0 + r.val; omega
    | ⟨1, _⟩ => by show q.val = off 1 + 0; omega)

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- A float sum of a vector of 8192 entries: the initial value plus the sum over the entries. -/
theorem sum_read (x : S8192.Idx → EReal) (init : S_.Idx → EReal) (h' : S8192.ReducesTo [0] S_) (hu : 0 < S_.numel) :
    Host.reduceAdd (F := Ideal) (φ := .f32) x init h' hu ix0 = init ix0 + ∑ r : Fin 8192, x (ix1 r) := by
  rw [hostReduceAdd_apply, Ideal.hostReduceAdd_total h' (fun b => b.elim0), sum_idx1]
  exact congrArg (· + _) (congrArg init (funext fun a => a.elim0))

end Reads

/-! ## A count by an integer sum, a host product, a one-index scatter -/

section Reads2

/-- The integer sum of one-bit words widened to 32 bits, from zero, over 8192 entries, read signed into the extended
    reals: the number of ones (at most 8192, so the word does not wrap and its sign bit is clear). -/
theorem count_read (p : S8192.Idx → BitVec 1) (init : S_.Idx → BitVec 32) (hinit : init ix0 = 0#32)
    (h' : S8192.ReducesTo [0] S_) (hu : 0 < S_.numel) :
    (FloatOps.sitofp (F := Ideal) .f32 (Host.reduce IntOp.addi (fun i => (p i).setWidth 32) init h' hu ix0) : EReal)
      = (((Finset.univ.filter fun r : Fin 8192 => p (ix1 r) = 1#1).card : ℕ) : EReal) := by
  rw [Host.reduce_eq_fold]
  have hf : (Finset.univ.filter fun i : S8192.Idx => h'.drop i = ix0) = Finset.univ :=
    Finset.filter_true_of_mem fun i _ => funext fun b => b.elim0
  rw [hf, show init (Shape.Idx.first hu) = 0#32 from (congrArg init (funext fun a => a.elim0)).trans hinit,
    IndicatorCount.fold_addi_setWidth_eq_card]
  have hc : (Finset.univ.filter fun k : S8192.Idx => p k = 1#1).card
      = (Finset.univ.filter fun r : Fin 8192 => p (ix1 r) = 1#1).card :=
    Finset.card_equiv idxEquiv1 (fun i => by
      simp only [Finset.mem_filter, Finset.mem_univ, true_and]
      rw [show ix1 (idxEquiv1 i) = i from (eq_ix1 i).symm])
  rw [hc]
  have hn : (Finset.univ.filter fun r : Fin 8192 => p (ix1 r) = 1#1).card ≤ 8192 :=
    (Finset.card_le_univ _).trans (by simp)
  generalize (Finset.univ.filter fun r : Fin 8192 => p (ix1 r) = 1#1).card = n at hn ⊢
  show (((BitVec.ofNat 32 n).toInt : ℝ) : EReal) = (n : EReal)
  have h1 : (BitVec.ofNat 32 n).toNat = n := by rw [BitVec.toNat_ofNat]; exact Nat.mod_eq_of_lt (by omega)
  rw [BitVec.toInt_eq_toNat_of_lt (by rw [h1]; omega), h1, Int.cast_natCast]
  rfl

abbrev dotD := dot_S1x512_S8192x512_S1x8192_1_1_0_0_n_n

/-- The host product's operand indices, axis by axis: the left operand's one row and the contracted column; the right
    operand's row is the result's column. -/
theorem dot_lhs0 (i : S1x8192.Idx) (q : dotD.contr.Idx) : (dotD.lhsIdx i q 0).val = (i 0).val := by
  unfold DotDims.lhsIdx
  rw [dif_neg (show ¬(0 : Fin S1x512.rank) ∈ dotD.lhsBatch by decide), dif_pos (show (0 : Fin S1x512.rank) ∈ dotD.lhsNonContracting by decide)]
  rfl
theorem dot_lhs1 (i : S1x8192.Idx) (q : dotD.contr.Idx) : (dotD.lhsIdx i q 1).val = (q ⟨0, by decide⟩).val :=
  dotD.lhsIdx_val_of_single rfl i q
theorem dot_rhs0 (i : S1x8192.Idx) (q : dotD.contr.Idx) : (dotD.rhsIdx i q 0).val = (i 1).val := by
  unfold DotDims.rhsIdx
  rw [dif_neg (show ¬(0 : Fin S8192x512.rank) ∈ dotD.rhsBatch by decide), dif_pos (show (0 : Fin S8192x512.rank) ∈ dotD.rhsNonContracting by decide)]
  rfl
theorem dot_rhs1 (i : S1x8192.Idx) (q : dotD.contr.Idx) : (dotD.rhsIdx i q 1).val = (q ⟨0, by decide⟩).val :=
  dotD.rhsIdx_val_of_single rfl i q

/-- The host product of one row against every row, at column `c'`: the sum over the 512 columns of the products. -/
theorem dot_read (l : S1x512.Idx → EReal) (x : S8192x512.Idx → EReal) (c' : Fin 8192) :
    Host.dotGeneral (F := Ideal) (φ₁ := .f32) (φ₂ := .f32) dotD (some .fp32) l x (ix2 (0 : Fin 1) c')
      = ∑ k : Fin 512, l (ix2 (0 : Fin 1) k) * x (ix2 c' k) := by
  simp only [Host.dotGeneral]
  rw [Ideal.dotGeneral_apply, ← Equiv.sum_comp (contrEquiv1 dotD 512 rfl rfl).symm]
  refine Finset.sum_congr rfl fun k _ => ?_
  have hk := contrEquiv1_symm_val dotD 512 rfl rfl k
  have el : dotD.lhsIdx (ix2 (0 : Fin 1) c') ((contrEquiv1 dotD 512 rfl rfl).symm k) = ix2 (0 : Fin 1) k := funext fun a => Fin.ext (by
    match a with
    | ⟨0, _⟩ => exact dot_lhs0 _ _
    | ⟨1, _⟩ => exact (dot_lhs1 _ _).trans hk)
  have er : dotD.rhsIdx (ix2 (0 : Fin 1) c') ((contrEquiv1 dotD 512 rfl rfl).symm k) = ix2 c' k := funext fun a => Fin.ext (by
    match a with
    | ⟨0, _⟩ => exact dot_rhs0 _ _
    | ⟨1, _⟩ => exact (dot_rhs1 _ _).trans hk)
  rw [el, er]

end Reads2

section Reads3

abbrev scD := scatter_S8192_S1_S__n_0_0_0

/-- A rank-1 index's coordinate is below the extent, written as `n` itself. -/
theorem idx1_lt {n : Nat} (j : (⟨1, ![n]⟩ : Shape).Idx) : (j 0).val < n := (j 0).isLt

/-- The one scatter index 8191 lands at the last entry. -/
theorem scatter_res (idx : S1.Idx → BitVec 32) (hidx : idx (ix1 (0 : Fin 1)) = 8191#32) (j : S_.Idx) :
    scD.resultIdx? j idx = some (ix1 Cert.Spec.last) := by
  have hidx' : idx = fun _ => 8191#32 := funext fun i => by
    have hi : i = ix1 (0 : Fin 1) := (eq_ix1 i).trans (congrArg ix1 (Fin.ext (by
      have h := idx1_lt i
      show (i 0).val = 0
      omega)))
    exact (congrArg idx hi).trans hidx
  have hj : j = ix0 := eq_ix0 j
  rw [hidx', hj]
  decide

/-- A scatter of one scalar at the index 8191 into a vector of 8192 entries resets the last entry and keeps the rest. -/
theorem scatter_read (x : S8192.Idx → EReal) (idx : S1.Idx → BitVec 32) (u : S_.Idx → EReal)
    (hidx : idx (ix1 (0 : Fin 1)) = 8191#32) (c' : Fin 8192) :
    Host.scatter scD (fun _ b => b) x idx u (ix1 c') = if c' = Cert.Spec.last then u ix0 else x (ix1 c') := by
  unfold Host.scatter
  rw [show List.finRange S_.numel = [(⟨0, by decide⟩ : Fin S_.numel)] from rfl]
  simp only [List.foldl_cons, List.foldl_nil, scatter_res idx hidx]
  by_cases h : c' = Cert.Spec.last
  · subst h
    rw [if_pos rfl, if_pos rfl]
    exact congrArg u (funext fun a => a.elim0)
  · rw [if_neg h, if_neg (fun e => h (congrFun e 0))]

/-- A float sum along the rows of an 8192 × 512 array: the initial value plus the sum over the row's 512 entries. -/
theorem norm_read (x : S8192x512.Idx → EReal) (init : S_.Idx → EReal) (h' : S8192x512.ReducesTo [1] S8192)
    (hu : 0 < S_.numel) (r : Fin 8192) :
    Host.reduceAdd (F := Ideal) (φ := .f32) x init h' hu (ix1 r) = init ix0 + ∑ k : Fin 512, x (ix2 r k) := by
  rw [hostReduceAdd_apply, Ideal.hostReduceAdd_single h' (by decide : S8192x512.Reduces [1] S8192)]
  congr 1
  · exact congrArg init (funext fun a => a.elim0)
  · exact Finset.sum_congr rfl fun k _ => congrArg x (funext fun a => by
      match a with
      | ⟨0, _⟩ => rfl
      | ⟨1, _⟩ => rfl)

end Reads3

section Reads4

/-- The last row's similarities as the host computes them — the product of the last row against every row, the entry
    8191 reset to the last row's squared norm — are the last row's similarities. -/
theorem sim_last_read (A : S8192x512.Idx → EReal) (N : S8192x1.Idx → EReal) (X : Cert.Spec.Mat)
    (hA : ∀ (r : Fin 8192) (k : Fin 512), A (ix2 r k) = X r k)
    (h5 : N (ix2 Cert.Spec.last (0 : Fin 1)) = Cert.Spec.sim X Cert.Spec.last Cert.Spec.last) (c' : Fin 8192) :
    Host.scatter scD (fun _ b => b)
      (shapeCast S8192 (Host.dotGeneral (F := Ideal) (φ₁ := .f32) (φ₂ := .f32) dotD (some .fp32)
        (extractStridedSlice S1x512 ![8191, 0] A slices_S8192x512_S1x512_8191_0) A) shapeCasts_S1x8192_S8192)
      (broadcastInDim S1 ![] bcast_S_S1 (constantI S_ 32 8191#32))
      (shapeCast S_ (extractStridedSlice S1x1 ![8191, 0] N slices_S8192x1_S1x1_8191_0) shapeCasts_S1x1_S_) (ix1 c')
      = Cert.Spec.sim X Cert.Spec.last c' := by
  refine (scatter_read _ _ _ (broadcastInDim_scalar_apply _ _ _) c').trans ?_
  by_cases h : c' = Cert.Spec.last
  · rw [if_pos h, h]
    refine (shapeCast_apply _ shapeCasts_S1x1_S_ ix0 (ix2 (0 : Fin 1) (0 : Fin 1)) ?_).trans
      ((extractStridedSlice_apply _ _ slices_S8192x1_S1x1_8191_0 (ix2 (0 : Fin 1) (0 : Fin 1)) (ix2 Cert.Spec.last (0 : Fin 1)) ?_).trans h5)
    · rw [Shape.rowMajor_val_two]
      have h0 : (S_.rowMajor ix0).val < 1 := (S_.rowMajor ix0).isLt
      show 0 * 1 + 0 = _
      omega
    · intro a
      match a with
      | ⟨0, _⟩ => rfl
      | ⟨1, _⟩ => rfl
  · rw [if_neg h]
    refine (shapeCast_apply _ shapeCasts_S1x8192_S8192 (ix1 c') (ix2 (0 : Fin 1) c') ?_).trans ((dot_read _ _ c').trans ?_)
    · rw [Shape.rowMajor_val_two, Shape.rowMajor_val_one]
      show 0 * 8192 + c'.val = c'.val
      omega
    · unfold Cert.Spec.sim
      refine Finset.sum_congr rfl fun k _ => congrArg₂ (· * ·) ?_ (hA c' k)
      refine (extractStridedSlice_apply _ _ slices_S8192x512_S1x512_8191_0 (ix2 (0 : Fin 1) k) (ix2 Cert.Spec.last k) ?_).trans (hA _ k)
      intro a
      match a with
      | ⟨0, _⟩ => rfl
      | ⟨1, _⟩ =>
        show k.val = 0 + k.val
        omega

/-- The last label broadcast against all labels, at an entry. -/
theorem last_label_read (T : S8192.Idx → BitVec 32) (t : Cert.Spec.Lab) (hT : ∀ r, T (ix1 r) = t r) (c' : Fin 8192) :
    broadcastInDim S8192 ![] bcast_S_S8192 (shapeCast S_ (extractStridedSlice S1 ![8191] T slices_S8192_S1_8191) shapeCasts_S1_S_) (ix1 c')
      = t Cert.Spec.last := by
  rw [broadcastInDim_scalar_apply]
  refine (shapeCast_apply _ shapeCasts_S1_S_ ix0 (ix1 (0 : Fin 1)) ?_).trans
    ((extractStridedSlice_apply _ _ slices_S8192_S1_8191 (ix1 (0 : Fin 1)) (ix1 Cert.Spec.last) ?_).trans (hT _))
  · rw [Shape.rowMajor_val_one]
    have h0 : (S_.rowMajor ix0).val < 1 := (S_.rowMajor ix0).isLt
    show 0 = _
    omega
  · intro a
    match a with
    | ⟨0, _⟩ => rfl

end Reads4

/-! ## The mathematics the results are read as -/

section Targets

/-- A select on a bit that is one exactly when `p` holds is the `if` on `p`, whatever decides `p`. -/
theorem select_eq_ite {α : Type} (c : BitVec 1) (p : Prop) [Decidable p] (h : c = 1#1 ↔ p) (x y : α) :
    Scalar.select c x y = if p then x else y := by
  unfold Scalar.select
  by_cases hp : p
  · exact (if_pos (show c = 1 from h.mpr hp)).trans (if_pos hp).symm
  · exact (if_neg (fun hc : c = 1 => hp (h.mp hc))).trans (if_neg hp).symm

/-- A one-bit word that is one exactly when `p` holds, read unsigned into the extended reals, is one or zero by `p`. -/
theorem uitofp_eq_ite (b : Bool) (p : Prop) [Decidable p] (h : BitVec.ofBool b = 1#1 ↔ p) :
    (FloatOps.uitofp (F := Ideal) .f32 (BitVec.ofBool b) : EReal) = if p then 1 else 0 := by
  rw [uitofp_ofBool]
  exact ite_bool_prop b p ((ofBool_eq_one b).symm.trans h) 1 0

theorem cmp_oge_eq_one (x y : EReal) : Ideal.cmp .oge x y = 1#1 ↔ y ≤ x := by
  show BitVec.ofBool (decide (y ≤ x)) = 1#1 ↔ _
  rw [ofBool_eq_one, decide_eq_true_iff]

theorem not_eq_one (b : BitVec 1) : ~~~b = 1#1 ↔ ¬ b = 1#1 := by
  revert b
  decide

theorem posm_bit (X : Cert.Spec.Mat) (t : Cert.Spec.Lab) (c' : Fin 8192) :
    BitVec.ofBool ((t Cert.Spec.last == t c') && decide (Cert.Spec.sim X Cert.Spec.last c' < Cert.Spec.one)) = 1#1
      ↔ Cert.Spec.posm X t Cert.Spec.last c' := by
  rw [ofBool_eq_one, Bool.and_eq_true, beq_iff_eq, decide_eq_true_iff]
  rfl

theorem neg_bit (t : Cert.Spec.Lab) (c' : Fin 8192) :
    BitVec.ofBool (!(t Cert.Spec.last == t c')) = 1#1 ↔ ¬ Cert.Spec.same t Cert.Spec.last c' := by
  rw [ofBool_eq_one, Bool.not_eq_true', beq_eq_false_iff_ne]
  rfl

/-- The literal zero denotes zero, so a sum from it is the sum. -/
theorem zero_add_sum (s : EReal) : Cert.Spec.zero + s = s := by
  unfold Cert.Spec.zero
  rw [Ideal.ofBits_zero_f32, zero_add]

theorem loss_eq (P : Cert.Spec.Packed) :
    Ideal.div (Cert.Spec.zero + ∑ r : Fin 8192, Scalar.select (Ideal.cmp .oge (P r 1) Cert.Spec.one)
        (Ideal.div (P r 2) (max (P r 0) Cert.Spec.one) + Ideal.div (P r 3) (max (P r 1) Cert.Spec.one)) Cert.Spec.zero) Cert.Spec.n8192
      = Cert.Spec.lossK P := by
  unfold Cert.Spec.lossK
  refine congrArg (fun s => Ideal.div (Cert.Spec.zero + s) Cert.Spec.n8192) (Finset.sum_congr rfl fun r _ => ?_)
  exact select_eq_ite _ _ (cmp_oge_eq_one _ _) _ _

theorem prec_eq (P : Cert.Spec.Packed) :
    Ideal.div (((Finset.univ.filter fun r : Fin 8192 => ~~~(Ideal.cmp .oge (P r 1) Cert.Spec.one) = 1#1).card : ℕ) : EReal) Cert.Spec.n8192
      = Cert.Spec.precK P := by
  unfold Cert.Spec.precK Cert.Spec.cntOf
  refine congrArg (fun n : ℕ => Ideal.div (n : EReal) Cert.Spec.n8192) (congrArg Finset.card (Finset.ext fun r => ?_))
  simp only [Finset.mem_filter, Finset.mem_univ, true_and]
  rw [not_eq_one, cmp_oge_eq_one]

theorem mpos_eq (X : Cert.Spec.Mat) (t : Cert.Spec.Lab) :
    Ideal.div (Cert.Spec.zero + ∑ r : Fin 8192, Scalar.select
          (BitVec.ofBool ((t Cert.Spec.last == t r) && decide (Cert.Spec.sim X Cert.Spec.last r < Cert.Spec.one)))
          (Cert.Spec.sim X Cert.Spec.last r) Cert.Spec.zero)
        (max (Cert.Spec.zero + ∑ r : Fin 8192, (FloatOps.uitofp (F := Ideal) .f32
          (BitVec.ofBool ((t Cert.Spec.last == t r) && decide (Cert.Spec.sim X Cert.Spec.last r < Cert.Spec.one))) : EReal)) Cert.Spec.one)
      = Cert.Spec.mposK X t := by
  unfold Cert.Spec.mposK
  refine congrArg₂ Ideal.div (congrArg (Cert.Spec.zero + ·) (Finset.sum_congr rfl fun r _ => ?_))
    (congrArg₂ max (congrArg (Cert.Spec.zero + ·) (Finset.sum_congr rfl fun r _ => ?_)) rfl)
  · exact select_eq_ite _ _ (posm_bit X t r) _ _
  · exact uitofp_eq_ite _ _ (posm_bit X t r)

theorem mneg_eq (X : Cert.Spec.Mat) (t : Cert.Spec.Lab) :
    Ideal.div (Cert.Spec.zero + ∑ r : Fin 8192, Scalar.select (BitVec.ofBool (!(t Cert.Spec.last == t r)))
          (Cert.Spec.sim X Cert.Spec.last r) Cert.Spec.zero)
        (max (Cert.Spec.zero + ∑ r : Fin 8192, (FloatOps.uitofp (F := Ideal) .f32 (BitVec.ofBool (!(t Cert.Spec.last == t r))) : EReal)) Cert.Spec.one)
      = Cert.Spec.mnegK X t := by
  unfold Cert.Spec.mnegK
  refine congrArg₂ Ideal.div (congrArg (Cert.Spec.zero + ·) (Finset.sum_congr rfl fun r _ => ?_))
    (congrArg₂ max (congrArg (Cert.Spec.zero + ·) (Finset.sum_congr rfl fun r _ => ?_)) rfl)
  · exact select_eq_ite _ _ (neg_bit t r) _ _
  · exact uitofp_eq_ite _ _ (neg_bit t r)

end Targets

/-! ## The host operations, stretch by stretch, over any contents `V` before the stretch

Each lemma reads one buffer after one stretch at an index, from what the stretch's input buffers hold at an index. -/

section Stretches
variable (V : Valuation τ sig (Elt Ideal))

/-- Before the region: each row's squared norm, from zero. -/
theorem K0_v5 (X : Cert.Spec.Mat) (hA : ∀ (r : Fin 8192) (k : Fin 512), V (Proc.devRef .tc main_arg0) (ix2 r k) = X r k) (r : Fin 8192) :
    StableHlo.after hostOps0 V (Proc.devRef .tc main_v5) (ix2 r (0 : Fin 1)) = Cert.Spec.zero + ∑ k : Fin 512, X r k * X r k := by
  after_results_simp
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  refine (norm_read _ _ _ _ r).trans ?_
  exact congrArg (Cert.Spec.zero + ·) (Finset.sum_congr rfl fun k _ => congrArg₂ (· * ·) (hA r k) (hA r k))

theorem K0_arg0 : StableHlo.after hostOps0 V (Proc.devRef .tc main_arg0) = V (Proc.devRef .tc main_arg0) := by after_results_simp
theorem K0_arg1 : StableHlo.after hostOps0 V (Proc.devRef .tc main_arg1) = V (Proc.devRef .tc main_arg1) := by after_results_simp

/-- After the first stretch: the comparison of the second column against one, -/
theorem K1_v22 (P : Cert.Spec.Packed) (hP : ∀ (r : Fin 8192) (q : Fin 4), V (Proc.devRef .tc main_v6) (ix2 r q) = P r q) (r : Fin 8192) :
    StableHlo.after hostOps1 V (Proc.devRef .tc main_v22) (ix1 r) = Ideal.cmp .oge (P r 1) Cert.Spec.one := by
  after_results_simp
  exact congrArg₂ (Ideal.cmp .oge) ((col_read _ _ _ _ r 1 rfl rfl).trans (hP r 1)) (broadcastInDim_scalar_apply _ _ _)

/-- the sum of the two quotients, -/
theorem K1_v23 (P : Cert.Spec.Packed) (hP : ∀ (r : Fin 8192) (q : Fin 4), V (Proc.devRef .tc main_v6) (ix2 r q) = P r q) (r : Fin 8192) :
    StableHlo.after hostOps1 V (Proc.devRef .tc main_v23) (ix1 r)
      = Ideal.div (P r 2) (max (P r 0) Cert.Spec.one) + Ideal.div (P r 3) (max (P r 1) Cert.Spec.one) := by
  after_results_simp
  exact congrArg₂ (· + ·)
    (congrArg₂ Ideal.div ((col_read _ _ _ _ r 2 rfl rfl).trans (hP r 2)) (congrArg₂ max ((col_read _ _ _ _ r 0 rfl rfl).trans (hP r 0)) (broadcastInDim_scalar_apply _ _ _)))
    (congrArg₂ Ideal.div ((col_read _ _ _ _ r 3 rfl rfl).trans (hP r 3)) (congrArg₂ max ((col_read _ _ _ _ r 1 rfl rfl).trans (hP r 1)) (broadcastInDim_scalar_apply _ _ _)))

/-- and the constant zero. -/
theorem K1_cst3 : StableHlo.after hostOps1 V (Proc.devRef .tc main_cst_3) ix0 = Cert.Spec.zero := by
  after_results_simp
  rfl

/-- The first two stretches after the region leave the arguments and the norms. -/
theorem K12_arg0 : StableHlo.after hostOps1_1 (StableHlo.after hostOps1 V) (Proc.devRef .tc main_arg0) = V (Proc.devRef .tc main_arg0) := by after_results_simp
theorem K12_arg1 : StableHlo.after hostOps1_1 (StableHlo.after hostOps1 V) (Proc.devRef .tc main_arg1) = V (Proc.devRef .tc main_arg1) := by after_results_simp
theorem K12_v5 : StableHlo.after hostOps1_1 (StableHlo.after hostOps1 V) (Proc.devRef .tc main_v5) = V (Proc.devRef .tc main_v5) := by after_results_simp

/-- The select of the first call, and the comparison it leaves. -/
theorem K2_v24 (a : Fin 8192 → BitVec 1) (b : Fin 8192 → EReal) (z : EReal)
    (h22 : ∀ r, V (Proc.devRef .tc main_v22) (ix1 r) = a r) (h23 : ∀ r, V (Proc.devRef .tc main_v23) (ix1 r) = b r)
    (hz : V (Proc.devRef .tc main_cst_3) ix0 = z) (r : Fin 8192) :
    StableHlo.after hostOps1_1 V (Proc.devRef .tc main_v24) (ix1 r) = Scalar.select (a r) (b r) z := by
  after_results_simp
  show Scalar.select (V (Proc.devRef .tc main_v22) (ix1 r)) (V (Proc.devRef .tc main_v23) (ix1 r))
    (broadcastInDim S8192 ![] bcast_S_S8192 (V (Proc.devRef .tc main_cst_3) : S_.Idx → EReal) (ix1 r)) = _
  rw [broadcastInDim_scalar_apply, h22, h23, hz]

theorem K2_v22 : StableHlo.after hostOps1_1 V (Proc.devRef .tc main_v22) = V (Proc.devRef .tc main_v22) := by after_results_simp

/-- The third stretch: the first result, -/
theorem K3_v26 (f : Fin 8192 → EReal) (h24 : ∀ r, V (Proc.devRef .tc main_v24) (ix1 r) = f r) :
    StableHlo.after hostOps1_2 V (Proc.devRef .tc main_v26) ix0 = Ideal.div (Cert.Spec.zero + ∑ r : Fin 8192, f r) Cert.Spec.n8192 := by
  after_results_simp
  refine congrArg₂ Ideal.div ((sum_read _ _ _ _).trans ?_) rfl
  exact congrArg (Cert.Spec.zero + ·) (Finset.sum_congr rfl fun r _ => h24 r)

/-- the second, -/
theorem K3_v31 (a : Fin 8192 → BitVec 1) (h22 : ∀ r, V (Proc.devRef .tc main_v22) (ix1 r) = a r) :
    StableHlo.after hostOps1_2 V (Proc.devRef .tc main_v31) ix0
      = Ideal.div (((Finset.univ.filter fun r : Fin 8192 => ~~~(a r) = 1#1).card : ℕ) : EReal) Cert.Spec.n8192 := by
  after_results_simp
  refine congrArg₂ Ideal.div ((count_read (fun i => ~~~((V (Proc.devRef .tc main_v22) : S8192.Idx → BitVec 1) i)) _ rfl _ _).trans ?_) rfl
  simp only [h22]

end Stretches

section Stretches3
variable (V : Valuation τ sig (Elt Ideal))

/-- The third stretch, from the matrix and the labels: the last row's similarities, -/
theorem K3_v38 (X : Cert.Spec.Mat) (hA : ∀ (r : Fin 8192) (k : Fin 512), V (Proc.devRef .tc main_arg0) (ix2 r k) = X r k)
    (h5 : V (Proc.devRef .tc main_v5) (ix2 Cert.Spec.last (0 : Fin 1)) = Cert.Spec.sim X Cert.Spec.last Cert.Spec.last) (c' : Fin 8192) :
    StableHlo.after hostOps1_2 V (Proc.devRef .tc main_v38) (ix1 c') = Cert.Spec.sim X Cert.Spec.last c' := by
  after_results_simp
  exact sim_last_read _ _ X hA h5 c'

/-- the same-label entries below one, -/
theorem K3_v45 (X : Cert.Spec.Mat) (t : Cert.Spec.Lab) (hA : ∀ (r : Fin 8192) (k : Fin 512), V (Proc.devRef .tc main_arg0) (ix2 r k) = X r k)
    (hT : ∀ r : Fin 8192, V (Proc.devRef .tc main_arg1) (ix1 r) = t r)
    (h5 : V (Proc.devRef .tc main_v5) (ix2 Cert.Spec.last (0 : Fin 1)) = Cert.Spec.sim X Cert.Spec.last Cert.Spec.last) (c' : Fin 8192) :
    StableHlo.after hostOps1_2 V (Proc.devRef .tc main_v45) (ix1 c')
      = BitVec.ofBool ((t Cert.Spec.last == t c') && decide (Cert.Spec.sim X Cert.Spec.last c' < Cert.Spec.one)) := by
  after_results_simp
  refine Eq.trans ?_ (andi_ofBool _ _)
  refine congrArg₂ IntOp.andi ?_ ?_
  · exact congrArg₂ (fun x y : BitVec 32 => BitVec.ofBool (x == y)) (last_label_read _ t hT c') (hT c')
  · exact congrArg₂ (fun x y : EReal => BitVec.ofBool (decide (x < y))) (sim_last_read _ _ X hA h5 c') (broadcastInDim_scalar_apply _ _ _)

/-- the different-label entries, -/
theorem K3_v46 (t : Cert.Spec.Lab) (hT : ∀ r : Fin 8192, V (Proc.devRef .tc main_arg1) (ix1 r) = t r) (c' : Fin 8192) :
    StableHlo.after hostOps1_2 V (Proc.devRef .tc main_v46) (ix1 c') = BitVec.ofBool (!(t Cert.Spec.last == t c')) := by
  after_results_simp
  refine Eq.trans ?_ (not_ofBool _)
  exact congrArg (fun b : BitVec 1 => ~~~b) (congrArg₂ (fun x y : BitVec 32 => BitVec.ofBool (x == y)) (last_label_read _ t hT c') (hT c'))

/-- and the constant zero. -/
theorem K3_cst9 : StableHlo.after hostOps1_2 V (Proc.devRef .tc main_cst_9) ix0 = Cert.Spec.zero := by
  after_results_simp
  rfl

end Stretches3

section Stretches4
variable (V : Valuation τ sig (Elt Ideal))

/-- The select of the second call; it leaves the similarities and the two masks. -/
theorem K4_v47 (a : Fin 8192 → BitVec 1) (s : Fin 8192 → EReal) (z : EReal)
    (h45 : ∀ r, V (Proc.devRef .tc main_v45) (ix1 r) = a r) (h38 : ∀ r, V (Proc.devRef .tc main_v38) (ix1 r) = s r)
    (hz : V (Proc.devRef .tc main_cst_9) ix0 = z) (r : Fin 8192) :
    StableHlo.after hostOps1_3 V (Proc.devRef .tc main_v47) (ix1 r) = Scalar.select (a r) (s r) z := by
  after_results_simp
  show Scalar.select (V (Proc.devRef .tc main_v45) (ix1 r)) (V (Proc.devRef .tc main_v38) (ix1 r))
    (broadcastInDim S8192 ![] bcast_S_S8192 (V (Proc.devRef .tc main_cst_9) : S_.Idx → EReal) (ix1 r)) = _
  rw [broadcastInDim_scalar_apply, h45, h38, hz]
theorem K4_v45 : StableHlo.after hostOps1_3 V (Proc.devRef .tc main_v45) = V (Proc.devRef .tc main_v45) := by after_results_simp

/-- The fifth stretch: the third result, a sum over the kept entries divided by the larger of their number and one, -/
theorem K5_v52 (f : Fin 8192 → EReal) (a : Fin 8192 → BitVec 1)
    (h47 : ∀ r, V (Proc.devRef .tc main_v47) (ix1 r) = f r) (h45 : ∀ r, V (Proc.devRef .tc main_v45) (ix1 r) = a r) :
    StableHlo.after hostOps1_4 V (Proc.devRef .tc main_v52) ix0
      = Ideal.div (Cert.Spec.zero + ∑ r : Fin 8192, f r)
          (max (Cert.Spec.zero + ∑ r : Fin 8192, (FloatOps.uitofp (F := Ideal) .f32 (a r) : EReal)) Cert.Spec.one) := by
  after_results_simp
  rw [hostDivf_apply, maximumf_apply, sum_read, sum_read]
  have e : ∀ r : Fin 8192, uitofp (F := Ideal) .f32 (V (Proc.devRef .tc main_v45) : S8192.Idx → BitVec 1) (ix1 r) = FloatOps.uitofp (F := Ideal) .f32 (a r) :=
    fun r => congrArg (FloatOps.uitofp (F := Ideal) .f32) (h45 r)
  simp only [h47, e]
  rfl

/-- and the constant zero. -/
theorem K5_cst13 : StableHlo.after hostOps1_4 V (Proc.devRef .tc main_cst_13) ix0 = Cert.Spec.zero := by
  after_results_simp
  rfl

/-- The fourth and fifth stretches leave the similarities and the different-label mask. -/
theorem K45_v38 : StableHlo.after hostOps1_4 (StableHlo.after hostOps1_3 V) (Proc.devRef .tc main_v38) = V (Proc.devRef .tc main_v38) := by after_results_simp
theorem K45_v46 : StableHlo.after hostOps1_4 (StableHlo.after hostOps1_3 V) (Proc.devRef .tc main_v46) = V (Proc.devRef .tc main_v46) := by after_results_simp

/-- The select of the third call. -/
theorem K6_v53 (a : Fin 8192 → BitVec 1) (s : Fin 8192 → EReal) (z : EReal)
    (h46 : ∀ r, V (Proc.devRef .tc main_v46) (ix1 r) = a r) (h38 : ∀ r, V (Proc.devRef .tc main_v38) (ix1 r) = s r)
    (hz : V (Proc.devRef .tc main_cst_13) ix0 = z) (r : Fin 8192) :
    StableHlo.after hostOps1_5 V (Proc.devRef .tc main_v53) (ix1 r) = Scalar.select (a r) (s r) z := by
  after_results_simp
  show Scalar.select (V (Proc.devRef .tc main_v46) (ix1 r)) (V (Proc.devRef .tc main_v38) (ix1 r))
    (broadcastInDim S8192 ![] bcast_S_S8192 (V (Proc.devRef .tc main_cst_13) : S_.Idx → EReal) (ix1 r)) = _
  rw [broadcastInDim_scalar_apply, h46, h38, hz]
theorem K6_v46 : StableHlo.after hostOps1_5 V (Proc.devRef .tc main_v46) = V (Proc.devRef .tc main_v46) := by after_results_simp

/-- The last stretch: the fourth result. -/
theorem K7_v58 (f : Fin 8192 → EReal) (a : Fin 8192 → BitVec 1)
    (h53 : ∀ r, V (Proc.devRef .tc main_v53) (ix1 r) = f r) (h46 : ∀ r, V (Proc.devRef .tc main_v46) (ix1 r) = a r) :
    StableHlo.after hostOps1_6 V (Proc.devRef .tc main_v58) ix0
      = Ideal.div (Cert.Spec.zero + ∑ r : Fin 8192, f r)
          (max (Cert.Spec.zero + ∑ r : Fin 8192, (FloatOps.uitofp (F := Ideal) .f32 (a r) : EReal)) Cert.Spec.one) := by
  after_results_simp
  rw [hostDivf_apply, maximumf_apply, sum_read, sum_read]
  have e : ∀ r : Fin 8192, uitofp (F := Ideal) .f32 (V (Proc.devRef .tc main_v46) : S8192.Idx → BitVec 1) (ix1 r) = FloatOps.uitofp (F := Ideal) .f32 (a r) :=
    fun r => congrArg (FloatOps.uitofp (F := Ideal) .f32) (h46 r)
  simp only [h53, e]
  rfl

/-- The stretches after a result is written leave it. -/
theorem back_v26 : StableHlo.after hostOps1_6 (StableHlo.after hostOps1_5 (StableHlo.after hostOps1_4 (StableHlo.after hostOps1_3 V))) (Proc.devRef .tc main_v26) = V (Proc.devRef .tc main_v26) := by
  after_results_simp
theorem back_v31 : StableHlo.after hostOps1_6 (StableHlo.after hostOps1_5 (StableHlo.after hostOps1_4 (StableHlo.after hostOps1_3 V))) (Proc.devRef .tc main_v31) = V (Proc.devRef .tc main_v31) := by
  after_results_simp
theorem back_v52 : StableHlo.after hostOps1_6 (StableHlo.after hostOps1_5 V) (Proc.devRef .tc main_v52) = V (Proc.devRef .tc main_v52) := by
  after_results_simp

end Stretches4

/-! ## The arguments and the norms before the third stretch -/

section Inputs
variable (m : (ℓ : Loc nD τ sig) → Buf (Elt Ideal) ℓ) (c : Dev nD) (X : Cert.Spec.Mat) (t : Cert.Spec.Lab)
  (hX : ∀ (r : Fin 8192) (k : Fin 512), m ((c.tc : Thread nD τ).loc main_arg0) (ix2 r k) = X r k)
  (ht : ∀ r : Fin 8192, m ((c.tc : Thread nD τ).loc main_arg1) (ix1 r) = t r)

include hX in
/-- The matrix argument, still in place before the third stretch. -/
theorem W4_arg0 (r : Fin 8192) (k : Fin 512) : W4 (F := Ideal) m c (Proc.devRef .tc main_arg0) (ix2 r k) = X r k := by
  refine (congrFun (K12_arg0 (W2 (F := Ideal) m c)) (ix2 r k)).trans ?_
  rw [W2_of_ne m c main_arg0 (by decide)]
  refine (congrFun (K0_arg0 (W0 (F := Ideal) m c)) (ix2 r k)).trans ?_
  exact hX r k

include ht in
/-- The labels, likewise. -/
theorem W4_arg1 (r : Fin 8192) : W4 (F := Ideal) m c (Proc.devRef .tc main_arg1) (ix1 r) = t r := by
  refine (congrFun (K12_arg1 (W2 (F := Ideal) m c)) (ix1 r)).trans ?_
  rw [W2_of_ne m c main_arg1 (by decide)]
  refine (congrFun (K0_arg1 (W0 (F := Ideal) m c)) (ix1 r)).trans ?_
  exact ht r

include hX in
/-- The last row's squared norm, computed before the region, is its similarity with itself. -/
theorem W4_v5 : W4 (F := Ideal) m c (Proc.devRef .tc main_v5) (ix2 Cert.Spec.last (0 : Fin 1)) = Cert.Spec.sim X Cert.Spec.last Cert.Spec.last := by
  refine (congrFun (K12_v5 (W2 (F := Ideal) m c)) _).trans ?_
  rw [W2_of_ne m c main_v5 (by decide)]
  refine (K0_v5 (W0 (F := Ideal) m c) X (fun r k => hX r k) Cert.Spec.last).trans ?_
  exact zero_add_sum _

end Inputs

end Tail

open Tail

variable (m : (ℓ : Loc nD τ sig) → Buf (Elt Ideal) ℓ) (c : Dev nD) (X : Cert.Spec.Mat) (t : Cert.Spec.Lab)
  (hX : ∀ (r : Fin 8192) (k : Fin 512), m ((c.tc : Thread nD τ).loc main_arg0) (ix2 r k) = X r k)
  (ht : ∀ r : Fin 8192, m ((c.tc : Thread nD τ).loc main_arg1) (ix1 r) = t r)

variable (P : Cert.Spec.Packed)
  (hP : ∀ (r : Fin 8192) (q : Fin 4), W2 (F := Ideal) m c (Proc.devRef .tc main_v6) (ix2 r q) = P r q)

include hP in
/-- The first result. -/
theorem W9_v26 : W9 (F := Ideal) m c (Proc.devRef .tc main_v26) ix0 = Cert.Spec.lossK P := by
  refine (congrFun (back_v26 (W5 (F := Ideal) m c)) ix0).trans ?_
  refine (K3_v26 (W4 (F := Ideal) m c) _ (fun r => K2_v24 (W3 (F := Ideal) m c) _ _ _
    (fun r => K1_v22 (W2 (F := Ideal) m c) P hP r) (fun r => K1_v23 (W2 (F := Ideal) m c) P hP r)
    (K1_cst3 (W2 (F := Ideal) m c)) r)).trans ?_
  exact loss_eq P

include hP in
/-- The second result. -/
theorem W9_v31 : W9 (F := Ideal) m c (Proc.devRef .tc main_v31) ix0 = Cert.Spec.precK P := by
  refine (congrFun (back_v31 (W5 (F := Ideal) m c)) ix0).trans ?_
  refine (K3_v31 (W4 (F := Ideal) m c) _ (fun r => (congrFun (K2_v22 (W3 (F := Ideal) m c)) (ix1 r)).trans
    (K1_v22 (W2 (F := Ideal) m c) P hP r))).trans ?_
  exact prec_eq P

include hX ht in
/-- The third and fourth results: the last row's two means. -/
theorem W9_v52 : W9 (F := Ideal) m c (Proc.devRef .tc main_v52) ix0 = Cert.Spec.mposK X t := by
  refine (congrFun (back_v52 (W7 (F := Ideal) m c)) ix0).trans ?_
  have h45 : ∀ r, W5 (F := Ideal) m c (Proc.devRef .tc main_v45) (ix1 r) = _ :=
    fun r => K3_v45 (W4 (F := Ideal) m c) X t (W4_arg0 m c X hX) (W4_arg1 m c t ht) (W4_v5 m c X hX) r
  have h38 : ∀ r, W5 (F := Ideal) m c (Proc.devRef .tc main_v38) (ix1 r) = _ :=
    fun r => K3_v38 (W4 (F := Ideal) m c) X (W4_arg0 m c X hX) (W4_v5 m c X hX) r
  refine (K5_v52 (W6 (F := Ideal) m c) _ _
    (fun r => K4_v47 (W5 (F := Ideal) m c) _ _ _ h45 h38 (K3_cst9 (W4 (F := Ideal) m c)) r)
    (fun r => (congrFun (K4_v45 (W5 (F := Ideal) m c)) (ix1 r)).trans (h45 r))).trans ?_
  exact mpos_eq X t

include hX ht in
theorem W9_v58 : W9 (F := Ideal) m c (Proc.devRef .tc main_v58) ix0 = Cert.Spec.mnegK X t := by
  have h46 : ∀ r, W7 (F := Ideal) m c (Proc.devRef .tc main_v46) (ix1 r) = _ :=
    fun r => (congrFun (K45_v46 (W5 (F := Ideal) m c)) (ix1 r)).trans (K3_v46 (W4 (F := Ideal) m c) t (W4_arg1 m c t ht) r)
  have h38 : ∀ r, W7 (F := Ideal) m c (Proc.devRef .tc main_v38) (ix1 r) = _ :=
    fun r => (congrFun (K45_v38 (W5 (F := Ideal) m c)) (ix1 r)).trans (K3_v38 (W4 (F := Ideal) m c) X (W4_arg0 m c X hX) (W4_v5 m c X hX) r)
  refine (K7_v58 (W8 (F := Ideal) m c) _ _
    (fun r => K6_v53 (W7 (F := Ideal) m c) _ _ _ h46 h38 (K5_cst13 (W6 (F := Ideal) m c)) r)
    (fun r => (congrFun (K6_v46 (W7 (F := Ideal) m c)) (ix1 r)).trans (h46 r))).trans ?_
  exact mneg_eq X t

end Cert.KernelIdeal.KValue

end
-- ==== Proof.Ref.RefValue.lean ====
/-
  The plain reference's four results, read index by index, are the reference-shaped scalars of the specification.

  The whole 8192 by 8192 similarity matrix is one contraction of the argument with its transpose; the label
  masks are comparisons of the label vector broadcast along rows and along columns; the row thresholds are a
  minimum and a maximum over a row of a selection; the counts are integer sums of the masks, converted to reals
  only after the larger of the count and one is taken; the two row sums are float sums of selections; the four
  scalars are quotients of float sums over rows, and of the last row's sums.
-/
import proofs.«422922_j45569603010928_3_alg».proof.Proof.Spec
import proofs.«422922_j45569603010928_3_alg».proof.Proof.Ref.Read
import Idealize.ShloMosaic.Lib.ValueIdxRank1
import Idealize.ShloMosaic.Lib.Affine
import Idealize.ShloMosaic.Lib.IndicatorCount
import Idealize.ShloMosaic.Lib.StableHlo.Predicate

noncomputable section

open scoped Classical

namespace Cert.ReferenceIdeal.RefValue

open Cert.ReferenceIdeal Cert.ReferenceIdeal.Gen Idealize.ShloMosaic Idealize.ShloMosaic.ValueIdx
open Cert.ReferenceIdeal.Read

/-! ## Words: a condition bit, the comparisons, and a small count as a signed word -/

/-- A select on a bit that is one exactly when `P` holds is the `if` on `P`. -/
theorem select_of_iff {α : Type} {c : BitVec 1} {P : Prop} [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

/-- On the extended reals the comparison "less than" is the order's, and "greater than" its converse. -/
theorem cmpf_olt_iff (x y : EReal) : FloatOps.cmpf (F := Ideal) (φ := .f32) .olt x y = 1#1 ↔ x < y := by
  show BitVec.ofBool (decide (x < y)) = 1#1 ↔ x < y
  rw [StableHlo.Predicate.ofBool_eq_one_iff, decide_eq_true_eq]
theorem cmpf_ogt_iff (x y : EReal) : FloatOps.cmpf (F := Ideal) (φ := .f32) .ogt x y = 1#1 ↔ y < x := by
  show BitVec.ofBool (decide (y < x)) = 1#1 ↔ y < x
  rw [StableHlo.Predicate.ofBool_eq_one_iff, decide_eq_true_eq]

/-- The larger of a small count and one, taken on signed words, is the word of the larger taken on numbers. -/
theorem maxsi_ofNat_one (n : ℕ) (hn : n < 2 ^ 31) : IntOp.maxsi (BitVec.ofNat 32 n) 1#32 = BitVec.ofNat 32 (max n 1) := by
  unfold IntOp.maxsi
  have h1 : (1#32 : BitVec 32).toInt = 1 := by decide
  by_cases h : 1 < n
  · rw [if_pos (by simp only [BitVec.slt, h1, StableHlo.Predicate.toInt_ofNat_small n hn, decide_eq_true_eq]; omega),
      Nat.max_eq_left (by omega)]
  · rw [if_neg (by simp only [BitVec.slt, h1, StableHlo.Predicate.toInt_ofNat_small n hn, decide_eq_true_eq]; omega),
      Nat.max_eq_right (by omega)]

/-- A small count's word converts to the count, exactly. -/
theorem sitofp_ofNat (n : ℕ) (hn : n < 2 ^ 31) :
    FloatOps.sitofp (F := Ideal) .f32 (BitVec.ofNat 32 n) = ((n : ℕ) : EReal) := by
  show (((BitVec.ofNat 32 n).toInt : ℝ) : EReal) = _
  rw [StableHlo.Predicate.toInt_ofNat_small n hn, Int.cast_natCast]
  rfl

/-- A small count's word is at least the word one, signed, exactly when the count is at least one. -/
theorem sge_one_iff (n : ℕ) (hn : n < 2 ^ 31) : IntOp.cmpi .sge (BitVec.ofNat 32 n) 1#32 = 1#1 ↔ 1 ≤ n := by
  rw [IntOp.cmpi_sge, StableHlo.Predicate.toInt_ofNat_small n hn]
  have h1 : (1#32 : BitVec 32).toInt = 1 := by decide
  rw [h1]; omega

/-- A number of indices among 8192 is far below the signed words' range. -/
theorem cntOf_lt (P : Fin 8192 → Prop) : Spec.cntOf P < 2 ^ 31 := by
  unfold Spec.cntOf
  have h := Finset.card_filter_le (Finset.univ : Finset (Fin 8192)) P
  rw [Finset.card_univ, Fintype.card_fin] at h
  omega
theorem max_one_lt {n : ℕ} (h : n < 2 ^ 31) : max n 1 < 2 ^ 31 := max_lt h (by norm_num)
theorem pcntN_lt (X : Spec.Mat) (t : Spec.Lab) (r : Fin 8192) : Spec.pcntN X t r < 2 ^ 31 := cntOf_lt _
theorem ncntN_lt (X : Spec.Mat) (t : Spec.Lab) (r : Fin 8192) : Spec.ncntN X t r < 2 ^ 31 := cntOf_lt _

/-- The literal words the program prints are the specification's named extended reals. -/
theorem cst_one : FloatOps.ofBits (F := Ideal) .f32 0x3F800000#32 = Spec.one := rfl
theorem cst_tenth : FloatOps.ofBits (F := Ideal) .f32 0x3DCCCCCD#32 = Spec.tenth := rfl
theorem cst_pinf : FloatOps.ofBits (F := Ideal) .f32 0x7F800000#32 = Spec.pinf := rfl
theorem cst_ninf : FloatOps.ofBits (F := Ideal) .f32 0xFF800000#32 = Spec.ninf := rfl
theorem cst_zero : FloatOps.ofBits (F := Ideal) .f32 0x00000000#32 = Spec.zero := rfl
theorem cst_n8192 : FloatOps.ofBits (F := Ideal) .f32 0x46000000#32 = Spec.n8192 := rfl

/-! ## Reductions: along a row of the square array, and of a vector to a scalar -/

section Reduce
variable {α : Type}

/-- A reduce along the columns, at row `r`: the fold over the row's entries, in any order. -/
theorem reduce_row (f : α → α → α) [Std.Commutative f] [Std.Associative f]
    (x : S8192x8192.Idx → α) (init : S_.Idx → α) (r : Fin 8192) :
    Host.reduce f x init reducesTo_S8192x8192_S8192_d1 h_S_ (ix1 r)
      = (Finset.univ : Finset (Fin 8192)).fold f (init ix0) (fun c => x (ix2 r c)) := by
  rw [Host.reduce_eq_fold_single f x init reducesTo_S8192x8192_S8192_d1 (by decide) h_S_ (ix1 r),
    eq_ix0 (Shape.Idx.first h_S_)]
  exact Finset.fold_congr (fun c _ => congrArg x (funext fun a => Fin.ext (by match a with | ⟨0, _⟩ => rfl | ⟨1, _⟩ => rfl)))

/-- A reduce of a vector to a scalar: every entry reduces to the one result, so it is the fold over all of them. -/
theorem reduce_all (f : α → α → α) [Std.Commutative f] [Std.Associative f]
    (x : S8192.Idx → α) (init : S_.Idx → α) :
    Host.reduce f x init reducesTo_S8192_S_d0 h_S_ ix0
      = (Finset.univ : Finset (Fin 8192)).fold f (init ix0) (fun c => x (ix1 c)) := by
  rw [Host.reduce_eq_fold, eq_ix0 (Shape.Idx.first h_S_),
    Finset.filter_true_of_mem (fun i _ => funext fun b => b.elim0),
    ← Finset.map_univ_equiv (idxEquiv1 (n := 8192)).symm, Finset.fold_map]
  rfl

end Reduce

/-- The integer sum of a row of widened 0/1 words is the number of ones, as a word: at most 8192, it does not wrap. -/
theorem count_row (x : S8192x8192.Idx → BitVec 32) (init : S_.Idx → BitVec 32) (r : Fin 8192)
    (p : Fin 8192 → BitVec 1) (P : Fin 8192 → Prop)
    (hinit : init ix0 = 0#32) (hx : ∀ c, x (ix2 r c) = (p c).setWidth 32) (hP : ∀ c, p c = 1#1 ↔ P c) :
    Host.reduce IntOp.addi x init reducesTo_S8192x8192_S8192_d1 h_S_ (ix1 r) = BitVec.ofNat 32 (Spec.cntOf P) := by
  rw [reduce_row, hinit, show (fun c => x (ix2 r c)) = fun c => (p c).setWidth 32 from funext hx,
    IndicatorCount.fold_addi_setWidth_eq_card]
  exact congrArg (fun s : Finset (Fin 8192) => BitVec.ofNat 32 s.card) (Finset.filter_congr (fun c _ => hP c))

/-- The same of a whole vector of widened 0/1 words. -/
theorem count_all (x : S8192.Idx → BitVec 32) (init : S_.Idx → BitVec 32)
    (p : Fin 8192 → BitVec 1) (P : Fin 8192 → Prop)
    (hinit : init ix0 = 0#32) (hx : ∀ c, x (ix1 c) = (p c).setWidth 32) (hP : ∀ c, p c = 1#1 ↔ P c) :
    Host.reduce IntOp.addi x init reducesTo_S8192_S_d0 h_S_ ix0 = BitVec.ofNat 32 (Spec.cntOf P) := by
  rw [reduce_all, hinit, show (fun c => x (ix1 c)) = fun c => (p c).setWidth 32 from funext hx,
    IndicatorCount.fold_addi_setWidth_eq_card]
  exact congrArg (fun s : Finset (Fin 8192) => BitVec.ofNat 32 s.card) (Finset.filter_congr (fun c _ => hP c))

/-- A sum over a vector's indices is the sum over its coordinate. -/
theorem sum_idx1 {M : Type} [AddCommMonoid M] (f : S8192.Idx → M) : ∑ j, f j = ∑ c : Fin 8192, f (ix1 c) :=
  (Equiv.sum_comp (idxEquiv1 (n := 8192)).symm f).symm

/-! ## The generated index functions at coordinates -/

theorem lidx_v1 (r c : Fin 8192) (k : Fin 512) : lidx_main_v1 (ix2 r c) k = ix2 r k :=
  funext fun a => Fin.ext (by match a with | ⟨0, _⟩ => rfl | ⟨1, _⟩ => rfl)
theorem ridx_v1 (r c : Fin 8192) (k : Fin 512) : idx_main_v0 (ridx_main_v1 (ix2 r c) k) = ix2 c k :=
  funext fun a => Fin.ext (by match a with | ⟨0, _⟩ => rfl | ⟨1, _⟩ => rfl)
theorem idx_2_4 (r c : Fin 8192) : idx_main_v2 (idx_main_v4 (ix2 r c)) = ix1 r :=
  funext fun a => Fin.ext (by match a with | ⟨0, _⟩ => rfl)
theorem idx_3_5 (r c : Fin 8192) : idx_main_v3 (idx_main_v5 (ix2 r c)) = ix1 c :=
  funext fun a => Fin.ext (by match a with | ⟨0, _⟩ => rfl)
theorem idx_17_18 (r c : Fin 8192) : idx_main_v17 (idx_main_v18 (ix2 r c)) = ix1 r :=
  funext fun a => Fin.ext (by match a with | ⟨0, _⟩ => rfl)
theorem idx_23_24 (r c : Fin 8192) : idx_main_v23 (idx_main_v24 (ix2 r c)) = ix1 r :=
  funext fun a => Fin.ext (by match a with | ⟨0, _⟩ => rfl)
theorem idx_34 (r c : Fin 8192) : idx_main_v34 (ix1 r) c = ix2 r c :=
  funext fun a => Fin.ext (by match a with | ⟨0, _⟩ => rfl | ⟨1, _⟩ => rfl)
theorem idx_40 (r c : Fin 8192) : idx_main_v40 (ix1 r) c = ix2 r c :=
  funext fun a => Fin.ext (by match a with | ⟨0, _⟩ => rfl | ⟨1, _⟩ => rfl)
/-- The slice of the last row, reshaped to a vector, reads the square array at the last row. -/
theorem idx_56_57 (c : Fin 8192) : idx_main_v56 (idx_main_v57 (ix1 c)) = ix2 Spec.last c :=
  funext fun a => Fin.ext (by
    match a with
    | ⟨0, _⟩ => rfl
    | ⟨1, _⟩ => exact Nat.mod_eq_of_lt c.isLt)
theorem idx_58_59 (c : Fin 8192) : idx_main_v58 (idx_main_v59 (ix1 c)) = ix2 Spec.last c :=
  funext fun a => Fin.ext (by
    match a with
    | ⟨0, _⟩ => rfl
    | ⟨1, _⟩ => exact Nat.mod_eq_of_lt c.isLt)
theorem idx_60_61 (c : Fin 8192) : idx_main_v60 (idx_main_v61 (ix1 c)) = ix2 Spec.last c :=
  funext fun a => Fin.ext (by
    match a with
    | ⟨0, _⟩ => rfl
    | ⟨1, _⟩ => exact Nat.mod_eq_of_lt c.isLt)
theorem idx_69_70 (c : Fin 8192) : idx_main_v69 (idx_main_v70 (ix1 c)) = ix2 Spec.last c :=
  funext fun a => Fin.ext (by
    match a with
    | ⟨0, _⟩ => rfl
    | ⟨1, _⟩ => exact Nat.mod_eq_of_lt c.isLt)

section
variable (x0 : (⟨S8192x512, .f32⟩ : BufTy).Contents (Elt Ideal)) (x1 : (⟨S8192, .i32⟩ : BufTy).Contents (Elt Ideal))
  (X : Cert.Spec.Mat) (t : Cert.Spec.Lab)
  (hX : ∀ (r : Fin 8192) (k : Fin 512), x0 (ix2 r k) = X r k) (ht : ∀ r : Fin 8192, x1 (ix1 r) = t r)

include hX ht

/-! ## The shared stages: similarities, labels, masks -/

/-- The contraction of the argument with its transpose is the similarity of two rows. -/
theorem v1_at (r c : Fin 8192) : val_main_v1 (F := Ideal) x0 (ix2 r c) = Spec.sim X r c := by
  rw [val_main_v1_apply]
  unfold Spec.sim
  refine Finset.sum_congr rfl fun k _ => ?_
  rw [val_main_v0_apply, lidx_v1, ridx_v1, hX, hX]

/-- The label vector broadcast along the rows and along the columns. -/
theorem v4_at (r c : Fin 8192) : val_main_v4 (F := Ideal) x1 (ix2 r c) = t r := by
  rw [val_main_v4_apply, val_main_v2_apply, idx_2_4, ht]
theorem v5_at (r c : Fin 8192) : val_main_v5 (F := Ideal) x1 (ix2 r c) = t c := by
  rw [val_main_v5_apply, val_main_v3_apply, idx_3_5, ht]

/-- The masks: same label; below one; positive; different label. -/
theorem v6_iff (r c : Fin 8192) : val_main_v6 (F := Ideal) x1 (ix2 r c) = 1#1 ↔ Spec.same t r c := by
  unfold Spec.same
  rw [val_main_v6_apply, IntOp.cmpi_eq, v4_at x0 x1 X t hX ht, v5_at x0 x1 X t hX ht]
theorem v8_iff (r c : Fin 8192) : val_main_v8 (F := Ideal) x0 (ix2 r c) = 1#1 ↔ Spec.sim X r c < Spec.one := by
  rw [val_main_v8_apply, v1_at x0 x1 X t hX ht, val_main_v7_apply, val_main_cst_apply, cst_one]
  exact cmpf_olt_iff _ _
theorem v9_iff (r c : Fin 8192) : val_main_v9 (F := Ideal) x0 x1 (ix2 r c) = 1#1 ↔ Spec.posm X t r c := by
  unfold Spec.posm
  rw [val_main_v9_apply, IntOp.andi_eq_one, v6_iff x0 x1 X t hX ht, v8_iff x0 x1 X t hX ht]
theorem v10_iff (r c : Fin 8192) : val_main_v10 (F := Ideal) x1 (ix2 r c) = 1#1 ↔ ¬ Spec.same t r c := by
  rw [val_main_v10_apply, IntOp.not_eq_one, v6_iff x0 x1 X t hX ht]

/-! ## The row thresholds -/

theorem v11_at (r c : Fin 8192) :
    val_main_v11 (F := Ideal) x0 x1 (ix2 r c) = if Spec.posm X t r c then Spec.sim X r c else Spec.pinf := by
  rw [val_main_v11_apply, select_of_iff (v9_iff x0 x1 X t hX ht r c), v1_at x0 x1 X t hX ht, val_main_call0_v1_apply,
    val_main_call0_v0_apply, val_main_cst_0_apply, cst_pinf]
theorem v13_at (r c : Fin 8192) :
    val_main_v13 (F := Ideal) x0 x1 (ix2 r c) = if Spec.same t r c then Spec.ninf else Spec.sim X r c := by
  rw [val_main_v13_apply, select_of_iff (v10_iff x0 x1 X t hX ht r c), v1_at x0 x1 X t hX ht, val_main_call1_v1_apply,
    val_main_call1_v0_apply, val_main_cst_2_apply, cst_ninf, ite_not]

/-- The least similarity over the row's positive entries, the greatest over its different-label entries. -/
theorem v12_at (r : Fin 8192) : val_main_v12 (F := Ideal) x0 x1 (ix1 r) = Spec.minpos X t r := by
  unfold val_main_v12 Spec.minpos
  rw [reduce_row, val_main_cst_1_apply, cst_pinf,
    show (fun c => val_main_v11 (F := Ideal) x0 x1 (ix2 r c)) = (fun c => if Spec.posm X t r c then Spec.sim X r c else Spec.pinf)
      from funext fun c => v11_at x0 x1 X t hX ht r c]
  rfl
theorem v14_at (r : Fin 8192) : val_main_v14 (F := Ideal) x0 x1 (ix1 r) = Spec.maxneg X t r := by
  unfold val_main_v14 Spec.maxneg
  rw [reduce_row, val_main_cst_3_apply, cst_ninf,
    show (fun c => val_main_v13 (F := Ideal) x0 x1 (ix2 r c)) = (fun c => if Spec.same t r c then Spec.ninf else Spec.sim X r c)
      from funext fun c => v13_at x0 x1 X t hX ht r c]
  rfl

/-! ## The kept entries and their counts -/

theorem v18_at (r c : Fin 8192) : val_main_v18 (F := Ideal) x0 x1 (ix2 r c) = Spec.minpos X t r - Spec.tenth := by
  rw [val_main_v18_apply, val_main_v17_apply, idx_17_18, val_main_v16_apply, v12_at x0 x1 X t hX ht, val_main_v15_apply,
    val_main_cst_4_apply, cst_tenth, Ideal.subf_def]
theorem v24_at (r c : Fin 8192) : val_main_v24 (F := Ideal) x0 x1 (ix2 r c) = Spec.maxneg X t r + Spec.tenth := by
  rw [val_main_v24_apply, val_main_v23_apply, idx_23_24, val_main_v22_apply, v14_at x0 x1 X t hX ht, val_main_v21_apply,
    val_main_cst_5_apply, cst_tenth, Ideal.addf_def]

/-- A kept different-label entry; a kept positive entry. -/
theorem v20_iff (r c : Fin 8192) : val_main_v20 (F := Ideal) x0 x1 (ix2 r c) = 1#1 ↔ Spec.negk X t r c := by
  unfold Spec.negk
  rw [val_main_v20_apply, IntOp.andi_eq_one, v10_iff x0 x1 X t hX ht, val_main_v19_apply, v1_at x0 x1 X t hX ht,
    v18_at x0 x1 X t hX ht, cmpf_ogt_iff]
theorem v26_iff (r c : Fin 8192) : val_main_v26 (F := Ideal) x0 x1 (ix2 r c) = 1#1 ↔ Spec.posk X t r c := by
  unfold Spec.posk
  rw [val_main_v26_apply, IntOp.andi_eq_one, v9_iff x0 x1 X t hX ht, val_main_v25_apply, v1_at x0 x1 X t hX ht,
    v24_at x0 x1 X t hX ht, cmpf_olt_iff]

/-- The integer sums of the two keep masks are the numbers of kept entries. -/
theorem v28_at (r : Fin 8192) : val_main_v28 (F := Ideal) x0 x1 (ix1 r) = BitVec.ofNat 32 (Spec.pcntN X t r) := by
  unfold val_main_v28 Spec.pcntN
  exact count_row _ _ r (fun c => val_main_v26 (F := Ideal) x0 x1 (ix2 r c)) _ (val_main_c_apply _)
    (fun c => val_main_v27_apply x0 x1 (ix2 r c)) (fun c => v26_iff x0 x1 X t hX ht r c)
theorem v30_at (r : Fin 8192) : val_main_v30 (F := Ideal) x0 x1 (ix1 r) = BitVec.ofNat 32 (Spec.ncntN X t r) := by
  unfold val_main_v30 Spec.ncntN
  exact count_row _ _ r (fun c => val_main_v20 (F := Ideal) x0 x1 (ix2 r c)) _ (val_main_c_6_apply _)
    (fun c => val_main_v29_apply x0 x1 (ix2 r c)) (fun c => v20_iff x0 x1 X t hX ht r c)

/-! ## The two row means -/

theorem v33_at (r c : Fin 8192) :
    val_main_v33 (F := Ideal) x0 x1 (ix2 r c) = if Spec.posk X t r c then Spec.one - Spec.sim X r c else Spec.zero := by
  rw [val_main_v33_apply, select_of_iff (v26_iff x0 x1 X t hX ht r c), val_main_v32_apply, val_main_v31_apply,
    val_main_cst_7_apply, cst_one, v1_at x0 x1 X t hX ht, Ideal.subf_def, val_main_call2_v1_apply, val_main_call2_v0_apply,
    val_main_cst_8_apply, cst_zero]
theorem v39_at (r c : Fin 8192) :
    val_main_v39 (F := Ideal) x0 x1 (ix2 r c) = if Spec.negk X t r c then Spec.sim X r c else Spec.zero := by
  rw [val_main_v39_apply, select_of_iff (v20_iff x0 x1 X t hX ht r c), v1_at x0 x1 X t hX ht, val_main_call3_v1_apply,
    val_main_call3_v0_apply, val_main_cst_11_apply, cst_zero]

theorem v38_at (r : Fin 8192) : val_main_v38 (F := Ideal) x0 x1 (ix1 r) = Spec.plossR X t r := by
  unfold Spec.plossR
  rw [val_main_v38_apply, val_main_v34_apply, val_main_cst_9_apply, cst_zero,
    Finset.sum_congr rfl (fun c _ => (congrArg (val_main_v33 (F := Ideal) x0 x1) (idx_34 r c)).trans (v33_at x0 x1 X t hX ht r c)),
    val_main_v37_apply, val_main_v36_apply, v28_at x0 x1 X t hX ht, val_main_v35_apply, val_main_c_10_apply,
    maxsi_ofNat_one _ (pcntN_lt X t r), sitofp_ofNat _ (max_one_lt (pcntN_lt X t r)), Ideal.hostDivf_def]
theorem v44_at (r : Fin 8192) : val_main_v44 (F := Ideal) x0 x1 (ix1 r) = Spec.nlossR X t r := by
  unfold Spec.nlossR
  rw [val_main_v44_apply, val_main_v40_apply, val_main_cst_12_apply, cst_zero,
    Finset.sum_congr rfl (fun c _ => (congrArg (val_main_v39 (F := Ideal) x0 x1) (idx_40 r c)).trans (v39_at x0 x1 X t hX ht r c)),
    val_main_v43_apply, val_main_v42_apply, v30_at x0 x1 X t hX ht, val_main_v41_apply, val_main_c_13_apply,
    maxsi_ofNat_one _ (ncntN_lt X t r), sitofp_ofNat _ (max_one_lt (ncntN_lt X t r)), Ideal.hostDivf_def]

/-- A row has a kept different-label entry. -/
theorem v46_iff (r : Fin 8192) : val_main_v46 (F := Ideal) x0 x1 (ix1 r) = 1#1 ↔ 1 ≤ Spec.ncntN X t r := by
  rw [val_main_v46_apply, v30_at x0 x1 X t hX ht, val_main_v45_apply, val_main_c_14_apply]
  exact sge_one_iff _ (ncntN_lt X t r)
theorem v48_at (r : Fin 8192) :
    val_main_v48 (F := Ideal) x0 x1 (ix1 r)
      = if 1 ≤ Spec.ncntN X t r then Spec.plossR X t r + Spec.nlossR X t r else Spec.zero := by
  rw [val_main_v48_apply, select_of_iff (v46_iff x0 x1 X t hX ht r), val_main_v47_apply, v38_at x0 x1 X t hX ht,
    v44_at x0 x1 X t hX ht, Ideal.addf_def, val_main_call4_v1_apply, val_main_call4_v0_apply, val_main_cst_15_apply, cst_zero]

/-! ## The last row -/

theorem v57_iff (c : Fin 8192) : val_main_v57 (F := Ideal) x0 x1 (ix1 c) = 1#1 ↔ Spec.posm X t Spec.last c := by
  rw [val_main_v57_apply, val_main_v56_apply, idx_56_57, v9_iff x0 x1 X t hX ht]
theorem v59_iff (c : Fin 8192) : val_main_v59 (F := Ideal) x1 (ix1 c) = 1#1 ↔ ¬ Spec.same t Spec.last c := by
  rw [val_main_v59_apply, val_main_v58_apply, idx_58_59, v10_iff x0 x1 X t hX ht]
theorem v61_at (c : Fin 8192) : val_main_v61 (F := Ideal) x0 (ix1 c) = Spec.sim X Spec.last c := by
  rw [val_main_v61_apply, val_main_v60_apply, idx_60_61, v1_at x0 x1 X t hX ht]
theorem v70_at (c : Fin 8192) : val_main_v70 (F := Ideal) x0 (ix1 c) = Spec.sim X Spec.last c := by
  rw [val_main_v70_apply, val_main_v69_apply, idx_69_70, v1_at x0 x1 X t hX ht]
theorem v62_at (c : Fin 8192) :
    val_main_v62 (F := Ideal) x0 x1 (ix1 c) = if Spec.posm X t Spec.last c then Spec.sim X Spec.last c else Spec.zero := by
  rw [val_main_v62_apply, select_of_iff (v57_iff x0 x1 X t hX ht c), v61_at x0 x1 X t hX ht, val_main_call5_v1_apply,
    val_main_call5_v0_apply, val_main_cst_20_apply, cst_zero]
theorem v71_at (c : Fin 8192) :
    val_main_v71 (F := Ideal) x0 x1 (ix1 c) = if ¬ Spec.same t Spec.last c then Spec.sim X Spec.last c else Spec.zero := by
  rw [val_main_v71_apply, select_of_iff (v59_iff x0 x1 X t hX ht c), v70_at x0 x1 X t hX ht, val_main_call6_v1_apply,
    val_main_call6_v0_apply, val_main_cst_24_apply, cst_zero]

/-! ## The scalar counts -/

theorem v51_iff (r : Fin 8192) : val_main_v51 (F := Ideal) x0 x1 (ix1 r) = 1#1 ↔ ¬ 1 ≤ Spec.ncntN X t r := by
  rw [val_main_v51_apply, IntOp.not_eq_one, v46_iff x0 x1 X t hX ht]
theorem v53_at :
    val_main_v53 (F := Ideal) x0 x1 ix0 = BitVec.ofNat 32 (Spec.cntOf fun r => ¬ 1 ≤ Spec.ncntN X t r) := by
  unfold val_main_v53
  exact count_all _ _ (fun r => val_main_v51 (F := Ideal) x0 x1 (ix1 r)) _ (val_main_c_18_apply _)
    (fun r => val_main_v52_apply x0 x1 (ix1 r)) (fun r => v51_iff x0 x1 X t hX ht r)
theorem v65_at : val_main_v65 (F := Ideal) x0 x1 ix0 = BitVec.ofNat 32 (Spec.cntOf (Spec.posm X t Spec.last)) := by
  unfold val_main_v65
  exact count_all _ _ (fun c => val_main_v57 (F := Ideal) x0 x1 (ix1 c)) _ (val_main_c_22_apply _)
    (fun c => val_main_v64_apply x0 x1 (ix1 c)) (fun c => v57_iff x0 x1 X t hX ht c)
theorem v74_at : val_main_v74 (F := Ideal) x1 ix0 = BitVec.ofNat 32 (Spec.cntOf fun c => ¬ Spec.same t Spec.last c) := by
  unfold val_main_v74
  exact count_all _ _ (fun c => val_main_v59 (F := Ideal) x1 (ix1 c)) _ (val_main_c_26_apply _)
    (fun c => val_main_v73_apply x1 (ix1 c)) (fun c => v59_iff x0 x1 X t hX ht c)

/-! ## The four results -/

/-- The first result: the mean over rows with a kept different-label entry. -/
theorem val_main_v50_spec : Cert.ReferenceIdeal.Read.val_main_v50 (F := Ideal) x0 x1 ix0 = Cert.Spec.lossR X t := by
  unfold Spec.lossR
  rw [val_main_v50_apply, val_main_v49_apply, val_main_cst_16_apply, cst_zero, sum_idx1,
    Finset.sum_congr rfl (fun r _ => v48_at x0 x1 X t hX ht r), val_main_cst_17_apply, cst_n8192, Ideal.hostDivf_def]

/-- The second result: the share of rows without a kept different-label entry. -/
theorem val_main_v55_spec : Cert.ReferenceIdeal.Read.val_main_v55 (F := Ideal) x0 x1 ix0 = Cert.Spec.precR X t := by
  unfold Spec.precR
  rw [val_main_v55_apply, val_main_v54_apply, v53_at x0 x1 X t hX ht, sitofp_ofNat _ (cntOf_lt _), val_main_cst_19_apply,
    cst_n8192, Ideal.hostDivf_def]

/-- The third and fourth results: the last row's two means. -/
theorem val_main_v68_spec : Cert.ReferenceIdeal.Read.val_main_v68 (F := Ideal) x0 x1 ix0 = Cert.Spec.mposR X t := by
  unfold Spec.mposR
  rw [val_main_v68_apply, val_main_v63_apply, val_main_cst_21_apply, cst_zero, sum_idx1,
    Finset.sum_congr rfl (fun c _ => v62_at x0 x1 X t hX ht c), val_main_v67_apply, val_main_v66_apply,
    v65_at x0 x1 X t hX ht, val_main_c_23_apply, maxsi_ofNat_one _ (cntOf_lt _), sitofp_ofNat _ (max_one_lt (cntOf_lt _)),
    Ideal.hostDivf_def]
theorem val_main_v77_spec : Cert.ReferenceIdeal.Read.val_main_v77 (F := Ideal) x0 x1 ix0 = Cert.Spec.mnegR X t := by
  unfold Spec.mnegR
  rw [val_main_v77_apply, val_main_v72_apply, val_main_cst_25_apply, cst_zero, sum_idx1,
    Finset.sum_congr rfl (fun c _ => v71_at x0 x1 X t hX ht c), val_main_v76_apply, val_main_v75_apply,
    v74_at x0 x1 X t hX ht, val_main_c_27_apply, maxsi_ofNat_one _ (cntOf_lt _), sitofp_ofNat _ (max_one_lt (cntOf_lt _)),
    Ideal.hostDivf_def]

end

end Cert.ReferenceIdeal.RefValue

end
-- ==== Proof.SpecBridge.lean ====
/-
  The kernel's shape and the reference's shape of the four scalars are one, on a matrix of finite entries.

  With every entry a real number every similarity is a real number, so in a row the sum over the kept positive
  entries of `one - sim` is the number of those entries less the sum of their similarities, and that difference
  may be taken chunk by chunk; a count of entries read as an extended real is the sum of ones over them; a count is
  at least one exactly when its extended real is at least the word for one, and the larger of a count and one is
  the same on both readings. The words for zero and one denote zero and one.
-/
import proofs.«422922_j45569603010928_3_alg».proof.Proof.Spec

noncomputable section

open scoped Classical

namespace Cert.Spec

open Idealize.ShloMosaic

/-- Every entry is a real number. -/
def Finite (X : Mat) : Prop := ∀ r k, ∃ a : ℝ, X r k = (a : EReal)

/-! ## The ingredients -/

namespace Bridge

/-- The word for zero denotes zero. -/
theorem zero_eq : zero = 0 := by
  unfold zero; simp [Ideal.ofBits, Ideal.ieee]

/-- The word for one denotes one. -/
theorem one_eq : one = 1 := by
  unfold one; simp [Ideal.ofBits, Ideal.ieee, -EReal.coe_mul]; norm_num

theorem zero_add' (x : EReal) : zero + x = x := by rw [zero_eq, zero_add]

/-- A finite sum of reals, read as an extended real, is the sum of the extended reals. -/
theorem coe_sum {ι : Type*} (s : Finset ι) (f : ι → ℝ) :
    ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- On a matrix of real entries every similarity is a real number. -/
theorem sim_real {X : Mat} (hX : Finite X) (r c : Fin 8192) : ∃ s : ℝ, sim X r c = (s : EReal) := by
  choose A hA using hX
  refine ⟨∑ k, A r k * A c k, ?_⟩
  unfold sim
  rw [coe_sum]
  refine Finset.sum_congr rfl fun k _ => ?_
  rw [hA, hA, EReal.coe_mul]

/-- A count read as an extended real is the sum of ones over the counted indices. -/
theorem natCast_card_filter {ι : Type*} (s : Finset ι) (p : ι → Prop) [DecidablePred p] :
    (((s.filter p).card : ℕ) : EReal) = ∑ i ∈ s, if p i then (1 : EReal) else 0 := by
  rw [Finset.sum_ite, Finset.sum_const_zero, add_zero, Finset.sum_const, nsmul_one]

/-- A count is at least one exactly when its extended real is at least the word for one. -/
theorem one_le_natCast (n : ℕ) : one ≤ (n : EReal) ↔ 1 ≤ n := by
  rw [one_eq, ← Nat.cast_one, EReal.natCast_le_iff]

/-- The larger of a count and one is the same on both readings. -/
theorem max_natCast_one (n : ℕ) : max (n : EReal) one = ((max n 1 : ℕ) : EReal) := by
  rw [one_eq, ← Nat.cast_one, ← Nat.mono_cast.map_max]

/-- The sixteen chunks of 512 columns exhaust the 8192 columns, each once. -/
theorem sum_col {M : Type*} [AddCommMonoid M] (g : Fin 8192 → M) :
    ∑ c, g c = ∑ j : Fin 16, ∑ c' : Fin 512, g (col j c') := by
  rw [← Fintype.sum_prod_type']
  symm
  refine Fintype.sum_bijective (fun p : Fin 16 × Fin 512 => col p.1 p.2) ⟨?_, ?_⟩ _ _ (fun _ => rfl)
  · rintro ⟨a, b⟩ ⟨a', b'⟩ h
    have h' : 512 * a.val + b.val = 512 * a'.val + b'.val := congrArg Fin.val h
    have := b.isLt
    have := b'.isLt
    have h1 : a.val = a'.val := by omega
    have h2 : b.val = b'.val := by omega
    exact Prod.ext (Fin.ext h1) (Fin.ext h2)
  · intro c
    refine ⟨(⟨c.val / 512, by have := c.isLt; omega⟩, ⟨c.val % 512, Nat.mod_lt _ (by norm_num)⟩), ?_⟩
    apply Fin.ext
    show 512 * (c.val / 512) + c.val % 512 = c.val
    omega

/-- With real values, the count of the chosen indices less the sum of their values is the sum over them of one
    less the value: both are the real number `∑ (1 - f i)` over the chosen indices. -/
theorem card_sub_sum {ι : Type*} (s : Finset ι) (p : ι → Prop) [DecidablePred p] (f : ι → ℝ) :
    (((s.filter p).card : ℕ) : EReal) - ∑ i ∈ s, (if p i then (f i : EReal) else 0)
      = ∑ i ∈ s, if p i then (1 : EReal) - (f i : EReal) else 0 := by
  have h1 : ∀ i, (if p i then (f i : EReal) else 0) = ((if p i then f i else 0 : ℝ) : EReal) := by
    intro i; split_ifs <;> simp
  have h2 : ∀ i, (if p i then (1 : EReal) - (f i : EReal) else 0) = ((if p i then 1 - f i else 0 : ℝ) : EReal) := by
    intro i; split_ifs <;> simp
  simp_rw [h1, h2, ← coe_sum]
  rw [← EReal.coe_natCast, ← EReal.coe_sub, EReal.coe_eq_coe_iff]
  simp only [Finset.sum_ite, Finset.sum_const_zero, add_zero, Finset.sum_sub_distrib, Finset.sum_const, nsmul_one]

/-- In a row of a matrix of real entries, the per-chunk counts less the per-chunk sums add up to the sum over the
    whole row of one less the similarity over the kept positive entries. -/
theorem row_chunks (X : Mat) (t : Lab) (hX : Finite X) (r : Fin 8192) :
    ∑ j : Fin 16, chunkK X t r j = ∑ c, if posk X t r c then one - sim X r c else zero := by
  choose s hs using sim_real hX r
  rw [sum_col (fun c => if posk X t r c then one - sim X r c else zero)]
  refine Finset.sum_congr rfl fun j _ => ?_
  unfold chunkK cntOf
  simp only [hs, zero_eq, one_eq]
  exact card_sub_sum Finset.univ (fun c' => posk X t r (col j c')) (fun c' => s (col j c'))

/-- The larger of the sum of ones over the counted indices and the word for one is the larger of the count and
    one. -/
theorem max_sum_ones {n : ℕ} (p : Fin n → Prop) [DecidablePred p] :
    max (zero + ∑ c, if p c then (1 : EReal) else 0) one = ((max (cntOf p) 1 : ℕ) : EReal) := by
  rw [zero_add', ← natCast_card_filter, max_natCast_one]
  unfold cntOf
  congr

end Bridge

open Bridge

/-! ## The four scalars -/

/-- The first scalar: from the kernel's packed per-row columns, and the reference's. -/
theorem lossK_rowK (X : Mat) (t : Lab) (hX : Finite X) : lossK (rowK X t) = lossR X t := by
  unfold lossK lossR
  congr 2
  refine Finset.sum_congr rfl fun r _ => ?_
  have h0 : rowK X t r 0 = (pcntN X t r : EReal) := rfl
  have h1 : rowK X t r 1 = (ncntN X t r : EReal) := rfl
  have h2 : rowK X t r 2 = ∑ j : Fin 16, chunkK X t r j := rfl
  have h3 : rowK X t r 3 = ∑ c, (if negk X t r c then sim X r c else zero) := rfl
  rw [h0, h1, h2, h3, max_natCast_one, max_natCast_one]
  by_cases hn : 1 ≤ ncntN X t r
  · rw [if_pos ((one_le_natCast _).2 hn), if_pos hn]
    unfold plossR nlossR
    rw [row_chunks X t hX r, zero_add', zero_add']
  · rw [if_neg (fun h => hn ((one_le_natCast _).1 h)), if_neg hn]

/-- The second scalar. -/
theorem precK_rowK (X : Mat) (t : Lab) (hX : Finite X) : precK (rowK X t) = precR X t := by
  have _ := hX
  unfold precK precR
  have h : (fun r => ¬ one ≤ rowK X t r 1) = (fun r => ¬ 1 ≤ ncntN X t r) := by
    funext r
    have h1 : rowK X t r 1 = (ncntN X t r : EReal) := rfl
    rw [h1, one_le_natCast]
  rw [h]

/-- The last row's two means. -/
theorem mposK_eq (X : Mat) (t : Lab) (hX : Finite X) : mposK X t = mposR X t := by
  have _ := hX
  unfold mposK mposR
  congr 1
  exact max_sum_ones _
theorem mnegK_eq (X : Mat) (t : Lab) (hX : Finite X) : mnegK X t = mnegR X t := by
  have _ := hX
  unfold mnegK mnegR
  congr 1
  exact max_sum_ones _

end Cert.Spec

end
-- ==== Proof.Finite.lean ====
/-
  The precondition says every entry of the matrix is a real number.

  The printed predicate is the conjunction, over all 8192 x 512 entries, of "the absolute value is below the word
  for infinity"; that word denotes the top of the extended reals, and an extended real whose absolute value is below
  the top is neither infinity, so it is a real number.
-/
import proofs.«422922_j45569603010928_3_alg».proof.Pre_finite_inputs
import proofs.«422922_j45569603010928_3_alg».proof.Proof.Gen.Pre_finite_inputs
import Idealize.ShloMosaic.PureOps.Ideal
import Idealize.ShloMosaic.Lib.ValueIdx
import Idealize.ShloMosaic.Lib.ReduceAll

noncomputable section

namespace Cert.FiniteIn

open Idealize.ShloMosaic Idealize.ShloMosaic.ValueIdx

/-- A one-bit word made from a Boolean is one exactly when the Boolean is true. -/
private theorem ofBool_eq_one (b : Bool) : BitVec.ofBool b = 1#1 ↔ b = true := by cases b <;> decide

/-- The word `0x7F800000` (sign 0, exponent all ones, fraction 0) denotes the top of the extended reals. -/
theorem inf_word_eq_top : Ideal.ofBits .f32 0x7F800000#32 = (⊤ : EReal) := by
  simp [Ideal.ofBits, Ideal.ieee]

/-- The ordered comparison "less than" answers one exactly when the strict inequality holds. -/
theorem cmp_olt_eq_one (u v : EReal) : Ideal.cmp .olt u v = 1#1 ↔ u < v := by
  simp only [Ideal.cmp, ofBool_eq_one, decide_eq_true_eq]

/-- An extended real whose absolute value `max v (-v)` is below the top is a real number: the bottom has `-⊥ = ⊤`
    and the top is itself, so both infinities have absolute value top. -/
theorem real_of_abs_lt_top (v : EReal) (hv : max v (-v) < ⊤) : ∃ a : ℝ, v = (a : EReal) := by
  induction v using EReal.rec with
  | bot => simp at hv
  | coe a => exact ⟨a, rfl⟩
  | top => simp at hv

/-- If the printed precondition is all ones, every entry of the first argument is a real number. -/
theorem real_of_pre (x : FVec Ideal Cert.Pre_finite_inputs.S8192x512 .f32) (y : IVec Cert.Pre_finite_inputs.S8192 32)
    (h : Cert.Pre_finite_inputs.fn (F := Ideal) x y = fun _ => 1#1) :
    ∀ (r : Fin 8192) (k : Fin 512), ∃ a : ℝ, x (ix2 r k) = (a : EReal) := by
  intro r k
  -- the rank-0 result shape has exactly one index
  haveI : Subsingleton Cert.Pre_finite_inputs.S_.Idx := ⟨fun a b => funext fun d => d.elim0⟩
  -- the predicate's one result word is one
  have h0 := congrFun h ValueIdx.ix0
  dsimp only [Cert.Pre_finite_inputs.fn] at h0
  -- a conjunction over all entries that is one has a one at the entry (r, k)
  have h1 := Host.reduce_andi_all _ _ _ _ _ h0 (ix2 r k)
  -- that entry is the comparison of the entry's absolute value with the infinity word
  have h2 : Ideal.cmp .olt (max (x (ix2 r k)) (-(x (ix2 r k)))) (Ideal.ofBits .f32 0x7F800000#32) = 1#1 := h1
  rw [inf_word_eq_top, cmp_olt_eq_one] at h2
  exact real_of_abs_lt_top _ h2

end Cert.FiniteIn

end
-- ==== Proof.lean ====
/-
  The certificate of the hard-mining loss kernel against its plain reference, over the extended reals.

  Both programs take a matrix of 8192 rows and 512 columns and a label per row, form the similarity of every pair of
  rows, and reduce the positive (same label, similarity below one) and negative (other label) entries of each row to
  four scalars. The reference does it on the whole 8192 x 8192 matrix. The kernel does it tile by tile: sixteen row
  blocks, each against sixteen column chunks in two passes (first the two row thresholds, then the counts and sums
  they select), on a bf16 copy of the matrix, with the diagonal of the similarities replaced by the rows' squared norms.
  Over the extended reals the copy is the matrix, the squared norm is the diagonal similarity, a minimum, a maximum or
  a sum taken chunk by chunk is the one over the row, and a count summed as ones is the count; the one step that needs
  the entries to be real numbers is that the sum of `one - sim` over kept entries is their number less the sum of
  their similarities, and that is what the precondition gives.

  The three frames: each program runs to the end from any memory, nothing faulting, and leaves its arguments as they
  were. The two kernel programs' runs are one argument (the body through its two counted loops, sixteen grid points,
  one array shared by two windows, host operations before and after the region), at both float instances; the
  reference's is its operations' run. The idealization changed nothing, so nothing is to preserve.
-/
import proofs.«422922_j45569603010928_3_alg».proof.Defs
import proofs.«422922_j45569603010928_3_alg».proof.Proof.Gen.Kernel
import proofs.«422922_j45569603010928_3_alg».proof.Proof.Gen.KernelIdeal
import proofs.«422922_j45569603010928_3_alg».proof.Proof.Gen.ReferenceIdeal
import proofs.«422922_j45569603010928_3_alg».proof.Proof.Gen.Pre_finite_inputs
import proofs.«422922_j45569603010928_3_alg».proof.Proof.K.Run
import proofs.«422922_j45569603010928_3_alg».proof.Proof.KI.Run
import proofs.«422922_j45569603010928_3_alg».proof.Proof.KI.Packed
import proofs.«422922_j45569603010928_3_alg».proof.Proof.KI.Tail
import proofs.«422922_j45569603010928_3_alg».proof.Proof.Ref.RunThm
import proofs.«422922_j45569603010928_3_alg».proof.Proof.Ref.RefValue
import proofs.«422922_j45569603010928_3_alg».proof.Proof.SpecBridge
import proofs.«422922_j45569603010928_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The frames -/

/-- The word-level kernel program runs and leaves its arguments unchanged. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W9_main_arg0 m c),
      (h c _ (Cert.Kernel.Hand.mem_uc Cert.Kernel.main_arg1 (by decide))).trans (Cert.Kernel.Hand.W9_main_arg1 m c)⟩)
    (Cert.Kernel.Hand.run (F := Bits) m ρ)

/-- The idealized kernel program runs and leaves its arguments unchanged. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W9_main_arg0 m c),
      (h c _ (Cert.KernelIdeal.Hand.mem_uc Cert.KernelIdeal.main_arg1 (by decide))).trans (Cert.KernelIdeal.Hand.W9_main_arg1 m c)⟩)
    (Cert.KernelIdeal.Hand.run (F := Ideal) m ρ)

/-- The reference runs and leaves its arguments unchanged: its operations' run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-! ## The two programs' results are one -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hpre : Cert.Pre_finite_inputs.fn (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) = fun _ => 1#1)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))

/-- The matrix and the labels the two programs are run on. -/
def matX : Cert.Spec.Mat := fun r k => m ((c.tc : Thread Cert.KernelIdeal.nD Cert.KernelIdeal.τ).loc Cert.KernelIdeal.main_arg0) (ix2 r k)
def labT : Cert.Spec.Lab := fun r => m ((c.tc : Thread Cert.KernelIdeal.nD Cert.KernelIdeal.τ).loc Cert.KernelIdeal.main_arg1) (ix1 r)

include hpre in
theorem matX_finite : Cert.Spec.Finite (matX m c) := fun r k => Cert.FiniteIn.real_of_pre _ _ hpre r k

include hpre h0 h1 in
/-- The reference's first result is the kernel's: both are the mean over the rows with a kept different-label entry. -/
theorem res0 : Cert.ReferenceIdeal.Read.val_main_v50 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.KernelIdeal.Hand.W9 (F := Ideal) m c (Proc.devRef .tc Cert.KernelIdeal.main_v26) := by
  funext i
  rw [eq_ix0 i, h0, h1,
    Cert.ReferenceIdeal.RefValue.val_main_v50_spec _ _ (matX m c) (labT m c) (fun _ _ => rfl) (fun _ => rfl),
    ← Cert.Spec.lossK_rowK (matX m c) (labT m c) (matX_finite m c hpre)]
  exact (Cert.KernelIdeal.KValue.W9_v26 m c (Cert.Spec.rowK (matX m c) (labT m c))
    (fun r q => Cert.KernelIdeal.KValue.packed_apply m c (matX m c) (labT m c) (fun _ _ => rfl) (fun _ => rfl) r q)).symm

include hpre h0 h1 in
/-- The second: the share of the rows without one. -/
theorem res1 : Cert.ReferenceIdeal.Read.val_main_v55 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.KernelIdeal.Hand.W9 (F := Ideal) m c (Proc.devRef .tc Cert.KernelIdeal.main_v31) := by
  funext i
  rw [eq_ix0 i, h0, h1,
    Cert.ReferenceIdeal.RefValue.val_main_v55_spec _ _ (matX m c) (labT m c) (fun _ _ => rfl) (fun _ => rfl),
    ← Cert.Spec.precK_rowK (matX m c) (labT m c) (matX_finite m c hpre)]
  exact (Cert.KernelIdeal.KValue.W9_v31 m c (Cert.Spec.rowK (matX m c) (labT m c))
    (fun r q => Cert.KernelIdeal.KValue.packed_apply m c (matX m c) (labT m c) (fun _ _ => rfl) (fun _ => rfl) r q)).symm

include hpre h0 h1 in
/-- The third and fourth: the last row's two means. -/
theorem res2 : Cert.ReferenceIdeal.Read.val_main_v68 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.KernelIdeal.Hand.W9 (F := Ideal) m c (Proc.devRef .tc Cert.KernelIdeal.main_v52) := by
  funext i
  rw [eq_ix0 i, h0, h1,
    Cert.ReferenceIdeal.RefValue.val_main_v68_spec _ _ (matX m c) (labT m c) (fun _ _ => rfl) (fun _ => rfl),
    ← Cert.Spec.mposK_eq (matX m c) (labT m c) (matX_finite m c hpre)]
  exact (Cert.KernelIdeal.KValue.W9_v52 m c (matX m c) (labT m c) (fun _ _ => rfl) (fun _ => rfl)).symm

include hpre h0 h1 in
theorem res3 : Cert.ReferenceIdeal.Read.val_main_v77 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.KernelIdeal.Hand.W9 (F := Ideal) m c (Proc.devRef .tc Cert.KernelIdeal.main_v58) := by
  funext i
  rw [eq_ix0 i, h0, h1,
    Cert.ReferenceIdeal.RefValue.val_main_v77_spec _ _ (matX m c) (labT m c) (fun _ _ => rfl) (fun _ => rfl),
    ← Cert.Spec.mnegK_eq (matX m c) (labT m c) (matX_finite m c hpre)]
  exact (Cert.KernelIdeal.KValue.W9_v58 m c (matX m c) (labT m c) (fun _ _ => rfl) (fun _ => rfl)).symm

end Results

/-- From memories agreeing on the arguments both idealized programs run, and end with equal results. -/
theorem algebraic : Cert.algebraic_KernelIdeal_ReferenceIdeal := by
  intro m ρ m' ρ' hpre hagree
  refine ⟨fun c => Cert.KernelIdeal.Hand.W9 (F := Ideal) m c (Proc.devRef .tc Cert.KernelIdeal.main_v26),
    fun c => Cert.KernelIdeal.Hand.W9 (F := Ideal) m c (Proc.devRef .tc Cert.KernelIdeal.main_v31),
    fun c => Cert.KernelIdeal.Hand.W9 (F := Ideal) m c (Proc.devRef .tc Cert.KernelIdeal.main_v52),
    fun c => Cert.KernelIdeal.Hand.W9 (F := Ideal) m c (Proc.devRef .tc Cert.KernelIdeal.main_v58), ?_, ?_⟩
  · exact (θ_run (Cert.KernelIdeal.defs (F := Ideal)) _ _).mono (fun r h c =>
      ⟨h c _ (Cert.KernelIdeal.Hand.mem_uc Cert.KernelIdeal.main_v26 (by decide)),
        h c _ (Cert.KernelIdeal.Hand.mem_uc Cert.KernelIdeal.main_v31 (by decide)),
        h c _ (Cert.KernelIdeal.Hand.mem_uc Cert.KernelIdeal.main_v52 (by decide)),
        h c _ (Cert.KernelIdeal.Hand.mem_uc Cert.KernelIdeal.main_v58 (by decide)),
        (h c _ (Cert.KernelIdeal.Hand.mem_uc Cert.KernelIdeal.main_arg0 (by decide))).trans (Cert.KernelIdeal.Hand.W9_main_arg0 m c),
        (h c _ (Cert.KernelIdeal.Hand.mem_uc Cert.KernelIdeal.main_arg1 (by decide))).trans (Cert.KernelIdeal.Hand.W9_main_arg1 m c)⟩)
      (Cert.KernelIdeal.Hand.run (F := Ideal) m ρ)
  · exact (θ_run Cert.ReferenceIdeal.defs _ _).mono (fun r h c =>
      ⟨((h c).1.trans (Cert.ReferenceIdeal.Read.val_main_v50_eq m' c)).trans (res0 m m' c (hpre c) (hagree c).1 (hagree c).2),
        ((h c).2.1.trans (Cert.ReferenceIdeal.Read.val_main_v55_eq _ _)).trans (res1 m m' c (hpre c) (hagree c).1 (hagree c).2),
        ((h c).2.2.1.trans (Cert.ReferenceIdeal.Read.val_main_v68_eq _ _)).trans (res2 m m' c (hpre c) (hagree c).1 (hagree c).2),
        ((h c).2.2.2.1.trans (Cert.ReferenceIdeal.Read.val_main_v77_eq _ _)).trans (res3 m m' c (hpre c) (hagree c).1 (hagree c).2),
        (h c).2.2.2.2.1, (h c).2.2.2.2.2⟩)
      (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
